-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x64 : Shape := ⟨2, ![600000, 64]⟩
abbrev S120000x64 : Shape := ⟨2, ![120000, 64]⟩
abbrev S128x30 : Shape := ⟨2, ![128, 30]⟩
abbrev S30 : Shape := ⟨1, ![30]⟩
abbrev S2x1000000 : Shape := ⟨2, ![2, 1000000]⟩
abbrev S100000 : Shape := ⟨1, ![100000]⟩
abbrev S20000 : Shape := ⟨1, ![20000]⟩
abbrev S_ : Shape := ⟨0, ![]⟩
abbrev S1x1000000 : Shape := ⟨2, ![1, 1000000]⟩
abbrev S1000000 : Shape := ⟨1, ![1000000]⟩

class Facts : Prop where
  bcast_S_S600000x64 : S_.BroadcastsInDim S600000x64 (![] : Fin 0 → Fin S600000x64.rank)
  reducesTo_S600000x64_S_d0_1 : S600000x64.ReducesTo [0, 1] S_
  h_S_ : 0 < S_.numel
  bcast_S_S120000x64 : S_.BroadcastsInDim S120000x64 (![] : Fin 0 → Fin S120000x64.rank)
  reducesTo_S120000x64_S_d0_1 : S120000x64.ReducesTo [0, 1] S_
  bcast_S_S128x30 : S_.BroadcastsInDim S128x30 (![] : Fin 0 → Fin S128x30.rank)
  reducesTo_S128x30_S_d0_1 : S128x30.ReducesTo [0, 1] S_
  bcast_S_S30 : S_.BroadcastsInDim S30 (![] : Fin 0 → Fin S30.rank)
  reducesTo_S30_S_d0 : S30.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_
  slices_S2x1000000_S1x1000000_1_0 : S2x1000000.Slices ![1, 0] S1x1000000

variable [Facts]

def fn_part2 {F : FTy → Type} [FloatOps F] (main_arg4 : IVec S2x1000000 32) (main_v30 : IVec S_ 1) (main_v34 : IVec S1000000 1) : IVec S_ 1 :=
  let main_c_11 : IVec S_ 1 := constantI S_ 1 1#1
  let main_v35 : IVec S_ 1 := (fun x v => Host.reduce IntOp.andi x v reducesTo_S1000000_S_d0 h_S_) main_v34 main_c_11
  let main_v36 : IVec S_ 1 := andi main_v30 main_v35
  let main_v37 : IVec S1x1000000 32 := (extractStridedSlice S1x1000000 ![1, 0] · slices_S2x1000000_S1x1000000_1_0) main_arg4
  let main_v38 : IVec S1000000 32 := shapeCast S1000000 main_v37 shapeCasts_S1x1000000_S1000000
  let main_c_12 : IVec S_ 32 := constantI S_ 32 20000#32
  let main_v39 : IVec S1000000 32 := broadcastInDim S1000000 ![] bcast_S_S1000000 main_c_12
  let main_v40 : IVec S1000000 1 := cmpi .slt main_v38 main_v39
  let main_c_13 : IVec S_ 1 := constantI S_ 1 1#1
  let main_v41 : IVec S_ 1 := (fun x v => Host.reduce IntOp.andi x v reducesTo_S1000000_S_d0 h_S_) main_v40 main_c_13
  let main_v42 : IVec S_ 1 := andi main_v36 main_v41
  main_v42

def fn_part1 {F : FTy → Type} [FloatOps F] (main_arg4 : IVec S2x1000000 32) (main_v13 : IVec S_ 1) (main_v16 : IVec S30 1) : IVec S_ 1 :=
  let main_c_5 : IVec S_ 1 := constantI S_ 1 1#1
  let main_v17 : IVec S_ 1 := (fun x v => Host.reduce IntOp.andi x v reducesTo_S30_S_d0 h_S_) main_v16 main_c_5
  let main_v18 : IVec S_ 1 := andi main_v13 main_v17
  let main_v19 : IVec S1x1000000 32 := (extractStridedSlice S1x1000000 ![0, 0] · slices_S2x1000000_S1x1000000_0_0) main_arg4
  let main_v20 : IVec S1000000 32 := shapeCast S1000000 main_v19 shapeCasts_S1x1000000_S1000000
  let main_c_6 : IVec S_ 32 := constantI S_ 32 4294867296#32
  let main_v21 : IVec S1000000 32 := broadcastInDim S1000000 ![] bcast_S_S1000000 main_c_6
  let main_v22 : IVec S1000000 1 := cmpi .sge main_v20 main_v21
  let main_c_7 : IVec S_ 1 := constantI S_ 1 1#1
  let main_v23 : IVec S_ 1 := (fun x v => Host.reduce IntOp.andi x v reducesTo_S1000000_S_d0 h_S_) main_v22 main_c_7
  let main_v24 : IVec S_ 1 := andi main_v18 main_v23
  let main_v25 : IVec S1x1000000 32 := (extractStridedSlice S1x1000000 ![0, 0] · slices_S2x1000000_S1x1000000_0_0) main_arg4
  let main_v26 : IVec S1000000 32 := shapeCast S1000000 main_v25 shapeCasts_S1x1000000_S1000000
  let main_c_8 : IVec S_ 32 := constantI S_ 32 100000#32
  let main_v27 : IVec S1000000 32 := broadcastInDim S1000000 ![] bcast_S_S1000000 main_c_8
  let main_v28 : IVec S1000000 1 := cmpi .slt main_v26 main_v27
  let main_c_9 : IVec S_ 1 := constantI S_ 1 1#1
  let main_v29 : IVec S_ 1 := (fun x v => Host.reduce IntOp.andi x v reducesTo_S1000000_S_d0 h_S_) main_v28 main_c_9
  let main_v30 : IVec S_ 1 := andi main_v24 main_v29
  let main_v31 : IVec S1x1000000 32 := (extractStridedSlice S1x1000000 ![1, 0] · slices_S2x1000000_S1x1000000_1_0) main_arg4
  let main_v32 : IVec S1000000 32 := shapeCast S1000000 main_v31 shapeCasts_S1x1000000_S1000000
  let main_c_10 : IVec S_ 32 := constantI S_ 32 4294947296#32
  let main_v33 : IVec S1000000 32 := broadcastInDim S1000000 ![] bcast_S_S1000000 main_c_10
  let main_v34 : IVec S1000000 1 := cmpi .sge main_v32 main_v33
  fn_part2 (F := F) main_arg4 main_v30 main_v34

def fn {F : FTy → Type} [FloatOps F] (main_arg0 : FVec F S600000x64 .f32) (main_arg1 : FVec F S120000x64 .f32) (main_arg2 : FVec F S128x30 .f32) (main_arg3 : FVec F S30 .f32) (main_arg4 : IVec S2x1000000 32) (main_arg5 : IVec S100000 32) (main_arg6 : IVec S20000 32) : IVec S_ 1 :=
  let main_v0 : FVec F S600000x64 .f32 := Host.absf main_arg0
  let main_cst : FVec F S_ .f32 := constant S_ .f32 0x7F800000#32
  let main_v1 : FVec F S600000x64 .f32 := broadcastInDim S600000x64 ![] bcast_S_S600000x64 main_cst
  let main_v2 : IVec S600000x64 1 := cmpf .olt main_v0 main_v1
  let main_c : IVec S_ 1 := constantI S_ 1 1#1
  let main_v3 : IVec S_ 1 := (fun x v => Host.reduce IntOp.andi x v reducesTo_S600000x64_S_d0_1 h_S_) main_v2 main_c
  let main_v4 : FVec F S120000x64 .f32 := Host.absf main_arg1
  let main_cst_0 : FVec F S_ .f32 := constant S_ .f32 0x7F800000#32
  let main_v5 : FVec F S120000x64 .f32 := broadcastInDim S120000x64 ![] bcast_S_S120000x64 main_cst_0
  let main_v6 : IVec S120000x64 1 := cmpf .olt main_v4 main_v5
  let main_c_1 : IVec S_ 1 := constantI S_ 1 1#1
  let main_v7 : IVec S_ 1 := (fun x v => Host.reduce IntOp.andi x v reducesTo_S120000x64_S_d0_1 h_S_) main_v6 main_c_1
  let main_v8 : IVec S_ 1 := andi main_v3 main_v7
  let main_v9 : FVec F S128x30 .f32 := Host.absf main_arg2
  let main_cst_2 : FVec F S_ .f32 := constant S_ .f32 0x7F800000#32
  let main_v10 : FVec F S128x30 .f32 := broadcastInDim S128x30 ![] bcast_S_S128x30 main_cst_2
  let main_v11 : IVec S128x30 1 := cmpf .olt main_v9 main_v10
  let main_c_3 : IVec S_ 1 := constantI S_ 1 1#1
  let main_v12 : IVec S_ 1 := (fun x v => Host.reduce IntOp.andi x v reducesTo_S128x30_S_d0_1 h_S_) main_v11 main_c_3
  let main_v13 : IVec S_ 1 := andi main_v8 main_v12
  let main_v14 : FVec F S30 .f32 := Host.absf main_arg3
  let main_cst_4 : FVec F S_ .f32 := constant S_ .f32 0x7F800000#32
  let main_v15 : FVec F S30 .f32 := broadcastInDim S30 ![] bcast_S_S30 main_cst_4
  let main_v16 : IVec S30 1 := cmpf .olt main_v14 main_v15
  fn_part1 (F := F) main_arg4 main_v13 main_v16
-- ==== Kernel.lean ====
abbrev S600000x64 : Shape := ⟨2, ![600000, 64]⟩
abbrev S120000x64 : Shape := ⟨2, ![120000, 64]⟩
abbrev S128x30 : Shape := ⟨2, ![128, 30]⟩
abbrev S30 : Shape := ⟨1, ![30]⟩
abbrev S2x1000000 : Shape := ⟨2, ![2, 1000000]⟩
abbrev S100000 : Shape := ⟨1, ![100000]⟩
abbrev S20000 : Shape := ⟨1, ![20000]⟩
abbrev S100000x64 : Shape := ⟨2, ![100000, 64]⟩
abbrev S6000x64 : Shape := ⟨2, ![6000, 64]⟩
abbrev S1000x64 : Shape := ⟨2, ![1000, 64]⟩
abbrev S1000x6x64 : Shape := ⟨3, ![1000, 6, 64]⟩
abbrev S20000x64 : Shape := ⟨2, ![20000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S1000448x64 : Shape := ⟨2, ![1000448, 64]⟩
abbrev S1000448 : Shape := ⟨1, ![1000448]⟩
abbrev S1000448x36 : Shape := ⟨2, ![1000448, 36]⟩
abbrev S1024x64 : Shape := ⟨2, ![1024, 64]⟩
abbrev S1024 : Shape := ⟨1, ![1024]⟩
abbrev S1024x36 : Shape := ⟨2, ![1024, 36]⟩
abbrev S1024x128 : Shape := ⟨2, ![1024, 128]⟩
abbrev S1024x30 : Shape := ⟨2, ![1024, 30]⟩
abbrev S1x30 : Shape := ⟨2, ![1, 30]⟩
abbrev S1024x12 : Shape := ⟨2, ![1024, 12]⟩
abbrev S1024x6x2 : Shape := ⟨3, ![1024, 6, 2]⟩
abbrev S1024x6 : Shape := ⟨2, ![1024, 6]⟩
abbrev S1024x6x6 : Shape := ⟨3, ![1024, 6, 6]⟩
abbrev S1024x6x1 : Shape := ⟨3, ![1024, 6, 1]⟩
abbrev S1024x1x6 : Shape := ⟨3, ![1024, 1, 6]⟩
abbrev S6x6 : Shape := ⟨2, ![6, 6]⟩
abbrev S1x6x6 : Shape := ⟨3, ![1, 6, 6]⟩
abbrev S36 : Shape := ⟨1, ![36]⟩
abbrev S1024x1 : Shape := ⟨2, ![1024, 1]⟩
abbrev S1x36 : Shape := ⟨2, ![1, 36]⟩
abbrev S1000000x36 : Shape := ⟨2, ![1000000, 36]⟩
abbrev S36000000 : Shape := ⟨1, ![36000000]⟩
abbrev S1x36000000 : Shape := ⟨2, ![1, 36000000]⟩
abbrev S2x36000000 : Shape := ⟨2, ![2, 36000000]⟩

abbrev nBuf : Space → Nat
  | .hbm => 83
  | .vmem => 24
  | .smem => 0
  | _ => 0

abbrev bufTy : (tb : Table) → Fin (tcTables nBuf tb) → BufTy
  | .hbm, ⟨0, _⟩ => ⟨S600000x64, .f32⟩
  | .hbm, ⟨1, _⟩ => ⟨S120000x64, .f32⟩
  | .hbm, ⟨2, _⟩ => ⟨S128x30, .f32⟩
  | .hbm, ⟨3, _⟩ => ⟨S30, .f32⟩
  | .hbm, ⟨4, _⟩ => ⟨S2x1000000, .i32⟩
  | .hbm, ⟨5, _⟩ => ⟨S100000, .i32⟩
  | .hbm, ⟨6, _⟩ => ⟨S20000, .i32⟩
  | .hbm, ⟨7, _⟩ => ⟨S100000x64, .f32⟩
  | .hbm, ⟨8, _⟩ => ⟨S20000x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1, .i32⟩
  | .hbm, ⟨22, _⟩ => ⟨S_, .i32⟩
  | .hbm, ⟨23, _⟩ => ⟨S1000000x1, .i32⟩
  | .hbm, ⟨24, _⟩ => ⟨S1000000x1, .i1⟩
  | .hbm, ⟨25, _⟩ => ⟨S1x1, .i32⟩
  | .hbm, ⟨26, _⟩ => ⟨S1000000x1, .i32⟩
  | .hbm, ⟨27, _⟩ => ⟨S1000000x1, .i1⟩
  | .hbm, ⟨28, _⟩ => ⟨S1000000x1, .i1⟩
  | .hbm, ⟨29, _⟩ => ⟨S_, .i1⟩
  | .hbm, ⟨30, _⟩ => ⟨S1000000, .i1⟩
  | .hbm, ⟨31, _⟩ => ⟨S1000000x64, .f32⟩
  | .hbm, ⟨32, _⟩ => ⟨S1000000x64, .i1⟩
  | .hbm, ⟨33, _⟩ => ⟨S_, .f32⟩
  | .hbm, ⟨34, _⟩ => ⟨S1000000x64, .f32⟩
  | .hbm, ⟨35, _⟩ => ⟨S1000000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1, .i32⟩
  | .hbm, ⟨45, _⟩ => ⟨S_, .i32⟩
  | .hbm, ⟨46, _⟩ => ⟨S1000000x1, .i32⟩
  | .hbm, ⟨47, _⟩ => ⟨S1000000x1, .i1⟩
  | .hbm, ⟨48, _⟩ => ⟨S1x1, .i32⟩
  | .hbm, ⟨49, _⟩ => ⟨S1000000x1, .i32⟩
  | .hbm, ⟨50, _⟩ => ⟨S1000000x1, .i1⟩
  | .hbm, ⟨51, _⟩ => ⟨S1000000x1, .i1⟩
  | .hbm, ⟨52, _⟩ => ⟨S_, .i1⟩
  | .hbm, ⟨53, _⟩ => ⟨S1000000, .i1⟩
  | .hbm, ⟨54, _⟩ => ⟨S1000000x64, .f32⟩
  | .hbm, ⟨55, _⟩ => ⟨S1000000x64, .i1⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S_, .i32⟩
  | .hbm, ⟨60, _⟩ => ⟨S_, .f32⟩
  | .hbm, ⟨61, _⟩ => ⟨S1000448x64, .f32⟩
  | .hbm, ⟨62, _⟩ => ⟨S_, .i32⟩
  | .hbm, ⟨63, _⟩ => ⟨S_, .f32⟩
  | .hbm, ⟨64, _⟩ => ⟨S1000448x64, .f32⟩
  | .hbm, ⟨65, _⟩ => ⟨S_, .i32⟩
  | .hbm, ⟨66, _⟩ => ⟨S_, .i32⟩
  | .hbm, ⟨67, _⟩ => ⟨S1000448, .i32⟩
  | .hbm, ⟨68, _⟩ => ⟨S_, .i32⟩
  | .hbm, ⟨69, _⟩ => ⟨S_, .i32⟩
  | .hbm, ⟨70, _⟩ => ⟨S1000448, .i32⟩
  | .hbm, ⟨71, _⟩ => ⟨S1000448x36, .f32⟩
  | .hbm, ⟨72, _⟩ => ⟨S1000448x36, .i32⟩
  | .hbm, ⟨73, _⟩ => ⟨S1000448x36, .i32⟩
  | .hbm, ⟨74, _⟩ => ⟨S1000000x36, .f32⟩
  | .hbm, ⟨75, _⟩ => ⟨S36000000, .f32⟩
  | .hbm, ⟨76, _⟩ => ⟨S1000000x36, .i32⟩
  | .hbm, ⟨77, _⟩ => ⟨S36000000, .i32⟩
  | .hbm, ⟨78, _⟩ => ⟨S1000000x36, .i32⟩
  | .hbm, ⟨79, _⟩ => ⟨S36000000, .i32⟩
  | .hbm, ⟨80, _⟩ => ⟨S1x36000000, .i32⟩
  | .hbm, ⟨81, _⟩ => ⟨S1x36000000, .i32⟩
  | .hbm, ⟨82, _⟩ => ⟨S2x36000000, .i32⟩
  | .local _ .vmem, ⟨0, _⟩ => ⟨S6000x64, .f32⟩
  | .local _ .vmem, ⟨1, _⟩ => ⟨S6000x64, .f32⟩
  | .local _ .vmem, ⟨2, _⟩ => ⟨S1000x64, .f32⟩
  | .local _ .vmem, ⟨3, _⟩ => ⟨S1000x64, .f32⟩
  | .local _ .vmem, ⟨4, _⟩ => ⟨S6000x64, .f32⟩
  | .local _ .vmem, ⟨5, _⟩ => ⟨S6000x64, .f32⟩
  | .local _ .vmem, ⟨6, _⟩ => ⟨S1000x64, .f32⟩
  | .local _ .vmem, ⟨7, _⟩ => ⟨S1000x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024, .i32⟩
  | .local _ .vmem, ⟨13, _⟩ => ⟨S1024, .i32⟩
  | .local _ .vmem, ⟨14, _⟩ => ⟨S1024, .i32⟩
  | .local _ .vmem, ⟨15, _⟩ => ⟨S1024, .i32⟩
  | .local _ .vmem, ⟨16, _⟩ => ⟨S128x30, .f32⟩
  | .local _ .vmem, ⟨17, _⟩ => ⟨S30, .f32⟩
  | .local _ .vmem, ⟨18, _⟩ => ⟨S1024x36, .f32⟩
  | .local _ .vmem, ⟨19, _⟩ => ⟨S1024x36, .f32⟩
  | .local _ .vmem, ⟨20, _⟩ => ⟨S1024x36, .i32⟩
  | .local _ .vmem, ⟨21, _⟩ => ⟨S1024x36, .i32⟩
  | .local _ .vmem, ⟨22, _⟩ => ⟨S1024x36, .i32⟩
  | .local _ .vmem, ⟨23, _⟩ => ⟨S1024x36, .i32⟩
  | _, _ => ⟨S600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_c : Ref sig .tc := ⟨.hbm, 59, rfl⟩
abbrev main_call2_v0 : Ref sig .tc := ⟨.hbm, 60, rfl⟩
abbrev main_v8 : Ref sig .tc := ⟨.hbm, 61, rfl⟩
abbrev main_c_0 : Ref sig .tc := ⟨.hbm, 62, rfl⟩
abbrev main_call3_v0 : Ref sig .tc := ⟨.hbm, 63, rfl⟩
abbrev main_v9 : Ref sig .tc := ⟨.hbm, 64, rfl⟩
abbrev main_c_1 : Ref sig .tc := ⟨.hbm, 65, rfl⟩
abbrev main_call4_v0 : Ref sig .tc := ⟨.hbm, 66, rfl⟩
abbrev main_v10 : Ref sig .tc := ⟨.hbm, 67, rfl⟩
abbrev main_c_2 : Ref sig .tc := ⟨.hbm, 68, rfl⟩
abbrev main_call5_v0 : Ref sig .tc := ⟨.hbm, 69, rfl⟩
abbrev main_v11 : Ref sig .tc := ⟨.hbm, 70, rfl⟩
abbrev main_v12_0 : Ref sig .tc := ⟨.hbm, 71, rfl⟩
abbrev main_v12_1 : Ref sig .tc := ⟨.hbm, 72, rfl⟩
abbrev main_v12_2 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem5_0 : DmaSem sig := 17
abbrev cc2_sem6_0 : DmaSem sig := 18
abbrev cc2_sem6_1 : DmaSem sig := 19
abbrev cc2_sem7_0 : DmaSem sig := 20
abbrev cc2_sem7_1 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![977], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 1 → Nat :=
  let arg0 : BitVec 32 := BitVec.ofNat 32 (i 0).val
  let c0_i32 : BitVec 32 := 0#32
  ![arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x30 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S30 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x36 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1024x36 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1024x36 .i32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  inb_S6000x64_S6000x64_0_0 : ∀ a, (![0, 0] : Fin 2 → Nat) a + S6000x64.size a ≤ S6000x64.size a
  h_S6000x64 : 0 < S6000x64.numel
  shapeCasts_S6000x64_S1000x6x64 : S6000x64.ShapeCasts S1000x6x64
  reduces_S1000x6x64_S1000x64 : S1000x6x64.Reduces [1] S1000x64
  inb_S1000x64_S1000x64_0_0 : ∀ a, (![0, 0] : Fin 2 → Nat) a + S1000x64.size a ≤ S1000x64.size a
  h_S1000x64 : 0 < S1000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  pads_S1000000x64_S1000448x64_04480_000 : S1000000x64.Pads (![0, 0] : Fin 2 → Nat) ![448, 0] ![0, 0] S1000448x64
  pads_S1000000_S1000448_04480 : S1000000.Pads (![0] : Fin 1 → Nat) ![448] ![0] S1000448
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  concatenates_S1024x64_S1024x64_S1024x128_d1 : Shape.Concatenates [S1024x64, S1024x64] S1024x128 1
  inb_S128x30_S128x30_0_0 : ∀ a, (![0, 0] : Fin 2 → Nat) a + S128x30.size a ≤ S128x30.size a
  h_S128x30 : 0 < S128x30.numel
  bitsLt_bf16_f32 : FTy.bits .bf16 < FTy.bits .f32
  inb_S30_S30_0 : ∀ a, (![0] : Fin 1 → Nat) a + S30.size a ≤ S30.size a
  h_S30 : 0 < S30.numel
  shapeCasts_S30_S1x30 : S30.ShapeCasts S1x30
  broadcasts_S1x30_S1024x30 : S1x30.Broadcasts S1024x30
  slices_S1024x30_o0_0_S1024x12 : S1024x30.Slices ![0, 0] S1024x12
  shapeCasts_S1024x12_S1024x6x2 : S1024x12.ShapeCasts S1024x6x2
  slices_S1024x30_o0_12_S1024x12 : S1024x30.Slices ![0, 12] S1024x12
  slices_S1024x30_o0_24_S1024x6 : S1024x30.Slices ![0, 24] S1024x6
  slices_S1024x6x2_o0_0_0_S1024x6x1 : S1024x6x2.Slices ![0, 0, 0] S1024x6x1
  shapeCasts_S1024x6x1_S1024x6 : S1024x6x1.ShapeCasts S1024x6
  shapeCasts_S1024x6_S1024x6x1 : S1024x6.ShapeCasts S1024x6x1
  shapeCasts_S1024x6_S1024x1x6 : S1024x6.ShapeCasts S1024x1x6
  broadcasts_S1024x6x1_S1024x6x6 : S1024x6x1.Broadcasts S1024x6x6
  broadcasts_S1024x1x6_S1024x6x6 : S1024x1x6.Broadcasts S1024x6x6
  slices_S1024x6x2_o0_0_1_S1024x6x1 : S1024x6x2.Slices ![0, 0, 1] S1024x6x1
  iota_S6x6_d0_w32 : S6x6.Iotas .tc 32 [0]
  iota_S6x6_d1_w32 : S6x6.Iotas .tc 32 [1]
  natLt_1_32 : 1 < 32
  shapeCasts_S6x6_S1x6x6 : S6x6.ShapeCasts S1x6x6
  shapeCasts_S1x6x6_S1x6x6 : S1x6x6.ShapeCasts S1x6x6
  broadcasts_S1x6x6_S1024x6x6 : S1x6x6.Broadcasts S1024x6x6
  shapeCasts_S1024x6x6_S1024x36 : S1024x6x6.ShapeCasts S1024x36
  inb_S1024x36_S1024x36_0_0 : ∀ a, (![0, 0] : Fin 2 → Nat) a + S1024x36.size a ≤ S1024x36.size a
  h_S1024x36 : 0 < S1024x36.numel
  inb_S1024_S1024_0 : ∀ a, (![0] : Fin 1 → Nat) a + S1024.size a ≤ S1024.size a
  h_S1024 : 0 < S1024.numel
  shapeCasts_S1024_S1024 : S1024.ShapeCasts S1024
  shapeCasts_S6x6_S36 : S6x6.ShapeCasts S36
  shapeCasts_S1024_S1024x1 : S1024.ShapeCasts S1024x1
  shapeCasts_S36_S1x36 : S36.ShapeCasts S1x36
  broadcasts_S1024x1_S1024x36 : S1024x1.Broadcasts S1024x36
  broadcasts_S1x36_S1024x36 : S1x36.Broadcasts S1024x36
  slices_S1000448x36_S1000000x36_0_0 : S1000448x36.Slices ![0, 0] S1000000x36
  shapeCasts_S1000000x36_S36000000 : S1000000x36.ShapeCasts S36000000
  bcast_S36000000_S1x36000000_1 : S36000000.BroadcastsInDim S1x36000000 (![1] : Fin 1 → Fin S1x36000000.rank)
  concatenates_S1x36000000_S1x36000000_S2x36000000_d0 : Shape.Concatenates [S1x36000000, S1x36000000] S2x36000000 0
  gather_S100000x64_S1000000x1_S1000000x64_1_0_n_n_0_1_164_wf : GatherDims.WF S100000x64 S1000000x1 S1000000x64 [1] [0] [] [0] [] 1 ![1, 64]
  gather_S20000x64_S1000000x1_S1000000x64_1_0_n_n_0_1_164_wf : GatherDims.WF S20000x64 S1000000x1 S1000000x64 [1] [0] [] [0] [] 1 ![1, 64]
  dot_S1024x128_S128x30_S1024x30_1_0_0_1_n_n_wf : DotDims.WF S1024x128 S128x30 S1024x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S600000x64.size a
  hwx0_0 : ∀ i : grid0.Coords, EltTy.bits .f32 = 32 ∨ (Rect.block (s := S600000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S100000x64.size a
  hwx0_1 : ∀ i : grid0.Coords, EltTy.bits .f32 = 32 ∨ (Rect.block (s := S100000x64) S1000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S120000x64.size a
  hwx1_0 : ∀ i : grid1.Coords, EltTy.bits .f32 = 32 ∨ (Rect.block (s := S120000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S20000x64.size a
  hwx1_1 : ∀ i : grid1.Coords, EltTy.bits .f32 = 32 ∨ (Rect.block (s := S20000x64) S1000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S1000448x64.size a
  hwx2_0 : ∀ i : grid2.Coords, EltTy.bits .f32 = 32 ∨ (Rect.block (s := S1000448x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S1000448x64.size a
  hwx2_1 : ∀ i : grid2.Coords, EltTy.bits .f32 = 32 ∨ (Rect.block (s := S1000448x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1000448.size a
  hwx2_2 : ∀ i : grid2.Coords, EltTy.bits .i32 = 32 ∨ (Rect.block (s := S1000448) S1024.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1000448.size a
  hwx2_3 : ∀ i : grid2.Coords, EltTy.bits .i32 = 32 ∨ (Rect.block (s := S1000448) S1024.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x30.size a ≤ S128x30.size a
  hwx2_4 : ∀ i : grid2.Coords, EltTy.bits .f32 = 32 ∨ (Rect.block (s := S128x30) S128x30.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S30.size a ≤ S30.size a
  hwx2_5 : ∀ i : grid2.Coords, EltTy.bits .f32 = 32 ∨ (Rect.block (s := S30) S30.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x36.size a ≤ S1000448x36.size a
  hwx2_6 : ∀ i : grid2.Coords, EltTy.bits .f32 = 32 ∨ (Rect.block (s := S1000448x36) S1024x36.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x36.size a ≤ S1000448x36.size a
  hwx2_7 : ∀ i : grid2.Coords, EltTy.bits .i32 = 32 ∨ (Rect.block (s := S1000448x36) S1024x36.size (cc2_transform_7 i) (hinb2_7 i)).WholeWords (EltTy.packing .i32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x36.size a ≤ S1000448x36.size a
  hwx2_8 : ∀ i : grid2.Coords, EltTy.bits .i32 = 32 ∨ (Rect.block (s := S1000448x36) S1024x36.size (cc2_transform_8 i) (hinb2_8 i)).WholeWords (EltTy.packing .i32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def dot_S1024x128_S128x30_S1024x30_1_0_0_1_n_n : DotDims S1024x128 S128x30 S1024x30 where
  lhsContracting := [1]
  rhsContracting := [0]
  lhsNonContracting := [0]
  rhsNonContracting := [1]
  lhsBatch := []
  rhsBatch := []
  wf := dot_S1024x128_S128x30_S1024x30_1_0_0_1_n_n_wf

abbrev win0_0 : Pipeline.Window sig grid0 :=
  Pipeline.Window.ofSpec (Memref.whole main_arg0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v8) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S128x30.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg3) S30.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12_0) S1024x36.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v12_1) S1024x36.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v12_2) S1024x36.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S600000x64 : Shape := ⟨2, ![600000, 64]⟩
abbrev S120000x64 : Shape := ⟨2, ![120000, 64]⟩
abbrev S128x30 : Shape := ⟨2, ![128, 30]⟩
abbrev S30 : Shape := ⟨1, ![30]⟩
abbrev S2x1000000 : Shape := ⟨2, ![2, 1000000]⟩
abbrev S100000 : Shape := ⟨1, ![100000]⟩
abbrev S20000 : Shape := ⟨1, ![20000]⟩
abbrev S100000x6x64 : Shape := ⟨3, ![100000, 6, 64]⟩
abbrev S_ : Shape := ⟨0, ![]⟩
abbrev S100000x64 : Shape := ⟨2, ![100000, 64]⟩
abbrev S20000x6x64 : Shape := ⟨3, ![20000, 6, 64]⟩
abbrev S20000x64 : Shape := ⟨2, ![20000, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1000000x128 : Shape := ⟨2, ![1000000, 128]⟩
abbrev S1000000x30 : Shape := ⟨2, ![1000000, 30]⟩
abbrev S1x30 : Shape := ⟨2, ![1, 30]⟩
abbrev S1000000x12 : Shape := ⟨2, ![1000000, 12]⟩
abbrev S1000000x6x2 : Shape := ⟨3, ![1000000, 6, 2]⟩
abbrev S1000000x6 : Shape := ⟨2, ![1000000, 6]⟩
abbrev S1000000x6x6 : Shape := ⟨3, ![1000000, 6, 6]⟩
abbrev S1000000x6x1 : Shape := ⟨3, ![1000000, 6, 1]⟩
abbrev S6x6 : Shape := ⟨2, ![6, 6]⟩
abbrev S1x6x6 : Shape := ⟨3, ![1, 6, 6]⟩
abbrev S36000000 : Shape := ⟨1, ![36000000]⟩
abbrev S6 : Shape := ⟨1, ![6]⟩
abbrev S36 : Shape := ⟨1, ![36]⟩
abbrev S1x6 : Shape := ⟨2, ![1, 6]⟩
abbrev S1x36 : Shape := ⟨2, ![1, 36]⟩
abbrev S1000000x36 : Shape := ⟨2, ![1000000, 36]⟩
abbrev S1x36000000 : Shape := ⟨2, ![1, 36000000]⟩
abbrev S2x36000000 : Shape := ⟨2, ![2, 36000000]⟩

abbrev nBuf : Space → Nat
  | .hbm => 101
  | .vmem => 0
  | .smem => 0
  | _ => 0

abbrev bufTy : (tb : Table) → Fin (tcTables nBuf tb) → BufTy
  | .hbm, ⟨0, _⟩ => ⟨S600000x64, .f32⟩
  | .hbm, ⟨1, _⟩ => ⟨S120000x64, .f32⟩
  | .hbm, ⟨2, _⟩ => ⟨S128x30, .f32⟩
  | .hbm, ⟨3, _⟩ => ⟨S30, .f32⟩
  | .hbm, ⟨4, _⟩ => ⟨S2x1000000, .i32⟩
  | .hbm, ⟨5, _⟩ => ⟨S100000, .i32⟩
  | .hbm, ⟨6, _⟩ => ⟨S20000, .i32⟩
  | .hbm, ⟨7, _⟩ => ⟨S100000x6x64, .f32⟩
  | .hbm, ⟨8, _⟩ => ⟨S_, .f32⟩
  | .hbm, ⟨9, _⟩ => ⟨S100000x64, .f32⟩
  | .hbm, ⟨10, _⟩ => ⟨S_, .f32⟩
  | .hbm, ⟨11, _⟩ => ⟨S100000x64, .f32⟩
  | .hbm, ⟨12, _⟩ => ⟨S100000x64, .f32⟩
  | .hbm, ⟨13, _⟩ => ⟨S20000x6x64, .f32⟩
  | .hbm, ⟨14, _⟩ => ⟨S_, .f32⟩
  | .hbm, ⟨15, _⟩ => ⟨S20000x64, .f32⟩
  | .hbm, ⟨16, _⟩ => ⟨S_, .f32⟩
  | .hbm, ⟨17, _⟩ => ⟨S20000x64, .f32⟩
  | .hbm, ⟨18, _⟩ => ⟨S20000x64, .f32⟩
  | .hbm, ⟨19, _⟩ => ⟨S1x1000000, .i32⟩
  | .hbm, ⟨20, _⟩ => ⟨S1000000, .i32⟩
  | .hbm, ⟨21, _⟩ => ⟨S1x1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S1000000x128, .f32⟩
  | .hbm, ⟨42, _⟩ => ⟨S1000000x30, .f32⟩
  | .hbm, ⟨43, _⟩ => ⟨S1x30, .f32⟩
  | .hbm, ⟨44, _⟩ => ⟨S1000000x30, .f32⟩
  | .hbm, ⟨45, _⟩ => ⟨S1000000x30, .f32⟩
  | .hbm, ⟨46, _⟩ => ⟨S1000000x30, .f32⟩
  | .hbm, ⟨47, _⟩ => ⟨S1000000x30, .f32⟩
  | .hbm, ⟨48, _⟩ => ⟨S_, .f32⟩
  | .hbm, ⟨49, _⟩ => ⟨S1000000x30, .f32⟩
  | .hbm, ⟨50, _⟩ => ⟨S1000000x30, .f32⟩
  | .hbm, ⟨51, _⟩ => ⟨S_, .f32⟩
  | .hbm, ⟨52, _⟩ => ⟨S1000000x30, .f32⟩
  | .hbm, ⟨53, _⟩ => ⟨S1000000x30, .f32⟩
  | .hbm, ⟨54, _⟩ => ⟨S1000000x12, .f32⟩
  | .hbm, ⟨55, _⟩ => ⟨S1000000x6x2, .f32⟩
  | .hbm, ⟨56, _⟩ => ⟨S1000000x12, .f32⟩
  | .hbm, ⟨57, _⟩ => ⟨S1000000x6x2, .f32⟩
  | .hbm, ⟨58, _⟩ => ⟨S1000000x6, .f32⟩
  | .hbm, ⟨59, _⟩ => ⟨S1000000x6x6, .f32⟩
  | .hbm, ⟨60, _⟩ => ⟨S1000000x6x1, .f32⟩
  | .hbm, ⟨61, _⟩ => ⟨S6x6, .i32⟩
  | .hbm, ⟨62, _⟩ => ⟨S6x6, .i32⟩
  | .hbm, ⟨63, _⟩ => ⟨S_, .i32⟩
  | .hbm, ⟨64, _⟩ => ⟨S6x6, .i32⟩
  | .hbm, ⟨65, _⟩ => ⟨S6x6, .i32⟩
  | .hbm, ⟨66, _⟩ => ⟨S6x6, .i1⟩
  | .hbm, ⟨67, _⟩ => ⟨S6x6, .f32⟩
  | .hbm, ⟨68, _⟩ => ⟨S1x6x6, .f32⟩
  | .hbm, ⟨69, _⟩ => ⟨S1000000x6x6, .f32⟩
  | .hbm, ⟨70, _⟩ => ⟨S1000000x6x6, .f32⟩
  | .hbm, ⟨71, _⟩ => ⟨S1000000x6x6, .f32⟩
  | .hbm, ⟨72, _⟩ => ⟨S1000000x6x6, .f32⟩
  | .hbm, ⟨73, _⟩ => ⟨S36000000, .f32⟩
  | .hbm, ⟨74, _⟩ => ⟨S6, .i32⟩
  | .hbm, ⟨75, _⟩ => ⟨S6x6, .i32⟩
  | .hbm, ⟨76, _⟩ => ⟨S36, .i32⟩
  | .hbm, ⟨77, _⟩ => ⟨S1x6, .i32⟩
  | .hbm, ⟨78, _⟩ => ⟨S6x6, .i32⟩
  | .hbm, ⟨79, _⟩ => ⟨S36, .i32⟩
  | .hbm, ⟨80, _⟩ => ⟨S1000000x1, .i32⟩
  | .hbm, ⟨81, _⟩ => ⟨S_, .i32⟩
  | .hbm, ⟨82, _⟩ => ⟨S1000000x1, .i32⟩
  | .hbm, ⟨83, _⟩ => ⟨S1000000x1, .i32⟩
  | .hbm, ⟨84, _⟩ => ⟨S1x36, .i32⟩
  | .hbm, ⟨85, _⟩ => ⟨S1000000x36, .i32⟩
  | .hbm, ⟨86, _⟩ => ⟨S1000000x36, .i32⟩
  | .hbm, ⟨87, _⟩ => ⟨S1000000x36, .i32⟩
  | .hbm, ⟨88, _⟩ => ⟨S36000000, .i32⟩
  | .hbm, ⟨89, _⟩ => ⟨S1000000x1, .i32⟩
  | .hbm, ⟨90, _⟩ => ⟨S_, .i32⟩
  | .hbm, ⟨91, _⟩ => ⟨S1000000x1, .i32⟩
  | .hbm, ⟨92, _⟩ => ⟨S1000000x1, .i32⟩
  | .hbm, ⟨93, _⟩ => ⟨S1x36, .i32⟩
  | .hbm, ⟨94, _⟩ => ⟨S1000000x36, .i32⟩
  | .hbm, ⟨95, _⟩ => ⟨S1000000x36, .i32⟩
  | .hbm, ⟨96, _⟩ => ⟨S1000000x36, .i32⟩
  | .hbm, ⟨97, _⟩ => ⟨S36000000, .i32⟩
  | .hbm, ⟨98, _⟩ => ⟨S1x36000000, .i32⟩
  | .hbm, ⟨99, _⟩ => ⟨S1x36000000, .i32⟩
  | .hbm, ⟨100, _⟩ => ⟨S2x36000000, .i32⟩
  | _, _ => ⟨S600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c_10 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]

class Facts₀ : Prop where
  shapeCasts_S600000x64_S100000x6x64 : S600000x64.ShapeCasts S100000x6x64
  reducesTo_S100000x6x64_S100000x64_d1 : S100000x6x64.ReducesTo [1] S100000x64
  h_S_ : 0 < S_.numel
  bcast_S_S100000x64 : S_.BroadcastsInDim S100000x64 (![] : Fin 0 → Fin S100000x64.rank)
  shapeCasts_S120000x64_S20000x6x64 : S120000x64.ShapeCasts S20000x6x64
  reducesTo_S20000x6x64_S20000x64_d1 : S20000x6x64.ReducesTo [1] S20000x64
  bcast_S_S20000x64 : S_.BroadcastsInDim S20000x64 (![] : Fin 0 → Fin S20000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S30_S1x30_1 : S30.BroadcastsInDim S1x30 (![1] : Fin 1 → Fin S1x30.rank)
  bcast_S1x30_S1000000x30_0_1 : S1x30.BroadcastsInDim S1000000x30 (![0, 1] : Fin 2 → Fin S1000000x30.rank)
  bcast_S_S1000000x30 : S_.BroadcastsInDim S1000000x30 (![] : Fin 0 → Fin S1000000x30.rank)
  slices_S1000000x30_S1000000x12_0_0 : S1000000x30.Slices ![0, 0] S1000000x12
  shapeCasts_S1000000x12_S1000000x6x2 : S1000000x12.ShapeCasts S1000000x6x2
  slices_S1000000x30_S1000000x12_0_12 : S1000000x30.Slices ![0, 12] S1000000x12
  slices_S1000000x30_S1000000x6_0_24 : S1000000x30.Slices ![0, 24] S1000000x6
  bcast_S1000000x6_S1000000x6x1_0_1 : S1000000x6.BroadcastsInDim S1000000x6x1 (![0, 1] : Fin 2 → Fin S1000000x6x1.rank)
  bcast_S_S6x6 : S_.BroadcastsInDim S6x6 (![] : Fin 0 → Fin S6x6.rank)
  bcast_S6x6_S1x6x6_1_2 : S6x6.BroadcastsInDim S1x6x6 (![1, 2] : Fin 2 → Fin S1x6x6.rank)
  bcast_S1000000x6x1_S1000000x6x6_0_1_2 : S1000000x6x1.BroadcastsInDim S1000000x6x6 (![0, 1, 2] : Fin 3 → Fin S1000000x6x6.rank)
  bcast_S1x6x6_S1000000x6x6_0_1_2 : S1x6x6.BroadcastsInDim S1000000x6x6 (![0, 1, 2] : Fin 3 → Fin S1000000x6x6.rank)
  shapeCasts_S1000000x6x6_S36000000 : S1000000x6x6.ShapeCasts S36000000
  bcast_S6_S6x6_0 : S6.BroadcastsInDim S6x6 (![0] : Fin 1 → Fin S6x6.rank)
  shapeCasts_S6x6_S36 : S6x6.ShapeCasts S36
  shapeCasts_S6_S1x6 : S6.ShapeCasts S1x6
  bcast_S1x6_S6x6_0_1 : S1x6.BroadcastsInDim S6x6 (![0, 1] : Fin 2 → Fin S6x6.rank)
  bcast_S_S1000000x1 : S_.BroadcastsInDim S1000000x1 (![] : Fin 0 → Fin S1000000x1.rank)
  bcast_S36_S1x36_1 : S36.BroadcastsInDim S1x36 (![1] : Fin 1 → Fin S1x36.rank)
  bcast_S1000000x1_S1000000x36_0_1 : S1000000x1.BroadcastsInDim S1000000x36 (![0, 1] : Fin 2 → Fin S1000000x36.rank)
  bcast_S1x36_S1000000x36_0_1 : S1x36.BroadcastsInDim S1000000x36 (![0, 1] : Fin 2 → Fin S1000000x36.rank)
  shapeCasts_S1000000x36_S36000000 : S1000000x36.ShapeCasts S36000000
  bcast_S36000000_S1x36000000_1 : S36000000.BroadcastsInDim S1x36000000 (![1] : Fin 1 → Fin S1x36000000.rank)
  concatenates_S1x36000000_S1x36000000_S2x36000000_d0 : Shape.Concatenates [S1x36000000, S1x36000000] S2x36000000 0
  gather_S100000x64_S1000000x1_S1000000x64_1_0_n_n_0_1_164_wf : GatherDims.WF S100000x64 S1000000x1 S1000000x64 [1] [0] [] [0] [] 1 ![1, 64]
  gather_S20000x64_S1000000x1_S1000000x64_1_0_n_n_0_1_164_wf : GatherDims.WF S20000x64 S1000000x1 S1000000x64 [1] [0] [] [0] [] 1 ![1, 64]
  dot_S1000000x128_S128x30_S1000000x30_1_0_0_1_n_n_wf : DotDims.WF S1000000x128 S128x30 S1000000x30 [1] [0] [0] [1] [] []
  dot_S1000000x6x2_S1000000x6x2_S1000000x6x6_2_2_1_1_0_0_wf : DotDims.WF S1000000x6x2 S1000000x6x2 S1000000x6x6 [2] [2] [1] [1] [0] [0]

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def dot_S1000000x128_S128x30_S1000000x30_1_0_0_1_n_n : DotDims S1000000x128 S128x30 S1000000x30 where
  lhsContracting := [1]
  rhsContracting := [0]
  lhsNonContracting := [0]
  rhsNonContracting := [1]
  lhsBatch := []
  rhsBatch := []
  wf := dot_S1000000x128_S128x30_S1000000x30_1_0_0_1_n_n_wf
def dot_S1000000x6x2_S1000000x6x2_S1000000x6x6_2_2_1_1_0_0 : DotDims S1000000x6x2 S1000000x6x2 S1000000x6x6 where
  lhsContracting := [2]
  rhsContracting := [2]
  lhsNonContracting := [1]
  rhsNonContracting := [1]
  lhsBatch := [0]
  rhsBatch := [0]
  wf := dot_S1000000x6x2_S1000000x6x2_S1000000x6x6_2_2_1_1_0_0_wf

class Facts : Prop extends Facts₀ where

variable [Facts]
-- ==== Proof.Spec.lean ====
/-
  The sheaf predictor, one hyperedge incidence at a time, over the extended reals.

  An incidence `n` pairs a node `row n` with a hyperedge `col n`. Its feature row is the mean of the node's six stalk
  copies beside the mean of the hyperedge's six stalk copies, 128 numbers. One affine layer and a logistic give thirty
  activations `z`: the first twelve are a 6 × 2 factor `A` (`A i r = z (2 i + r)`), the next twelve a 6 × 2 factor `B`
  (`B j r = z (12 + 2 j + r)`), the last six a diagonal `C` (`C i = z (24 + i)`). The restriction map of the incidence is
  the 6 × 6 matrix `A Bᵀ + diag C`; its entry `(i, j)` is `A i 0 · B j 0 + A i 1 · B j 1 + C i · [i = j]`.
  Beside the maps go the coordinates of their entries in the sparse block matrix: entry `(i, j)` of incidence `n` sits at
  row `6 · row n + i` and column `6 · col n + j`, computed in 32-bit words.
-/
import Idealize.ShloMosaic.PureOps.Ideal
import Idealize.ShloMosaic.Lib.ValueIdx

noncomputable section

namespace Cert.Sheaf

open Idealize.ShloMosaic Idealize.ShloMosaic.ValueIdx
open scoped BigOperators

/-- The mean of six values: their sum over the float `6.0`. -/
def mean6 (f : Fin 6 → EReal) : EReal := Ideal.div (∑ j, f j) (Ideal.ofBits .f32 0x40C00000#32)

/-- A node's 64 features beside a hyperedge's 64 features. -/
def catRow (xr er : Fin 64 → EReal) (c : Fin 128) : EReal :=
  if h : c.val < 64 then xr ⟨c.val, h⟩ else er ⟨c.val - 64, by omega⟩

/-- The thirty activations of a feature row `h`: `σ (h · W + b)`. -/
def act (h : Fin 128 → EReal) (W : Fin 128 → Fin 30 → EReal) (b : Fin 30 → EReal) (k : Fin 30) : EReal :=
  Ideal.logistic ((∑ c, h c * W c k) + b k)

/-- The identity matrix. -/
def eye (i j : Fin 6) : EReal := if i = j then 1 else 0

/-- Entry `(i, j)` of `A Bᵀ + diag C`, the factors laid out in the thirty activations `z`. -/
def mapEntry (z : Fin 30 → EReal) (i j : Fin 6) : EReal :=
  (z ⟨2 * i.val, by omega⟩ * z ⟨12 + 2 * j.val, by omega⟩
      + z ⟨2 * i.val + 1, by omega⟩ * z ⟨12 + 2 * j.val + 1, by omega⟩)
    + z ⟨24 + i.val, by omega⟩ * eye i j

/-- The restriction map's entry `(i, j)` from the node's and the hyperedge's mean features. -/
def sheafOut (xr er : Fin 64 → EReal) (W : Fin 128 → Fin 30 → EReal) (b : Fin 30 → EReal) (i j : Fin 6) : EReal :=
  mapEntry (act (catRow xr er) W b) i j

/-- A block coordinate: six times the node's (or hyperedge's) number plus the offset inside the stalk, in 32-bit words. -/
def idxEntry (r : BitVec 32) (o : ℕ) : BitVec 32 := 6#32 * r + BitVec.ofNat 32 o

/-- A signed 32-bit index addresses an axis of extent `N`, counting from the front or, when negative, from the back. -/
def InRange (N : ℕ) (r : BitVec 32) : Prop := -(N : ℤ) ≤ r.toInt ∧ r.toInt < (N : ℤ)

end Cert.Sheaf

end
-- ==== Proof.MeanKernel.lean ====
/-
  The two mean-pooling regions. Each grid point takes 6000 rows of its array — a thousand nodes, six stalk copies
  each — and writes back a thousand rows, each the mean of its six. The blocks tile the arrays, so after the region
  row `n` of the output is the mean of rows `6 n … 6 n + 5` of the input.
-/
import proofs.«425693_j74509092651432_2_alg».proof.Proof.Gen.KernelIdeal.Frame
import proofs.«425693_j74509092651432_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MeanVal

open Cert.KernelIdeal Cert.KernelIdeal.Gen
open Idealize.ShloMosaic Idealize.ShloMosaic.ValueIdx Idealize.ShloMosaic.TcCoe Idealize.SL.Sem
open scoped BigOperators

variable (m : (ℓ : Loc nD τ sig) → Buf (Elt Ideal) ℓ) (ρ : Dev nD → PrngReg)

/-! ## What one grid point computes -/

/-- The offsets of a whole-block access, two zeros, are the zero function. -/
theorem hz : (![0, 0] : Fin 2 → Nat) = fun _ => 0 := funext fun a => by fin_cases a <;> rfl

/-- Row `6 r + j` of a block of 6000 rows: stalk copy `j` of the block's `r`-th node. -/
abbrev row6 (r : Fin 1000) (j : Fin 6) : Fin 6000 := ⟨6 * r.val + j.val, by have := r.isLt; have := j.isLt; omega⟩

/-- The body's result at `(r, f)`: the block regrouped as 1000 × 6 × 64 puts row `6 r + j` at `(r, j)` (the two have the
    same row-major position), the sum over the middle axis from zero adds the six, and the quotient by the
    constant `6.0` is their mean. -/
theorem pay0_apply (x0 : Vec Ideal S6000x64 .f32) (r : Fin 1000) (f : Fin 64) :
    (k0_pay1 (F := Ideal) x0 : S1000x64.Idx → EReal) (ix2 r f)
      = Cert.Sheaf.mean6 fun j => (x0 : S6000x64.Idx → EReal) (ix2 (row6 r j) f) := by
  unfold k0_pay1
  rw [divf_apply, broadcast_apply]
  unfold Cert.Sheaf.mean6
  refine congrArg₂ Ideal.div ?_ rfl
  refine (Ideal.multiReduction_add_single _ _ reduces_S1000x6x64_S1000x64 _ _ (ix2 r f)).trans ?_
  show ∑ k : Fin 6, _ = _
  refine Finset.sum_congr rfl fun k _ => ?_
  refine shapeCast_apply _ _ _ _ ?_
  rw [Shape.rowMajor_val_two, Shape.rowMajor_val_three]
  show (6 * r.val + k.val) * 64 + f.val = (r.val * 6 + k.val) * 64 + f.val
  omega

/-- The second region's body is the same arithmetic. -/
theorem pay1_apply (x0 : Vec Ideal S6000x64 .f32) (r : Fin 1000) (f : Fin 64) :
    (k1_pay1 (F := Ideal) x0 : S1000x64.Idx → EReal) (ix2 r f)
      = Cert.Sheaf.mean6 fun j => (x0 : S6000x64.Idx → EReal) (ix2 (row6 r j) f) := by
  unfold k1_pay1
  rw [divf_apply, broadcast_apply]
  unfold Cert.Sheaf.mean6
  refine congrArg₂ Ideal.div ?_ rfl
  refine (Ideal.multiReduction_add_single _ _ reduces_S1000x6x64_S1000x64 _ _ (ix2 r f)).trans ?_
  show ∑ k : Fin 6, _ = _
  refine Finset.sum_congr rfl fun k _ => ?_
  refine shapeCast_apply _ _ _ _ ?_
  rw [Shape.rowMajor_val_two, Shape.rowMajor_val_three]
  show (6 * r.val + k.val) * 64 + f.val = (r.val * 6 + k.val) * 64 + f.val
  omega

/-! ## The pooled arrays -/

/-- Six rows pooled to one: row `n` is the mean of rows `6 n … 6 n + 5` of the 600000 stalk rows of the nodes. -/
def poolNodes (a : S600000x64.Idx → EReal) : S100000x64.Idx → EReal := fun i =>
  Cert.Sheaf.mean6 fun j => a (ix2 ⟨6 * (i 0).val + j.val, by have := idx2_lt0 i; have := j.isLt; omega⟩ (i 1))

/-- The same for the 120000 stalk rows of the hyperedges. -/
def poolEdges (a : S120000x64.Idx → EReal) : S20000x64.Idx → EReal := fun i =>
  Cert.Sheaf.mean6 fun j => a (ix2 ⟨6 * (i 0).val + j.val, by have := idx2_lt0 i; have := j.isLt; omega⟩ (i 1))

section Regions
-- the buffer contents a region is entered with
variable (V : (c : Dev nD) → (b : Ref sig .tc) → Buf (Elt Ideal) ((c : Thread nD τ).loc b))

/-! ## The first region: 100 points, point `t` on rows `6000 t …` of the input and rows `1000 t …` of the output -/

/-- Point `t` reads block `(t, 0)` of the input … -/
theorem idx0_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- … and writes block `(t, 0)` of the output. -/
theorem idx0_out : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The input block of point `t` at `y` is the array at row `6000 t + y 0`, column `y 1`: a block's element sits at
    block index × block size + its coordinate. -/
theorem blk0_apply (c : Dev nD) (t : Fin cfg0.N) (y : S6000x64.Idx) (k : S600000x64.Idx)
    (hk0 : (k 0).val = 6000 * t.val + (y 0).val) (hk1 : (k 1).val = (y 1).val) :
    (iblk0 V c 0 t : Vec Ideal S6000x64 .f32) y = (V c main_arg0 : S600000x64.Idx → EReal) k := by
  obtain ⟨e0, e1⟩ := idx0_in t
  unfold iblk0
  rw [View.read_apply]
  show V c main_arg0 _ = V c main_arg0 k
  refine congrArg _ (funext fun a => Fin.ext ?_)
  match a with
  | ⟨0, _⟩ => show win0_0.index t (0 : Fin 2) * 6000 + 1 * (y 0).val = (k 0).val; rw [e0, hk0]; omega
  | ⟨1, _⟩ => show win0_0.index t (1 : Fin 2) * 64 + 1 * (y 1).val = (k 1).val; rw [e1, hk1]; omega

/-- What point `t` writes back is block `t` of the pooled array: output row `1000 t + r` is the mean of block rows
    `6 r + j`, which are array rows `6000 t + 6 r + j = 6 (1000 t + r) + j`. -/
theorem flushed0_eq (c : Dev nD) (t : Fin cfg0.N) :
    (dat0 V c).flushed 1 t = ((cfg0.win 1).blk t).view.read (Elt Ideal) (poolNodes (V c main_arg0)) := by
  show (cfg0.win 1).cut (grid0.coords t) ((dat0 V c).after 1 t) = _
  rw [after0_1]
  unfold out0_1
  rw [View.canon_unit_zero hz]
  simp only [View.ld_unit_zero (S := S6000x64) hz]
  obtain ⟨e0, e1⟩ := idx0_out t
  funext y
  obtain ⟨r, f, rfl⟩ : ∃ (r : Fin 1000) (f : Fin 64), y = ix2 r f := ⟨y 0, y 1, eq_ix2 y⟩
  show (k0_pay1 (F := Ideal) (iblk0 V c 0 t) : S1000x64.Idx → EReal) (ix2 r f)
    = poolNodes (V c main_arg0) (((cfg0.win 1).blk t).view.emb (ix2 r f))
  refine (pay0_apply (iblk0 V c 0 t) r f).trans ?_
  unfold poolNodes
  refine congrArg Cert.Sheaf.mean6 (funext fun j => ?_)
  refine blk0_apply V c t _ _ ?_ ?_
  · show 6 * (win0_1.index t (0 : Fin 2) * 1000 + 1 * r.val) + j.val = 6000 * t.val + (6 * r.val + j.val)
    rw [e0]; omega
  · show win0_1.index t (1 : Fin 2) * 64 + 1 * f.val = f.val
    rw [e1]; omega

/-- The output blocks tile the array: row `n` lies in the block of point `n / 1000`. -/
theorem cover0 (i : S100000x64.Idx) :
    ∃ t : Fin cfg0.N, (cfg0.win 1).flush t = true ∧ i ∈ ((cfg0.win 1).blk t).view.set := by
  have hi0 : (i 0).val < 100000 := idx2_lt0 i
  have hi1 : (i 1).val < 64 := idx2_lt1 i
  have hN : cfg0.N = 100 := N_0
  have ht : (i 0).val / 1000 < cfg0.N := by rw [hN]; omega
  obtain ⟨e0, e1⟩ := idx0_out ⟨(i 0).val / 1000, ht⟩
  refine ⟨⟨(i 0).val / 1000, ht⟩, flush0_1 _, ?_⟩
  show i ∈ ((View.whole main_v0).slice (win0_1.rect ⟨(i 0).val / 1000, ht⟩)).set
  rw [View.set_slice_whole, Rect.mem_set_unit]
  intro a
  match a with
  | ⟨0, _⟩ =>
    show win0_1.index ⟨(i 0).val / 1000, ht⟩ (0 : Fin 2) * 1000 ≤ (i 0).val
      ∧ (i 0).val < win0_1.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win0_1.index ⟨(i 0).val / 1000, ht⟩ (1 : Fin 2) * 64 ≤ (i 1).val
      ∧ (i 1).val < win0_1.index ⟨(i 0).val / 1000, ht⟩ (1 : Fin 2) * 64 + 64
    rw [e1]; omega

/-- So the first region leaves its output array at the pooled input. -/
theorem final0 (c : Dev nD) : (dat0 V c).arrAt 1 cfg0.N = poolNodes (V c main_arg0) :=
  (dat0 V c).arrAt_eq_of_cover 1 (poolNodes (V c main_arg0)) (fun t _ => flushed0_eq V c t) cover0

/-! ## The second region: 20 points over the hyperedges' rows, the same way -/

/-- Point `t` reads block `(t, 0)` of the input … -/
theorem idx1_in : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- … and writes block `(t, 0)` of the output. -/
theorem idx1_out : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- The input block of point `t` at `y` is the array at row `6000 t + y 0`, column `y 1`. -/
theorem blk1_apply (c : Dev nD) (t : Fin cfg1.N) (y : S6000x64.Idx) (k : S120000x64.Idx)
    (hk0 : (k 0).val = 6000 * t.val + (y 0).val) (hk1 : (k 1).val = (y 1).val) :
    (iblk1 V c 0 t : Vec Ideal S6000x64 .f32) y = (V c main_arg1 : S120000x64.Idx → EReal) k := by
  obtain ⟨e0, e1⟩ := idx1_in t
  unfold iblk1
  rw [View.read_apply]
  show V c main_arg1 _ = V c main_arg1 k
  refine congrArg _ (funext fun a => Fin.ext ?_)
  match a with
  | ⟨0, _⟩ => show win1_0.index t (0 : Fin 2) * 6000 + 1 * (y 0).val = (k 0).val; rw [e0, hk0]; omega
  | ⟨1, _⟩ => show win1_0.index t (1 : Fin 2) * 64 + 1 * (y 1).val = (k 1).val; rw [e1, hk1]; omega

/-- What point `t` writes back is block `t` of the pooled array. -/
theorem flushed1_eq (c : Dev nD) (t : Fin cfg1.N) :
    (dat1 V c).flushed 1 t = ((cfg1.win 1).blk t).view.read (Elt Ideal) (poolEdges (V c main_arg1)) := by
  show (cfg1.win 1).cut (grid1.coords t) ((dat1 V c).after 1 t) = _
  rw [after1_1]
  unfold out1_1
  rw [View.canon_unit_zero hz]
  simp only [View.ld_unit_zero (S := S6000x64) hz]
  obtain ⟨e0, e1⟩ := idx1_out t
  funext y
  obtain ⟨r, f, rfl⟩ : ∃ (r : Fin 1000) (f : Fin 64), y = ix2 r f := ⟨y 0, y 1, eq_ix2 y⟩
  show (k1_pay1 (F := Ideal) (iblk1 V c 0 t) : S1000x64.Idx → EReal) (ix2 r f)
    = poolEdges (V c main_arg1) (((cfg1.win 1).blk t).view.emb (ix2 r f))
  refine (pay1_apply (iblk1 V c 0 t) r f).trans ?_
  unfold poolEdges
  refine congrArg Cert.Sheaf.mean6 (funext fun j => ?_)
  refine blk1_apply V c t _ _ ?_ ?_
  · show 6 * (win1_1.index t (0 : Fin 2) * 1000 + 1 * r.val) + j.val = 6000 * t.val + (6 * r.val + j.val)
    rw [e0]; omega
  · show win1_1.index t (1 : Fin 2) * 64 + 1 * f.val = f.val
    rw [e1]; omega

/-- The output blocks tile the array: row `n` lies in the block of point `n / 1000`. -/
theorem cover1 (i : S20000x64.Idx) :
    ∃ t : Fin cfg1.N, (cfg1.win 1).flush t = true ∧ i ∈ ((cfg1.win 1).blk t).view.set := by
  have hi0 : (i 0).val < 20000 := idx2_lt0 i
  have hi1 : (i 1).val < 64 := idx2_lt1 i
  have hN : cfg1.N = 20 := N_1
  have ht : (i 0).val / 1000 < cfg1.N := by rw [hN]; omega
  obtain ⟨e0, e1⟩ := idx1_out ⟨(i 0).val / 1000, ht⟩
  refine ⟨⟨(i 0).val / 1000, ht⟩, flush1_1 _, ?_⟩
  show i ∈ ((View.whole main_v1).slice (win1_1.rect ⟨(i 0).val / 1000, ht⟩)).set
  rw [View.set_slice_whole, Rect.mem_set_unit]
  intro a
  match a with
  | ⟨0, _⟩ =>
    show win1_1.index ⟨(i 0).val / 1000, ht⟩ (0 : Fin 2) * 1000 ≤ (i 0).val
      ∧ (i 0).val < win1_1.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win1_1.index ⟨(i 0).val / 1000, ht⟩ (1 : Fin 2) * 64 ≤ (i 1).val
      ∧ (i 1).val < win1_1.index ⟨(i 0).val / 1000, ht⟩ (1 : Fin 2) * 64 + 64
    rw [e1]; omega

/-- So the second region leaves its output array at the pooled input. -/
theorem final1 (c : Dev nD) : (dat1 V c).arrAt 1 cfg1.N = poolEdges (V c main_arg1) :=
  (dat1 V c).arrAt_eq_of_cover 1 (poolEdges (V c main_arg1)) (fun t _ => flushed1_eq V c t) cover1

end Regions

/-! ## The two regions in the run -/

/-- After the first region, row `n` of the pooled node features is the mean of the node's six stalk copies. -/
theorem V1_main_v0 (c : Dev nD) (n : Fin 100000) (f : Fin 64) :
    (V1 m ρ c main_v0 : S100000x64.Idx → EReal) (ix2 n f)
      = Cert.Sheaf.mean6 fun j => (m ((c : Thread nD τ).loc main_arg0) : S600000x64.Idx → EReal)
          (ix2 ⟨6 * n.val + j.val, by have := n.isLt; have := j.isLt; omega⟩ f) := by
  have h : V1 m ρ c main_v0 = poolNodes (V0 m ρ c main_arg0) := (W1_arr m ρ c 1).trans (final0 (V0 m ρ) c)
  rw [h]
  rfl

/-- After the second region, row `n` of the pooled hyperedge features is the mean of the hyperedge's six stalk copies. -/
theorem V2_main_v1 (c : Dev nD) (n : Fin 20000) (f : Fin 64) :
    (V2 m ρ c main_v1 : S20000x64.Idx → EReal) (ix2 n f)
      = Cert.Sheaf.mean6 fun j => (m ((c : Thread nD τ).loc main_arg1) : S120000x64.Idx → EReal)
          (ix2 ⟨6 * n.val + j.val, by have := n.isLt; have := j.isLt; omega⟩ f) := by
  have harg : V1 m ρ c main_arg1 = m ((c : Thread nD τ).loc main_arg1) :=
    (W1_of_ne m ρ c main_arg1 (by decide)).trans rfl
  have h : V2 m ρ c main_v1 = poolEdges (V1 m ρ c main_arg1) := (W2_arr m ρ c 1).trans (final1 (V1 m ρ) c)
  rw [h, harg]
  rfl

/-- The second region leaves the pooled node features alone. -/
theorem V2_main_v0 (c : Dev nD) : V2 m ρ c main_v0 = V1 m ρ c main_v0 := by
  exact W2_of_ne m ρ c main_v0 (by decide)

/-- The two regions leave the index array, the weights and the bias as launched. -/
theorem V2_main_arg4 (c : Dev nD) : V2 m ρ c main_arg4 = m ((c : Thread nD τ).loc main_arg4) := by
  exact (W2_of_ne m ρ c main_arg4 (by decide)).trans ((W1_of_ne m ρ c main_arg4 (by decide)).trans rfl)
theorem V2_main_arg2 (c : Dev nD) : V2 m ρ c main_arg2 = m ((c : Thread nD τ).loc main_arg2) := by
  exact (W2_of_ne m ρ c main_arg2 (by decide)).trans ((W1_of_ne m ρ c main_arg2 (by decide)).trans rfl)
theorem V2_main_arg3 (c : Dev nD) : V2 m ρ c main_arg3 = m ((c : Thread nD τ).loc main_arg3) := by
  exact (W2_of_ne m ρ c main_arg3 (by decide)).trans ((W1_of_ne m ρ c main_arg3 (by decide)).trans rfl)

end Cert.KernelIdeal.MeanVal

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.SheafPayload.lean ====
/-
  What the sheaf region's body computes on one block of 1024 incidences, read entry by entry.

  The float output: row `r` of the block is the restriction map of incidence `r`, its entry `(i, j)` at column
  `6 i + j` — the affine layer and the logistic on the row's 128 features, the two rank-one products of the factor
  columns added up, and the diagonal term. The two integer outputs: at column `6 i + j`, six times the row's node number
  plus `i`, and six times the row's hyperedge number plus `j`.
-/
import proofs.«425693_j74509092651432_2_alg».proof.Proof.Gen.KernelIdeal.Frame
import proofs.«425693_j74509092651432_2_alg».proof.Proof.Spec
import proofs.«425693_j74509092651432_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SheafPay

open Cert.KernelIdeal Cert.KernelIdeal.Gen
open Idealize.ShloMosaic Idealize.ShloMosaic.ValueIdx
open scoped BigOperators

/-! ## Layout operations of a stack of rows, read at an index

Every array here has the rows on its leading axis, and each operation moves entries inside a row only: a row of
`a * b` entries is folded into an `a × b` matrix or unfolded again, a unit axis is added or dropped, one column of a
matrix is cut out, a column or a row is repeated along a unit axis. -/

section Layout
variable {α : Type}

/-- A row of `m = a * b` entries folded into `a × b`: entry `(i, e)` is the row's entry `i * b + e`. -/
theorem fold_apply {n m a b : ℕ} (hm : m = a * b) (x : (⟨2, ![n, m]⟩ : Shape).Idx → α)
    (h : (⟨2, ![n, m]⟩ : Shape).ShapeCasts ⟨3, ![n, a, b]⟩) (p : Fin n) (i : Fin a) (e : Fin b) (q : Fin m)
    (hq : q.val = i.val * b + e.val) : shapeCast ⟨3, ![n, a, b]⟩ x h (ix3 p i e) = x (ix2 p q) :=
  shapeCast_apply x h _ _ (by
    rw [Shape.rowMajor_val_two, Shape.rowMajor_val_three]
    show p.val * m + q.val = (p.val * a + i.val) * b + e.val
    rw [hq, hm, Nat.add_mul, Nat.mul_assoc, Nat.add_assoc])

/-- An `a × b` matrix per row unfolded into a row of `m = a * b` entries: entry `i * b + e` is the matrix's `(i, e)`. -/
theorem unfold_apply {n m a b : ℕ} (hm : m = a * b) (x : (⟨3, ![n, a, b]⟩ : Shape).Idx → α)
    (h : (⟨3, ![n, a, b]⟩ : Shape).ShapeCasts ⟨2, ![n, m]⟩) (p : Fin n) (i : Fin a) (e : Fin b) (q : Fin m)
    (hq : q.val = i.val * b + e.val) : shapeCast ⟨2, ![n, m]⟩ x h (ix2 p q) = x (ix3 p i e) :=
  shapeCast_apply x h _ _ (by
    rw [Shape.rowMajor_val_two, Shape.rowMajor_val_three]
    show (p.val * a + i.val) * b + e.val = p.val * m + q.val
    rw [hq, hm, Nat.add_mul, Nat.mul_assoc, Nat.add_assoc])

/-- A trailing unit axis dropped: `[n, a, 1]` read as `[n, a]`. -/
theorem dropLast_apply {n a : ℕ} (x : (⟨3, ![n, a, 1]⟩ : Shape).Idx → α)
    (h : (⟨3, ![n, a, 1]⟩ : Shape).ShapeCasts ⟨2, ![n, a]⟩) (p : Fin n) (i : Fin a) :
    shapeCast ⟨2, ![n, a]⟩ x h (ix2 p i) = x (ix3 p i (0 : Fin 1)) :=
  shapeCast_apply x h _ _ (by
    rw [Shape.rowMajor_val_two, Shape.rowMajor_val_three]
    show (p.val * a + i.val) * 1 + 0 = p.val * a + i.val
    rw [Nat.mul_one, Nat.add_zero])

/-- A trailing unit axis added: `[n, a]` read as `[n, a, 1]`. -/
theorem addLast_apply {n a : ℕ} (x : (⟨2, ![n, a]⟩ : Shape).Idx → α)
    (h : (⟨2, ![n, a]⟩ : Shape).ShapeCasts ⟨3, ![n, a, 1]⟩) (p : Fin n) (i : Fin a) (u : Fin 1) :
    shapeCast ⟨3, ![n, a, 1]⟩ x h (ix3 p i u) = x (ix2 p i) :=
  shapeCast_apply x h _ _ (by
    have hu : u.val = 0 := by omega
    rw [Shape.rowMajor_val_two, Shape.rowMajor_val_three]
    show p.val * a + i.val = (p.val * a + i.val) * 1 + u.val
    rw [hu, Nat.mul_one, Nat.add_zero])

/-- A middle unit axis added: `[n, a]` read as `[n, 1, a]`. -/
theorem addMid_apply {n a : ℕ} (x : (⟨2, ![n, a]⟩ : Shape).Idx → α)
    (h : (⟨2, ![n, a]⟩ : Shape).ShapeCasts ⟨3, ![n, 1, a]⟩) (p : Fin n) (u : Fin 1) (j : Fin a) :
    shapeCast ⟨3, ![n, 1, a]⟩ x h (ix3 p u j) = x (ix2 p j) :=
  shapeCast_apply x h _ _ (by
    have hu : u.val = 0 := by omega
    rw [Shape.rowMajor_val_two, Shape.rowMajor_val_three]
    show p.val * a + j.val = (p.val * 1 + u.val) * a + j.val
    rw [hu, Nat.mul_one, Nat.add_zero])

/-- One column of an `[n, a, b]` stack cut along the last axis at `o`: at `(p, i, 0)` it reads column `o`. -/
theorem lastCol_apply {n a b : ℕ} (o : ℕ) (x : (⟨3, ![n, a, b]⟩ : Shape).Idx → α)
    (h : (⟨3, ![n, a, b]⟩ : Shape).Slices ![0, 0, o] ⟨3, ![n, a, 1]⟩) (p : Fin n) (i : Fin a) (u : Fin 1) (k : Fin b)
    (hk : k.val = o) : extractStridedSlice ⟨3, ![n, a, 1]⟩ ![0, 0, o] x h (ix3 p i u) = x (ix3 p i k) :=
  extractStridedSlice_apply _ _ _ _ _ (fun ax => by
    match ax with
    | ⟨0, _⟩ => exact (Nat.zero_add _).symm
    | ⟨1, _⟩ => exact (Nat.zero_add _).symm
    | ⟨2, _⟩ =>
      have hu : u.val = 0 := by omega
      show k.val = o + u.val
      rw [hk, hu, Nat.add_zero])

/-- A column `[n, a, 1]` repeated along the last axis: at `(p, i, j)` it reads `(p, i, 0)`. -/
theorem bcastCol_apply {n a b : ℕ} (x : (⟨3, ![n, a, 1]⟩ : Shape).Idx → α)
    (h : (⟨3, ![n, a, 1]⟩ : Shape).Broadcasts ⟨3, ![n, a, b]⟩) (p : Fin n) (i : Fin a) (j : Fin b) :
    broadcastTo ⟨3, ![n, a, b]⟩ x h (ix3 p i j) = x (ix3 p i (0 : Fin 1)) := by
  refine broadcastTo_apply x h (ix3 p i j) (ix3 p i (0 : Fin 1)) fun ax => ?_
  match ax with
  | ⟨0, _⟩ =>
    show p.val = if n = 1 then 0 else p.val
    split
    · have := p.isLt; omega
    · rfl
  | ⟨1, _⟩ =>
    show i.val = if a = 1 then 0 else i.val
    split
    · have := i.isLt; omega
    · rfl
  | ⟨2, _⟩ => rfl

/-- A row `[n, 1, b]` repeated along the middle axis: at `(p, i, j)` it reads `(p, 0, j)`. -/
theorem bcastRow_apply {n a b : ℕ} (x : (⟨3, ![n, 1, b]⟩ : Shape).Idx → α)
    (h : (⟨3, ![n, 1, b]⟩ : Shape).Broadcasts ⟨3, ![n, a, b]⟩) (p : Fin n) (i : Fin a) (j : Fin b) :
    broadcastTo ⟨3, ![n, a, b]⟩ x h (ix3 p i j) = x (ix3 p (0 : Fin 1) j) := by
  refine broadcastTo_apply x h (ix3 p i j) (ix3 p (0 : Fin 1) j) fun ax => ?_
  match ax with
  | ⟨0, _⟩ =>
    show p.val = if n = 1 then 0 else p.val
    split
    · have := p.isLt; omega
    · rfl
  | ⟨1, _⟩ => rfl
  | ⟨2, _⟩ =>
    show j.val = if b = 1 then 0 else j.val
    split
    · have := j.isLt; omega
    · rfl

/-- One matrix `[1, a, b]` repeated for every row: at `(p, i, j)` it reads `(0, i, j)`. -/
theorem bcastMat_apply {n a b : ℕ} (x : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A vector `[n]` read as a column `[n, 1]`. -/
theorem asCol_apply {n : ℕ} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[n, 1]` repeated along the row: at `(p, q)` it reads `(p, 0)`. -/
theorem bcastCol2_apply {n m : ℕ} (x : (⟨2, ![n, 1]⟩ : Shape).Idx → α)
    (h : (⟨2, ![n, 1]⟩ : Shape).Broadcasts ⟨2, ![n, m]⟩) (p : Fin n) (q : Fin m) :
    broadcastTo ⟨2, ![n, m]⟩ x h (ix2 p q) = x (ix2 p (0 : Fin 1)) := by
  refine broadcastTo_apply x h (ix2 p q) (ix2 p (0 : Fin 1)) fun ax => ?_
  match ax with
  | ⟨0, _⟩ =>
    show p.val = if n = 1 then 0 else p.val
    split
    · have := p.isLt; omega
    · rfl
  | ⟨1, _⟩ => rfl

/-- An `a × b` matrix flattened: entry `i * b + e` of the vector is the matrix's `(i, e)`. -/
theorem flatten_apply {m a b : ℕ} (x : (⟨2, ![a, b]⟩ : Shape).Idx → α)
    (h : (⟨2, ![a, b]⟩ : Shape).ShapeCasts ⟨1, ![m]⟩) (i : Fin a) (e : Fin b) (q : Fin m)
    (hq : q.val = i.val * b + e.val) : shapeCast ⟨1, ![m]⟩ x h (ix1 q) = x (ix2 i e) :=
  shapeCast_apply x h _ _ (by
    rw [Shape.rowMajor_val_two, Shape.rowMajor_val_one]
    show i.val * b + e.val = q.val
    rw [hq])

end Layout

/-! ## The thirty activations of a row -/

/-- The node's 64 features beside the hyperedge's 64: column `q` of the concatenation is the first piece's when `q < 64`,
    else the second piece's at `q - 64`. -/
theorem cat64_apply {α : Type} (a b : S1024x64.Idx → α) (h : Shape.Concatenates [S1024x64, S1024x64] S1024x128 1)
    (p : Fin 1024) (q : Fin 128) :
    concatenate S1024x128 1 [⟨S1024x64, a⟩, ⟨S1024x64, b⟩] h (ix2 p q)
      = if hq : q.val < 64 then a (ix2 p ⟨q.val, hq⟩) else b (ix2 p ⟨q.val - 64, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 64, by omega⟩)
      (fun bb hb => by match bb with | ⟨0, _⟩ => rfl | ⟨1, _⟩ => exact absurd rfl hb)
      (by show (q.val - 64) + 64 = q.val; omega)

/-- Activation `k` of row `r`: the logistic of the affine layer on the row's 128 features. -/
theorem act_apply (v0 v2 : Vec Ideal S1024x64 .f32) (v5 : Vec Ideal S128x30 .f32) (v9 : Vec Ideal S30 .f32)
    (r : Fin 1024) (k : Fin 30) :
    k2_pay4 v0 v2 v5 v9 (ix2 r k)
      = Cert.Sheaf.act (Cert.Sheaf.catRow (fun f => v0 (ix2 r f)) (fun f => v2 (ix2 r f)))
          (fun c k => v5 (ix2 c k)) (fun k => v9 (ix1 k)) k := by
  unfold k2_pay4 Cert.Sheaf.act
  show Ideal.logistic (addf (F := Ideal) (φ := .f32) _ _ (ix2 r k)) = Ideal.logistic _
  refine congrArg Ideal.logistic ?_
  refine (Cert.LibRowOps.layer_apply dot_S1024x128_S128x30_S1024x30_1_0_0_1_n_n rfl _ _ v9 _ _ r k
    (Cert.Sheaf.catRow (fun f => v0 (ix2 r f)) (fun f => v2 (ix2 r f))) (fun c => ?_)).trans rfl
  show concatenate S1024x128 1 [⟨S1024x64, shapeCast S1024x64 v0 shapeCasts_S1024x64_S1024x64⟩,
      ⟨S1024x64, shapeCast S1024x64 v2 shapeCasts_S1024x64_S1024x64⟩] concatenates_S1024x64_S1024x64_S1024x128_d1 (ix2 r c) = _
  rw [shapeCast_self, shapeCast_self]
  exact cat64_apply v0 v2 _ r c

/-! ## The factor columns

The activations' columns `o ..< o + 12` of a row, folded `6 × 2`, are a factor; its column `e` is a vector of six
entries, entry `i` being activation `o + 2 i + e`. The first factor's column is repeated along the last axis, the
second's along the middle one, so that their entrywise product is the rank-one matrix of the two columns. -/

/-- Column `e` of the `6 × 2` factor cut at offset `o`: entry `i` is activation `o + (2 i + e)`. -/
theorem factorCol_apply {α : Type} (z : S1024x30.Idx → α) (o e : ℕ) (hs : S1024x30.Slices ![0, o] S1024x12)
    (hc : S1024x12.ShapeCasts S1024x6x2) (hs' : S1024x6x2.Slices ![0, 0, e] S1024x6x1)
    (hc' : S1024x6x1.ShapeCasts S1024x6) (r : Fin 1024) (i : Fin 6) (k : Fin 30) (he : e < 2)
    (hk : k.val = o + (2 * i.val + e)) :
    shapeCast S1024x6 (extractStridedSlice S1024x6x1 ![0, 0, e]
        (shapeCast S1024x6x2 (extractStridedSlice S1024x12 ![0, o] z hs) hc) hs') hc' (ix2 r i) = z (ix2 r k) :=
  (dropLast_apply _ hc' r i).trans <|
    (lastCol_apply e _ hs' r i 0 ⟨e, he⟩ rfl).trans <|
      (fold_apply rfl _ hc r i ⟨e, he⟩ ⟨2 * i.val + e, by omega⟩ (by show 2 * i.val + e = i.val * 2 + e; omega)).trans <|
        slice2_axis1_apply o z hs r ⟨2 * i.val + e, by omega⟩ k hk

/-- A vector of six per row as a column, repeated along the last axis: at `(r, i, j)` its entry `i`. -/
theorem alongLast_apply {α : Type} (v : S1024x6.Idx → α) (hc : S1024x6.ShapeCasts S1024x6x1)
    (hb : S1024x6x1.Broadcasts S1024x6x6) (r : Fin 1024) (i j : Fin 6) :
    broadcastTo S1024x6x6 (shapeCast S1024x6x1 v hc) hb (ix3 r i j) = v (ix2 r i) :=
  (bcastCol_apply _ hb r i j).trans (addLast_apply v hc r i 0)

/-- A vector of six per row as a row, repeated along the middle axis: at `(r, i, j)` its entry `j`. -/
theorem alongMid_apply {α : Type} (v : S1024x6.Idx → α) (hc : S1024x6.ShapeCasts S1024x1x6)
    (hb : S1024x1x6.Broadcasts S1024x6x6) (r : Fin 1024) (i j : Fin 6) :
    broadcastTo S1024x6x6 (shapeCast S1024x1x6 v hc) hb (ix3 r i j) = v (ix2 r j) :=
  (bcastRow_apply _ hb r i j).trans (addMid_apply v hc r 0 j)

/-! ## The two rank-one products, the diagonal column and the identity -/

/-- Two rank-one products added to the zero matrix: entry `(i, j)` is `a₀ i * b₀ j + a₁ i * b₁ j`. -/
theorem rankOne_apply (a0 b0 a1 b1 : FVec Ideal S1024x6 .f32) (hc : S1024x6.ShapeCasts S1024x6x1)
    (hc' : S1024x6.ShapeCasts S1024x1x6) (hb : S1024x6x1.Broadcasts S1024x6x6) (hb' : S1024x1x6.Broadcasts S1024x6x6)
    (r : Fin 1024) (i j : Fin 6) :
    addf (addf (broadcast S1024x6x6 (Scalar.ofBits (F := Ideal) .f32 0x00000000#32))
          (mulf (broadcastTo S1024x6x6 (shapeCast S1024x6x1 a0 hc) hb) (broadcastTo S1024x6x6 (shapeCast S1024x1x6 b0 hc') hb')))
        (mulf (broadcastTo S1024x6x6 (shapeCast S1024x6x1 a1 hc) hb) (broadcastTo S1024x6x6 (shapeCast S1024x1x6 b1 hc') hb'))
        (ix3 r i j)
      = a0 (ix2 r i) * b0 (ix2 r j) + a1 (ix2 r i) * b1 (ix2 r j) := by
  show (Ideal.ofBits .f32 0x00000000#32
        + broadcastTo S1024x6x6 (shapeCast S1024x6x1 a0 hc) hb (ix3 r i j) * broadcastTo S1024x6x6 (shapeCast S1024x1x6 b0 hc') hb' (ix3 r i j))
      + broadcastTo S1024x6x6 (shapeCast S1024x6x1 a1 hc) hb (ix3 r i j) * broadcastTo S1024x6x6 (shapeCast S1024x1x6 b1 hc') hb' (ix3 r i j) = _
  rw [Ideal.ofBits_zero_f32, zero_add, alongLast_apply, alongMid_apply, alongLast_apply, alongMid_apply]

/-- Entry `(i, j)` of the product of the two factors of row `r`, from the row's activations. -/
theorem pay5_apply (v0 v2 : Vec Ideal S1024x64 .f32) (v5 : Vec Ideal S128x30 .f32) (v9 : Vec Ideal S30 .f32)
    (r : Fin 1024) (i j : Fin 6) :
    k2_pay5 v0 v2 v5 v9 (ix3 r i j)
      = k2_pay4 v0 v2 v5 v9 (ix2 r ⟨2 * i.val, by omega⟩) * k2_pay4 v0 v2 v5 v9 (ix2 r ⟨12 + 2 * j.val, by omega⟩)
        + k2_pay4 v0 v2 v5 v9 (ix2 r ⟨2 * i.val + 1, by omega⟩) * k2_pay4 v0 v2 v5 v9 (ix2 r ⟨12 + 2 * j.val + 1, by omega⟩) := by
  unfold k2_pay5
  refine (rankOne_apply _ _ _ _ _ _ _ _ r i j).trans ?_
  refine congrArg₂ (· + ·) (congrArg₂ (· * ·) ?_ ?_) (congrArg₂ (· * ·) ?_ ?_)
  · exact factorCol_apply _ 0 0 _ _ _ _ r i _ (by omega) (show 2 * i.val = 0 + (2 * i.val + 0) by omega)
  · exact factorCol_apply _ 12 0 _ _ _ _ r j _ (by omega) (show 12 + 2 * j.val = 12 + (2 * j.val + 0) by omega)
  · exact factorCol_apply _ 0 1 _ _ _ _ r i _ (by omega) (show 2 * i.val + 1 = 0 + (2 * i.val + 1) by omega)
  · exact factorCol_apply _ 12 1 _ _ _ _ r j _ (by omega) (show 12 + 2 * j.val + 1 = 12 + (2 * j.val + 1) by omega)

/-- The diagonal column of row `r`, repeated along the last axis: at `(i, j)` activation `24 + i`. -/
theorem pay7_apply (v0 v2 : Vec Ideal S1024x64 .f32) (v5 : Vec Ideal S128x30 .f32) (v9 : Vec Ideal S30 .f32)
    (r : Fin 1024) (i j : Fin 6) :
    k2_pay7 v0 v2 v5 v9 (ix3 r i j) = k2_pay4 v0 v2 v5 v9 (ix2 r ⟨24 + i.val, by omega⟩) := by
  unfold k2_pay7
  exact (alongLast_apply _ _ _ r i j).trans (slice2_axis1_apply 24 _ _ r i _ rfl)

/-- The word that compares two coordinates below six, widened and read as an integer: one on the diagonal, zero off it. -/
theorem eqWord_toInt : ∀ i j : Fin 6,
    ((IntOp.cmpi .eq (BitVec.ofNat 32 i.val) (BitVec.ofNat 32 j.val)).setWidth 32).toInt = if i = j then 1 else 0 := by
  decide

/-- The identity matrix, repeated for every row. -/
theorem pay6_apply (r : Fin 1024) (i j : Fin 6) : k2_pay6 (F := Ideal) (ix3 r i j) = Cert.Sheaf.eye i j := by
  unfold k2_pay6
  refine (bcastMat_apply _ _ r i j).trans ?_
  refine (congrFun (shapeCast_self _ _) _).trans ?_
  refine (shapeCast_ab_1ab_apply _ _ 0 i j).trans ?_
  show (((((IntOp.cmpi .eq (iota .tc S6x6 32 [0] iota_S6x6_d0_w32 (ix2 i j)) (iota .tc S6x6 32 [1] iota_S6x6_d1_w32 (ix2 i j))).setWidth 32).toInt : ℝ) : EReal)) = _
  rw [iota_single_apply, iota_single_apply]
  show (((((IntOp.cmpi .eq (BitVec.ofNat 32 i.val) (BitVec.ofNat 32 j.val)).setWidth 32).toInt : ℝ) : EReal)) = _
  rw [eqWord_toInt]
  unfold Cert.Sheaf.eye
  split <;> simp

/-! ## The float output -/

theorem zeroOffsets2 : (![0, 0] : Fin 2 → Nat) = fun _ => 0 := funext fun a => by fin_cases a <;> rfl

theorem zeroOffsets1 : (![0] : Fin 1 → Nat) = fun _ => 0 := funext fun a => by fin_cases a; rfl

/-- What the body leaves in the float output: the one store's payload, of the blocks as they were loaded. -/
theorem out2_6_eq (x0 x1 : Vec Ideal S1024x64 .f32) (x2 x3 : Vec Ideal S1024 .i32) (x4 : Vec Ideal S128x30 .f32)
    (x5 : Vec Ideal S30 .f32) :
    out2_6 x0 x1 x2 x3 x4 x5 = k2_pay1 (k2_pay5 x0 x1 x4 x5) (k2_pay6 (F := Ideal)) (k2_pay7 x0 x1 x4 x5) := by
  unfold out2_6
  rw [View.canon_unit_zero zeroOffsets2]
  simp only [View.ld_unit_zero (S := S1024x64) zeroOffsets2, View.ld_unit_zero (S := S128x30) zeroOffsets2,
    View.ld_unit_zero (S := S30) zeroOffsets1]

/-- The stored row unfolds the `6 × 6` matrix: column `6 i + j` is the products' entry plus the diagonal column's
    times the identity's. -/
theorem pay1_apply (v39 v47 v49 : FVec Ideal S1024x6x6 .f32) (r : Fin 1024) (i j : Fin 6) (q : Fin 36)
    (hq : q.val = i.val * 6 + j.val) :
    k2_pay1 v39 v47 v49 (ix2 r q) = v39 (ix3 r i j) + v49 (ix3 r i j) * v47 (ix3 r i j) := by
  unfold k2_pay1
  exact unfold_apply rfl _ _ r i j q hq

/-! ## The two integer outputs -/

/-- Six times the row's number, repeated along the row, plus a `6 × 6` table flattened and repeated down the rows:
    at column `6 i + j`, `6 * v r + M (i, j)`. -/
theorem coord_apply (M : IVec S6x6 32) (v : Vec Ideal S1024 .i32) (h1 : S1024.ShapeCasts S1024) (h2 : S6x6.ShapeCasts S36)
    (h3 : S1024.ShapeCasts S1024x1) (h4 : S36.ShapeCasts S1x36) (h5 : S1024x1.Broadcasts S1024x36)
    (h6 : S1x36.Broadcasts S1024x36) (r : Fin 1024) (i j : Fin 6) (q : Fin 36) (hq : q.val = i.val * 6 + j.val) :
    addi (broadcastTo S1024x36 (muli (broadcast S1024x1 6#32) (shapeCast S1024x1 (shapeCast S1024 v h1) h3)) h5)
        (broadcastTo S1024x36 (shapeCast S1x36 (shapeCast S36 M h2) h4) h6) (ix2 r q)
      = 6#32 * v (ix1 r) + M (ix2 i j) := by
  show IntOp.addi (broadcastTo S1024x36 (muli (broadcast S1024x1 6#32) (shapeCast S1024x1 (shapeCast S1024 v h1) h3)) h5 (ix2 r q))
      (broadcastTo S1024x36 (shapeCast S1x36 (shapeCast S36 M h2) h4) h6 (ix2 r q)) = _
  rw [bcastCol2_apply, broadcastTo_1b_ab_apply, shapeCast_a_1a_apply, flatten_apply M h2 i j q hq]
  show IntOp.addi (IntOp.muli 6#32 (shapeCast S1024x1 (shapeCast S1024 v h1) h3 (ix2 r 0))) (M (ix2 i j)) = _
  rw [asCol_apply, shapeCast_self]
  rfl

/-- Entry `(i, j)` of row `r`'s restriction map. -/
theorem out2_6_apply (x0 x1 : Vec Ideal S1024x64 .f32) (x2 x3 : Vec Ideal S1024 .i32) (x4 : Vec Ideal S128x30 .f32)
    (x5 : Vec Ideal S30 .f32) (r : Fin 1024) (i j : Fin 6) :
    out2_6 x0 x1 x2 x3 x4 x5 (ix2 r ⟨6 * i.val + j.val, by have := i.isLt; have := j.isLt; omega⟩)
      = Cert.Sheaf.sheafOut (fun f => x0 (ix2 r f)) (fun f => x1 (ix2 r f)) (fun c k => x4 (ix2 c k)) (fun k => x5 (ix1 k)) i j := by
  rw [out2_6_eq]
  refine (pay1_apply _ _ _ r i j _ (show 6 * i.val + j.val = i.val * 6 + j.val by omega)).trans ?_
  rw [pay5_apply, pay7_apply, pay6_apply]
  simp only [act_apply]
  rfl

/-- The block-row coordinate of entry `(i, j)` of row `r`'s map. -/
theorem out2_7_apply (x0 x1 : Vec Ideal S1024x64 .f32) (x2 x3 : Vec Ideal S1024 .i32) (x4 : Vec Ideal S128x30 .f32)
    (x5 : Vec Ideal S30 .f32) (r : Fin 1024) (i j : Fin 6) :
    out2_7 x0 x1 x2 x3 x4 x5 (ix2 r ⟨6 * i.val + j.val, by have := i.isLt; have := j.isLt; omega⟩)
      = Cert.Sheaf.idxEntry (x2 (ix1 r)) i.val := by
  unfold out2_7
  rw [View.canon_unit_zero zeroOffsets2, View.ld_unit_zero (S := S1024) zeroOffsets1]
  unfold k2_pay2
  refine (coord_apply _ x2 _ _ _ _ _ _ r i j _ (show 6 * i.val + j.val = i.val * 6 + j.val by omega)).trans ?_
  rw [iota_single_apply]
  rfl

/-- The block-column coordinate of entry `(i, j)` of row `r`'s map. -/
theorem out2_8_apply (x0 x1 : Vec Ideal S1024x64 .f32) (x2 x3 : Vec Ideal S1024 .i32) (x4 : Vec Ideal S128x30 .f32)
    (x5 : Vec Ideal S30 .f32) (r : Fin 1024) (i j : Fin 6) :
    out2_8 x0 x1 x2 x3 x4 x5 (ix2 r ⟨6 * i.val + j.val, by have := i.isLt; have := j.isLt; omega⟩)
      = Cert.Sheaf.idxEntry (x3 (ix1 r)) j.val := by
  unfold out2_8
  rw [View.canon_unit_zero zeroOffsets2, View.ld_unit_zero (S := S1024) zeroOffsets1]
  unfold k2_pay3
  refine (coord_apply _ x3 _ _ _ _ _ _ r i j _ (show 6 * i.val + j.val = i.val * 6 + j.val by omega)).trans ?_
  rw [iota_single_apply]
  rfl

end Cert.KernelIdeal.SheafPay

end
-- ==== Proof.SheafRegion.lean ====
/-
  The sheaf region as a whole. Grid point `t` takes rows `1024 t … 1024 t + 1023` of the four row-indexed operands, the
  whole weight matrix and the whole bias, and writes back rows `1024 t … 1024 t + 1023` of the three outputs. The 977
  blocks tile the 1000448 rows, so after the region row `n` of each output is the body's result on row `n` of the
  operands.
-/
import proofs.«425693_j74509092651432_2_alg».proof.Proof.Gen.KernelIdeal.Frame
import proofs.«425693_j74509092651432_2_alg».proof.Proof.Spec
import proofs.«425693_j74509092651432_2_alg».proof.Proof.SheafPayload
import Idealize.ShloMosaic.Lib.Pipeline.Value
import Idealize.ShloMosaic.Lib.ValueIdx

set_option maxRecDepth 16384

noncomputable section

namespace Cert.KernelIdeal.SheafReg

open Cert.KernelIdeal Cert.KernelIdeal.Gen
open Idealize.ShloMosaic Idealize.ShloMosaic.ValueIdx Idealize.ShloMosaic.TcCoe Idealize.SL.Sem
open scoped BigOperators

variable (m : (ℓ : Loc nD τ sig) → Buf (Elt Ideal) ℓ) (ρ : Dev nD → PrngReg)

/-- The block indices of the nine windows at grid point `t`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = t.val
    ∧ win2_3.index t (0 : Fin 1) = t.val
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

variable (V : (c : Dev nD) → (b : Ref sig .tc) → Buf (Elt Ideal) ((c : Thread nD τ).loc b))

/-- Row `r` of the first feature block at point `t` is row `1024 t + r` of the first feature operand. -/
theorem blk0_apply (c : Dev nD) (t : Fin cfg2.N) (r : Fin 1024) (f : Fin 64) (n : Fin 1000448)
    (hn : n.val = 1024 * t.val + r.val) :
    (iblk2 V c 0 t : Vec Ideal S1024x64 .f32) (ix2 r f) = (V c main_v8 : S1000448x64.Idx → EReal) (ix2 n f) := by
  obtain ⟨e0, e1, -⟩ := idx_facts t
  unfold iblk2
  rw [View.read_apply]
  show (V c main_v8 : S1000448x64.Idx → EReal) _ = _
  congr 1
  funext a
  apply Fin.ext
  match a with
  | ⟨0, _⟩ => show win2_0.index t (0 : Fin 2) * 1024 + 1 * r.val = n.val; omega
  | ⟨1, _⟩ => show win2_0.index t (1 : Fin 2) * 64 + 1 * f.val = f.val; omega

/-- Row `r` of the second feature block at point `t` is row `1024 t + r` of the second feature operand. -/
theorem blk1_apply (c : Dev nD) (t : Fin cfg2.N) (r : Fin 1024) (f : Fin 64) (n : Fin 1000448)
    (hn : n.val = 1024 * t.val + r.val) :
    (iblk2 V c 1 t : Vec Ideal S1024x64 .f32) (ix2 r f) = (V c main_v9 : S1000448x64.Idx → EReal) (ix2 n f) := by
  obtain ⟨-, -, e0, e1, -⟩ := idx_facts t
  unfold iblk2
  rw [View.read_apply]
  show (V c main_v9 : S1000448x64.Idx → EReal) _ = _
  congr 1
  funext a
  apply Fin.ext
  match a with
  | ⟨0, _⟩ => show win2_1.index t (0 : Fin 2) * 1024 + 1 * r.val = n.val; omega
  | ⟨1, _⟩ => show win2_1.index t (1 : Fin 2) * 64 + 1 * f.val = f.val; omega

/-- Entry `r` of the node-number block at point `t` is entry `1024 t + r` of the node-number operand. -/
theorem blk2_apply (c : Dev nD) (t : Fin cfg2.N) (r : Fin 1024) (n : Fin 1000448)
    (hn : n.val = 1024 * t.val + r.val) :
    (iblk2 V c 2 t : Vec Ideal S1024 .i32) (ix1 r) = (V c main_v10 : S1000448.Idx → BitVec 32) (ix1 n) := by
  obtain ⟨-, -, -, -, e0, -⟩ := idx_facts t
  unfold iblk2
  rw [View.read_apply]
  show (V c main_v10 : S1000448.Idx → BitVec 32) _ = _
  congr 1
  funext a
  apply Fin.ext
  match a with
  | ⟨0, _⟩ => show win2_2.index t (0 : Fin 1) * 1024 + 1 * r.val = n.val; omega

/-- Entry `r` of the hyperedge-number block at point `t` is entry `1024 t + r` of the hyperedge-number operand. -/
theorem blk3_apply (c : Dev nD) (t : Fin cfg2.N) (r : Fin 1024) (n : Fin 1000448)
    (hn : n.val = 1024 * t.val + r.val) :
    (iblk2 V c 3 t : Vec Ideal S1024 .i32) (ix1 r) = (V c main_v11 : S1000448.Idx → BitVec 32) (ix1 n) := by
  obtain ⟨-, -, -, -, -, e0, -⟩ := idx_facts t
  unfold iblk2
  rw [View.read_apply]
  show (V c main_v11 : S1000448.Idx → BitVec 32) _ = _
  congr 1
  funext a
  apply Fin.ext
  match a with
  | ⟨0, _⟩ => show win2_3.index t (0 : Fin 1) * 1024 + 1 * r.val = n.val; omega

/-- The weight block at every point is the whole weight matrix. -/
theorem blk4_apply (c : Dev nD) (t : Fin cfg2.N) (a : Fin 128) (k : Fin 30) :
    (iblk2 V c 4 t : Vec Ideal S128x30 .f32) (ix2 a k) = (V c main_arg2 : S128x30.Idx → EReal) (ix2 a k) := by
  obtain ⟨-, -, -, -, -, -, e0, e1, -⟩ := idx_facts t
  unfold iblk2
  rw [View.read_apply]
  show (V c main_arg2 : S128x30.Idx → EReal) _ = _
  congr 1
  funext d
  apply Fin.ext
  match d with
  | ⟨0, _⟩ => show win2_4.index t (0 : Fin 2) * 128 + 1 * a.val = a.val; omega
  | ⟨1, _⟩ => show win2_4.index t (1 : Fin 2) * 30 + 1 * k.val = k.val; omega

/-- The bias block at every point is the whole bias. -/
theorem blk5_apply (c : Dev nD) (t : Fin cfg2.N) (k : Fin 30) :
    (iblk2 V c 5 t : Vec Ideal S30 .f32) (ix1 k) = (V c main_arg3 : S30.Idx → EReal) (ix1 k) := by
  obtain ⟨-, -, -, -, -, -, -, -, e0, -⟩ := idx_facts t
  unfold iblk2
  rw [View.read_apply]
  show (V c main_arg3 : S30.Idx → EReal) _ = _
  congr 1
  funext d
  apply Fin.ext
  match d with
  | ⟨0, _⟩ => show win2_5.index t (0 : Fin 1) * 30 + 1 * k.val = k.val; omega

/-- The restriction map's entry depends on its operands only through their values. -/
theorem sheafOut_congr {a a' b b' : Fin 64 → EReal} {W W' : Fin 128 → Fin 30 → EReal} {β β' : Fin 30 → EReal}
    {i i' j j' : Fin 6} (ha : a = a') (hb : b = b') (hW : W = W') (hβ : β = β') (hi : i = i') (hj : j = j') :
    Cert.Sheaf.sheafOut a b W β i j = Cert.Sheaf.sheafOut a' b' W' β' i' j' := by
  subst ha hb hW hβ hi hj; rfl

/-- A column `6 i + j` of a map's row is below 36. -/
theorem col_lt (i j : Fin 6) : 6 * i.val + j.val < 36 := by have := i.isLt; have := j.isLt; omega

/-- An index of a block of 1024 rows and 36 columns from its row and its column's two parts. -/
theorem eq_ix2_col (z : S1024x36.Idx) (r : Fin 1024) (i j : Fin 6)
    (h0 : (z 0).val = r.val) (h1 : (z 1).val = 6 * i.val + j.val) : z = ix2 r ⟨6 * i.val + j.val, col_lt i j⟩ := by
  funext a; apply Fin.ext
  match a with
  | ⟨0, _⟩ => exact h0
  | ⟨1, _⟩ => exact h1

/-- The float block's entry at `z`, whose row is `r` and whose column is `6 i + j`. -/
theorem out6_at (x0 x1 : Vec Ideal S1024x64 .f32) (x2 x3 : Vec Ideal S1024 .i32) (x4 : Vec Ideal S128x30 .f32)
    (x5 : Vec Ideal S30 .f32) (z : S1024x36.Idx) (r : Fin 1024) (i j : Fin 6)
    (h0 : (z 0).val = r.val) (h1 : (z 1).val = 6 * i.val + j.val) :
    out2_6 x0 x1 x2 x3 x4 x5 z
      = Cert.Sheaf.sheafOut (fun f => x0 (ix2 r f)) (fun f => x1 (ix2 r f)) (fun c k => x4 (ix2 c k)) (fun k => x5 (ix1 k)) i j := by
  exact (congrArg (out2_6 x0 x1 x2 x3 x4 x5) (eq_ix2_col z r i j h0 h1)).trans (SheafPay.out2_6_apply x0 x1 x2 x3 x4 x5 r i j)

/-- The first integer block's entry at `z`. -/
theorem out7_at (x0 x1 : Vec Ideal S1024x64 .f32) (x2 x3 : Vec Ideal S1024 .i32) (x4 : Vec Ideal S128x30 .f32)
    (x5 : Vec Ideal S30 .f32) (z : S1024x36.Idx) (r : Fin 1024) (i j : Fin 6)
    (h0 : (z 0).val = r.val) (h1 : (z 1).val = 6 * i.val + j.val) :
    out2_7 x0 x1 x2 x3 x4 x5 z = Cert.Sheaf.idxEntry (x2 (ix1 r)) i.val := by
  exact (congrArg (out2_7 x0 x1 x2 x3 x4 x5) (eq_ix2_col z r i j h0 h1)).trans (SheafPay.out2_7_apply x0 x1 x2 x3 x4 x5 r i j)

/-- The second integer block's entry at `z`. -/
theorem out8_at (x0 x1 : Vec Ideal S1024x64 .f32) (x2 x3 : Vec Ideal S1024 .i32) (x4 : Vec Ideal S128x30 .f32)
    (x5 : Vec Ideal S30 .f32) (z : S1024x36.Idx) (r : Fin 1024) (i j : Fin 6)
    (h0 : (z 0).val = r.val) (h1 : (z 1).val = 6 * i.val + j.val) :
    out2_8 x0 x1 x2 x3 x4 x5 z = Cert.Sheaf.idxEntry (x3 (ix1 r)) j.val := by
  exact (congrArg (out2_8 x0 x1 x2 x3 x4 x5) (eq_ix2_col z r i j h0 h1)).trans (SheafPay.out2_8_apply x0 x1 x2 x3 x4 x5 r i j)

/-- The float output as one function of the operands the region finds: at row `n`, column `q`, the restriction map's
    entry `(q / 6, q % 6)` from row `n`. -/
def G6 (c : Dev nD) : S1000448x36.Idx → EReal := fun k =>
  Cert.Sheaf.sheafOut (fun f => (V c main_v8 : S1000448x64.Idx → EReal) (ix2 (k 0) f))
    (fun f => (V c main_v9 : S1000448x64.Idx → EReal) (ix2 (k 0) f))
    (fun c' k' => (V c main_arg2 : S128x30.Idx → EReal) (ix2 c' k'))
    (fun k' => (V c main_arg3 : S30.Idx → EReal) (ix1 k'))
    ⟨(k 1).val / 6, by have := idx2_lt1 k; omega⟩ ⟨(k 1).val % 6, by omega⟩

/-- What point `t` writes back to the float output is block `t` of `G6`. -/
theorem flushed6_eq (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6]
  funext y
  have hy0 : (y 0).val < 1024 := (y 0).isLt
  have hy1 : (y 1).val < 36 := (y 1).isLt
  have hN : t.val < 977 := t.isLt
  obtain ⟨-, -, -, -, -, -, -, -, -, e0, e1, -⟩ := idx_facts t
  refine (out6_at (iblk2 V c 0 t) (iblk2 V c 1 t) (iblk2 V c 2 t) (iblk2 V c 3 t) (iblk2 V c 4 t) (iblk2 V c 5 t)
    ((cfg2.win 6).xinj (grid2.coords t) y) ⟨(y 0).val, hy0⟩ ⟨(y 1).val / 6, by omega⟩ ⟨(y 1).val % 6, by omega⟩ rfl
    (by show (y 1).val = 6 * ((y 1).val / 6) + (y 1).val % 6; omega)).trans ?_
  rw [View.read_apply]
  have hemb : ((cfg2.win 6).blk t).view.emb y
      = (ix2 (⟨1024 * t.val + (y 0).val, by omega⟩ : Fin 1000448) (⟨(y 1).val, hy1⟩ : Fin 36) : S1000448x36.Idx) := by
    funext a; apply Fin.ext
    match a with
    | ⟨0, _⟩ => show win2_6.index t (0 : Fin 2) * 1024 + 1 * (y 0).val = 1024 * t.val + (y 0).val; omega
    | ⟨1, _⟩ => show win2_6.index t (1 : Fin 2) * 36 + 1 * (y 1).val = (y 1).val; omega
  rw [hemb]
  show _ = G6 V c _
  unfold G6
  exact sheafOut_congr
    (funext fun f => blk0_apply V c t _ f _ rfl)
    (funext fun f => blk1_apply V c t _ f _ rfl)
    (funext fun a => funext fun k => blk4_apply V c t a k)
    (funext fun k => blk5_apply V c t k)
    rfl rfl

/-- The first integer output as one function of the node numbers: at row `n`, column `q`, six times the row's node
    number plus `q / 6`. -/
def G7 (c : Dev nD) : S1000448x36.Idx → BitVec 32 := fun k =>
  Cert.Sheaf.idxEntry ((V c main_v10 : S1000448.Idx → BitVec 32) (ix1 (k 0))) ((k 1).val / 6)

/-- The second integer output as one function of the hyperedge numbers: at row `n`, column `q`, six times the row's
    hyperedge number plus `q % 6`. -/
def G8 (c : Dev nD) : S1000448x36.Idx → BitVec 32 := fun k =>
  Cert.Sheaf.idxEntry ((V c main_v11 : S1000448.Idx → BitVec 32) (ix1 (k 0))) ((k 1).val % 6)

/-- What point `t` writes back to the first integer output is block `t` of `G7`. -/
theorem flushed7_eq (c : Dev nD) (t : Fin cfg2.N) :
    (dat2 V c).flushed 7 t = ((cfg2.win 7).blk t).view.read (Elt Ideal) (G7 V c) := by
  show (cfg2.win 7).cut (grid2.coords t) ((dat2 V c).after 7 t) = _
  rw [after2_7]
  funext y
  have hy0 : (y 0).val < 1024 := (y 0).isLt
  have hy1 : (y 1).val < 36 := (y 1).isLt
  have hN : t.val < 977 := t.isLt
  obtain ⟨-, -, -, -, -, -, -, -, -, -, -, e0, e1, -⟩ := idx_facts t
  refine (out7_at (iblk2 V c 0 t) (iblk2 V c 1 t) (iblk2 V c 2 t) (iblk2 V c 3 t) (iblk2 V c 4 t) (iblk2 V c 5 t)
    ((cfg2.win 7).xinj (grid2.coords t) y) ⟨(y 0).val, hy0⟩ ⟨(y 1).val / 6, by omega⟩ ⟨(y 1).val % 6, by omega⟩ rfl
    (by show (y 1).val = 6 * ((y 1).val / 6) + (y 1).val % 6; omega)).trans ?_
  rw [View.read_apply]
  have hemb : ((cfg2.win 7).blk t).view.emb y
      = (ix2 (⟨1024 * t.val + (y 0).val, by omega⟩ : Fin 1000448) (⟨(y 1).val, hy1⟩ : Fin 36) : S1000448x36.Idx) := by
    funext a; apply Fin.ext
    match a with
    | ⟨0, _⟩ => show win2_7.index t (0 : Fin 2) * 1024 + 1 * (y 0).val = 1024 * t.val + (y 0).val; omega
    | ⟨1, _⟩ => show win2_7.index t (1 : Fin 2) * 36 + 1 * (y 1).val = (y 1).val; omega
  rw [hemb]
  show _ = G7 V c _
  unfold G7
  exact congrArg (fun w => Cert.Sheaf.idxEntry w ((y 1).val / 6)) (blk2_apply V c t _ _ rfl)

/-- What point `t` writes back to the second integer output is block `t` of `G8`. -/
theorem flushed8_eq (c : Dev nD) (t : Fin cfg2.N) :
    (dat2 V c).flushed 8 t = ((cfg2.win 8).blk t).view.read (Elt Ideal) (G8 V c) := by
  show (cfg2.win 8).cut (grid2.coords t) ((dat2 V c).after 8 t) = _
  rw [after2_8]
  funext y
  have hy0 : (y 0).val < 1024 := (y 0).isLt
  have hy1 : (y 1).val < 36 := (y 1).isLt
  have hN : t.val < 977 := t.isLt
  obtain ⟨-, -, -, -, -, -, -, -, -, -, -, -, -, e0, e1⟩ := idx_facts t
  refine (out8_at (iblk2 V c 0 t) (iblk2 V c 1 t) (iblk2 V c 2 t) (iblk2 V c 3 t) (iblk2 V c 4 t) (iblk2 V c 5 t)
    ((cfg2.win 8).xinj (grid2.coords t) y) ⟨(y 0).val, hy0⟩ ⟨(y 1).val / 6, by omega⟩ ⟨(y 1).val % 6, by omega⟩ rfl
    (by show (y 1).val = 6 * ((y 1).val / 6) + (y 1).val % 6; omega)).trans ?_
  rw [View.read_apply]
  have hemb : ((cfg2.win 8).blk t).view.emb y
      = (ix2 (⟨1024 * t.val + (y 0).val, by omega⟩ : Fin 1000448) (⟨(y 1).val, hy1⟩ : Fin 36) : S1000448x36.Idx) := by
    funext a; apply Fin.ext
    match a with
    | ⟨0, _⟩ => show win2_8.index t (0 : Fin 2) * 1024 + 1 * (y 0).val = 1024 * t.val + (y 0).val; omega
    | ⟨1, _⟩ => show win2_8.index t (1 : Fin 2) * 36 + 1 * (y 1).val = (y 1).val; omega
  rw [hemb]
  show _ = G8 V c _
  unfold G8
  exact congrArg (fun w => Cert.Sheaf.idxEntry w ((y 1).val % 6)) (blk3_apply V c t _ _ rfl)

/-- An index of the float output is in point `t`'s block iff each coordinate is in the block's range on its axis. -/
theorem mem_blk6 (t : Fin cfg2.N) (i : S1000448x36.Idx) :
    i ∈ ((cfg2.win 6).blk t).view.set ↔ ∀ a : Fin 2, win2_6.index t a * S1024x36.size a ≤ (i a).val
      ∧ (i a).val < win2_6.index t a * S1024x36.size a + S1024x36.size a := by
  show i ∈ ((View.whole main_v12_0).slice (win2_6.rect t)).set ↔ _
  rw [View.set_slice_whole, Rect.mem_set_unit]
  exact Iff.rfl

/-- Row `n` of the float output lies in the block of point `n / 1024`: the 977 blocks of 1024 rows tile the 1000448 rows. -/
theorem cover6 (i : S1000448x36.Idx) :
    ∃ t : Fin cfg2.N, (cfg2.win 6).flush t = true ∧ i ∈ ((cfg2.win 6).blk t).view.set := by
  have hi0 : (i 0).val < 1000448 := (i 0).isLt
  have hi1 : (i 1).val < 36 := (i 1).isLt
  obtain ⟨t, ht⟩ : ∃ t : Fin cfg2.N, t.val = (i 0).val / 1024 :=
    ⟨⟨(i 0).val / 1024, by show (i 0).val / 1024 < grid2.N; rw [N_2]; omega⟩, rfl⟩
  obtain ⟨-, -, -, -, -, -, -, -, -, e0, e1, -⟩ := idx_facts t
  refine ⟨t, flush2_6 t, ?_⟩
  rw [mem_blk6]
  intro a
  match a with
  | ⟨0, _⟩ =>
    show win2_6.index t (0 : Fin 2) * 1024 ≤ (i 0).val ∧ (i 0).val < win2_6.index t (0 : Fin 2) * 1024 + 1024
    omega
  | ⟨1, _⟩ =>
    show win2_6.index t (1 : Fin 2) * 36 ≤ (i 1).val ∧ (i 1).val < win2_6.index t (1 : Fin 2) * 36 + 36
    omega

/-- After the region the float output is `G6` of the operands. -/
theorem final6 (c : Dev nD) : (dat2 V c).arrAt 6 cfg2.N = G6 V c :=
  (dat2 V c).arrAt_eq_of_cover 6 (G6 V c) (fun t _ => flushed6_eq V c t) cover6

/-- An index of the first integer output is in point `t`'s block iff each coordinate is in the block's range on its axis. -/
theorem mem_blk7 (t : Fin cfg2.N) (i : S1000448x36.Idx) :
    i ∈ ((cfg2.win 7).blk t).view.set ↔ ∀ a : Fin 2, win2_7.index t a * S1024x36.size a ≤ (i a).val
      ∧ (i a).val < win2_7.index t a * S1024x36.size a + S1024x36.size a := by
  show i ∈ ((View.whole main_v12_1).slice (win2_7.rect t)).set ↔ _
  rw [View.set_slice_whole, Rect.mem_set_unit]
  exact Iff.rfl

/-- Row `n` of the first integer output lies in the block of point `n / 1024`. -/
theorem cover7 (i : S1000448x36.Idx) :
    ∃ t : Fin cfg2.N, (cfg2.win 7).flush t = true ∧ i ∈ ((cfg2.win 7).blk t).view.set := by
  have hi0 : (i 0).val < 1000448 := (i 0).isLt
  have hi1 : (i 1).val < 36 := (i 1).isLt
  obtain ⟨t, ht⟩ : ∃ t : Fin cfg2.N, t.val = (i 0).val / 1024 :=
    ⟨⟨(i 0).val / 1024, by show (i 0).val / 1024 < grid2.N; rw [N_2]; omega⟩, rfl⟩
  obtain ⟨-, -, -, -, -, -, -, -, -, -, -, e0, e1, -⟩ := idx_facts t
  refine ⟨t, flush2_7 t, ?_⟩
  rw [mem_blk7]
  intro a
  match a with
  | ⟨0, _⟩ =>
    show win2_7.index t (0 : Fin 2) * 1024 ≤ (i 0).val ∧ (i 0).val < win2_7.index t (0 : Fin 2) * 1024 + 1024
    omega
  | ⟨1, _⟩ =>
    show win2_7.index t (1 : Fin 2) * 36 ≤ (i 1).val ∧ (i 1).val < win2_7.index t (1 : Fin 2) * 36 + 36
    omega

/-- After the region the first integer output is `G7` of the node numbers. -/
theorem final7 (c : Dev nD) : (dat2 V c).arrAt 7 cfg2.N = G7 V c :=
  (dat2 V c).arrAt_eq_of_cover 7 (G7 V c) (fun t _ => flushed7_eq V c t) cover7

/-- An index of the second integer output is in point `t`'s block iff each coordinate is in the block's range on its axis. -/
theorem mem_blk8 (t : Fin cfg2.N) (i : S1000448x36.Idx) :
    i ∈ ((cfg2.win 8).blk t).view.set ↔ ∀ a : Fin 2, win2_8.index t a * S1024x36.size a ≤ (i a).val
      ∧ (i a).val < win2_8.index t a * S1024x36.size a + S1024x36.size a := by
  show i ∈ ((View.whole main_v12_2).slice (win2_8.rect t)).set ↔ _
  rw [View.set_slice_whole, Rect.mem_set_unit]
  exact Iff.rfl

/-- Row `n` of the second integer output lies in the block of point `n / 1024`. -/
theorem cover8 (i : S1000448x36.Idx) :
    ∃ t : Fin cfg2.N, (cfg2.win 8).flush t = true ∧ i ∈ ((cfg2.win 8).blk t).view.set := by
  have hi0 : (i 0).val < 1000448 := (i 0).isLt
  have hi1 : (i 1).val < 36 := (i 1).isLt
  obtain ⟨t, ht⟩ : ∃ t : Fin cfg2.N, t.val = (i 0).val / 1024 :=
    ⟨⟨(i 0).val / 1024, by show (i 0).val / 1024 < grid2.N; rw [N_2]; omega⟩, rfl⟩
  obtain ⟨-, -, -, -, -, -, -, -, -, -, -, -, -, e0, e1⟩ := idx_facts t
  refine ⟨t, flush2_8 t, ?_⟩
  rw [mem_blk8]
  intro a
  match a with
  | ⟨0, _⟩ =>
    show win2_8.index t (0 : Fin 2) * 1024 ≤ (i 0).val ∧ (i 0).val < win2_8.index t (0 : Fin 2) * 1024 + 1024
    omega
  | ⟨1, _⟩ =>
    show win2_8.index t (1 : Fin 2) * 36 ≤ (i 1).val ∧ (i 1).val < win2_8.index t (1 : Fin 2) * 36 + 36
    omega

/-- After the region the second integer output is `G8` of the hyperedge numbers. -/
theorem final8 (c : Dev nD) : (dat2 V c).arrAt 8 cfg2.N = G8 V c :=
  (dat2 V c).arrAt_eq_of_cover 8 (G8 V c) (fun t _ => flushed8_eq V c t) cover8

/-- After the region, entry `(i, j)` of row `n` of the float output is the restriction map's entry from row `n` of the two
    feature operands, the weights and the bias as the region found them. -/
theorem V14_attrs (c : Dev nD) (n : Fin 1000448) (i j : Fin 6) :
    (V14 m ρ c main_v12_0 : S1000448x36.Idx → EReal) (ix2 n ⟨6 * i.val + j.val, by have := i.isLt; have := j.isLt; omega⟩)
      = Cert.Sheaf.sheafOut (fun f => (V13 m ρ c main_v8 : S1000448x64.Idx → EReal) (ix2 n f))
          (fun f => (V13 m ρ c main_v9 : S1000448x64.Idx → EReal) (ix2 n f))
          (fun c' k => (V13 m ρ c main_arg2 : S128x30.Idx → EReal) (ix2 c' k))
          (fun k => (V13 m ρ c main_arg3 : S30.Idx → EReal) (ix1 k)) i j := by
  have hi := i.isLt
  have hj := j.isLt
  refine (congrFun (W14_arr m ρ c 6) _).trans ?_
  refine (congrFun (final6 (V13 m ρ) c) _).trans ?_
  unfold G6
  exact sheafOut_congr rfl rfl rfl rfl
    (Fin.ext (by show (6 * i.val + j.val) / 6 = i.val; omega))
    (Fin.ext (by show (6 * i.val + j.val) % 6 = j.val; omega))

/-- After the region, the first integer output at row `n`, column `6 i + j`. -/
theorem V14_idx0 (c : Dev nD) (n : Fin 1000448) (i j : Fin 6) :
    (V14 m ρ c main_v12_1 : S1000448x36.Idx → BitVec 32) (ix2 n ⟨6 * i.val + j.val, by have := i.isLt; have := j.isLt; omega⟩)
      = Cert.Sheaf.idxEntry ((V13 m ρ c main_v10 : S1000448.Idx → BitVec 32) (ix1 n)) i.val := by
  have hi := i.isLt
  have hj := j.isLt
  refine (congrFun (W14_arr m ρ c 7) _).trans ?_
  refine (congrFun (final7 (V13 m ρ) c) _).trans ?_
  unfold G7
  exact congrArg (Cert.Sheaf.idxEntry _) (by show (6 * i.val + j.val) / 6 = i.val; omega)

/-- After the region, the second integer output at row `n`, column `6 i + j`. -/
theorem V14_idx1 (c : Dev nD) (n : Fin 1000448) (i j : Fin 6) :
    (V14 m ρ c main_v12_2 : S1000448x36.Idx → BitVec 32) (ix2 n ⟨6 * i.val + j.val, by have := i.isLt; have := j.isLt; omega⟩)
      = Cert.Sheaf.idxEntry ((V13 m ρ c main_v11 : S1000448.Idx → BitVec 32) (ix1 n)) j.val := by
  have hi := i.isLt
  have hj := j.isLt
  refine (congrFun (W14_arr m ρ c 8) _).trans ?_
  refine (congrFun (final8 (V13 m ρ) c) _).trans ?_
  unfold G8
  exact congrArg (Cert.Sheaf.idxEntry _) (by show (6 * i.val + j.val) % 6 = j.val; omega)

end Cert.KernelIdeal.SheafReg

end
-- ==== Proof.RefValue.lean ====
/-
  The reference program's stages read entry by entry: the two pooled feature arrays as means of six stalk copies, the
  restriction maps as `A Bᵀ + diag C` of the activations of each incidence's feature row, and the two coordinate arrays.
-/
import proofs.«425693_j74509092651432_2_alg».proof.Proof.Gen.ReferenceIdeal.Read
import proofs.«425693_j74509092651432_2_alg».proof.Proof.Spec
import proofs.«425693_j74509092651432_2_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.ReferenceIdeal.RefValue

open Cert.ReferenceIdeal Cert.ReferenceIdeal.Read
open Idealize.ShloMosaic Idealize.ShloMosaic.ValueIdx
open scoped BigOperators

/-! ## The pieces of the restriction map -/

/-- The identity matrix as the program builds it: the row number (plus the zero word) compared with the column number,
    the one-bit answer read as a float, is `1` on the diagonal and `0` off it. -/
theorem eye_word (i j : Fin 6) :
    FloatOps.uitofp (F := Ideal) .f32 (IntOp.cmpi .eq (IntOp.addi (BitVec.ofNat 32 i.val) 0#32) (BitVec.ofNat 32 j.val))
      = Cert.Sheaf.eye i j := by
  have hw : IntOp.cmpi .eq (IntOp.addi (BitVec.ofNat 32 i.val) 0#32) (BitVec.ofNat 32 j.val)
      = if i = j then 1#1 else 0#1 := by
    revert i j; decide
  rw [hw]; unfold Cert.Sheaf.eye
  split
  · show (((1#1 : BitVec 1).toNat : ℝ) : EReal) = 1; simp
  · show (((0#1 : BitVec 1).toNat : ℝ) : EReal) = 0; simp

/-- Row `n` of the joined feature array: the gathered node row in columns `0 … 63`, the gathered hyperedge row in
    columns `64 … 127`. -/
theorem cat_apply (x0 : (⟨S600000x64, .f32⟩ : BufTy).Contents (Elt Ideal)) (x1 : (⟨S120000x64, .f32⟩ : BufTy).Contents (Elt Ideal))
    (x4 : (⟨S2x1000000, .i32⟩ : BufTy).Contents (Elt Ideal)) (n : Fin 1000000) (c : Fin 128) :
    val_main_v26 (F := Ideal) x0 x1 x4 (ix2 n c)
      = Cert.Sheaf.catRow (fun f => val_main_v18 (F := Ideal) x0 x4 (ix2 n f))
          (fun f => val_main_v25 (F := Ideal) x1 x4 (ix2 n f)) c := by
  unfold val_main_v26 Cert.Sheaf.catRow
  generalize val_main_v18 (F := Ideal) x0 x4 = a
  generalize val_main_v25 (F := Ideal) x1 x4 = b
  split
  · next hc =>
    exact concatenate_pair_apply_left 1 a b _ (ix2 n c) rfl (ix2 n ⟨c.val, hc⟩)
      (fun bb => by match bb with | ⟨0, _⟩ => rfl | ⟨1, _⟩ => rfl)
  · next hc =>
    exact concatenate_pair_apply_right 1 a b _ (ix2 n c) rfl rfl
      (ix2 n ⟨c.val - 64, by have := c.isLt; omega⟩)
      (fun bb hb => by match bb with | ⟨0, _⟩ => rfl | ⟨1, _⟩ => exact absurd rfl hb)
      (by show (c.val - 64) + 64 = c.val; omega)

/-- Activation `k` of incidence `n`: the affine layer on the joined row, then `1 / (1 + exp (-·))`, which is the
    logistic function by its definition. -/
theorem act_apply (x0 : (⟨S600000x64, .f32⟩ : BufTy).Contents (Elt Ideal)) (x1 : (⟨S120000x64, .f32⟩ : BufTy).Contents (Elt Ideal))
    (x2 : (⟨S128x30, .f32⟩ : BufTy).Contents (Elt Ideal)) (x3 : (⟨S30, .f32⟩ : BufTy).Contents (Elt Ideal))
    (x4 : (⟨S2x1000000, .i32⟩ : BufTy).Contents (Elt Ideal)) (n : Fin 1000000) (k : Fin 30) :
    val_main_v36 (F := Ideal) x0 x1 x2 x3 x4 (ix2 n k)
      = Cert.Sheaf.act (Cert.Sheaf.catRow (fun f => val_main_v18 (F := Ideal) x0 x4 (ix2 n f))
            (fun f => val_main_v25 (F := Ideal) x1 x4 (ix2 n f)))
          (fun c k => x2 (ix2 c k)) (fun k => x3 (ix1 k)) k := by
  rw [val_main_v36_apply, val_main_v35_apply, val_main_cst_7_apply, val_main_v34_apply, val_main_v33_apply,
    val_main_cst_6_apply, val_main_v32_apply, val_main_v31_apply, val_main_v30_apply, val_main_v27_apply,
    val_main_v29_apply, val_main_v28_apply]
  simp only [Ideal.hostDivf_def, Ideal.addf_def, Ideal.hostUnary_exp_def, Ideal.hostNegf_def, Ideal.negf_def,
    Ideal.ofBits_def, Ideal.ofBits_one_f32]
  unfold Cert.Sheaf.act Ideal.logistic
  refine congrArg (fun s => Ideal.div 1 (1 + Ideal.exp (-s)))
    (congrArg₂ (· + ·) (Finset.sum_congr rfl fun c _ => ?_) (congrArg x3 ?_))
  · -- term `c` of the contraction pairs column `c` of row `n` with entry `(c, k)` of the weights
    have el : lidx_main_v27 (ix2 n k) c = ix2 n c :=
      funext fun a => Fin.ext (by match a with | ⟨0, _⟩ => rfl | ⟨1, _⟩ => rfl)
    have er : ridx_main_v27 (ix2 n k) c = ix2 c k :=
      funext fun a => Fin.ext (by match a with | ⟨0, _⟩ => rfl | ⟨1, _⟩ => rfl)
    rw [el, er, cat_apply]
  · -- the bias row broadcast down the rows reads entry `k`
    exact funext fun a => Fin.ext (by match a with | ⟨0, _⟩ => rfl)

/-- Entry `(i, j)` of incidence `n`'s map from the thirty activations of row `n`: the slices and reshapes place
    `A i r` at activation `2 i + r`, `B j r` at `12 + 2 j + r` and `C i` at `24 + i`; the batched product sums over
    `r = 0, 1`. -/
theorem attrs_of_act (x0 : (⟨S600000x64, .f32⟩ : BufTy).Contents (Elt Ideal)) (x1 : (⟨S120000x64, .f32⟩ : BufTy).Contents (Elt Ideal))
    (x2 : (⟨S128x30, .f32⟩ : BufTy).Contents (Elt Ideal)) (x3 : (⟨S30, .f32⟩ : BufTy).Contents (Elt Ideal))
    (x4 : (⟨S2x1000000, .i32⟩ : BufTy).Contents (Elt Ideal)) (n : Fin 1000000) (i j : Fin 6) :
    val_main_v54 (F := Ideal) x0 x1 x2 x3 x4 (ix3 n i j)
      = Cert.Sheaf.mapEntry (fun k => val_main_v36 (F := Ideal) x0 x1 x2 x3 x4 (ix2 n k)) i j := by
  rw [val_main_v54_apply, val_main_v42_apply, val_main_v53_apply, val_main_v51_apply, val_main_v43_apply,
    val_main_v41_apply, val_main_v52_apply, val_main_v50_apply, val_main_v49_apply, val_main_v48_apply,
    val_main_v47_apply, val_main_v44_apply, val_main_v46_apply, val_main_c_8_apply, val_main_v45_apply,
    Fin.sum_univ_two]
  simp only [val_main_v38_apply, val_main_v37_apply, val_main_v40_apply, val_main_v39_apply, Ideal.addf_def,
    Ideal.mulf_def]
  generalize val_main_v36 (F := Ideal) x0 x1 x2 x3 x4 = z
  unfold Cert.Sheaf.mapEntry
  have hi := i.isLt
  have hj := j.isLt
  refine congrArg₂ (· + ·) (congrArg₂ (· + ·) (congrArg₂ (· * ·) (congrArg z ?_) (congrArg z ?_))
    (congrArg₂ (· * ·) (congrArg z ?_) (congrArg z ?_))) (congrArg₂ (· * ·) (congrArg z ?_) (eye_word i j))
  · -- `A i 0`
    exact funext fun a => Fin.ext (by
      match a with
      | ⟨0, _⟩ => show ((n.val * 6 + i.val) * 2 + 0) / 12 = n.val; omega
      | ⟨1, _⟩ => show ((n.val * 6 + i.val) * 2 + 0) % 12 = 2 * i.val; omega)
  · -- `B j 0`
    exact funext fun a => Fin.ext (by
      match a with
      | ⟨0, _⟩ => show ((n.val * 6 + j.val) * 2 + 0) / 12 = n.val; omega
      | ⟨1, _⟩ => show 12 + ((n.val * 6 + j.val) * 2 + 0) % 12 = 12 + 2 * j.val; omega)
  · -- `A i 1`
    exact funext fun a => Fin.ext (by
      match a with
      | ⟨0, _⟩ => show ((n.val * 6 + i.val) * 2 + 1) / 12 = n.val; omega
      | ⟨1, _⟩ => show ((n.val * 6 + i.val) * 2 + 1) % 12 = 2 * i.val + 1; omega)
  · -- `B j 1`
    exact funext fun a => Fin.ext (by
      match a with
      | ⟨0, _⟩ => show ((n.val * 6 + j.val) * 2 + 1) / 12 = n.val; omega
      | ⟨1, _⟩ => show 12 + ((n.val * 6 + j.val) * 2 + 1) % 12 = 12 + 2 * j.val + 1; omega)
  · -- `C i`
    exact funext fun a => Fin.ext (by
      match a with
      | ⟨0, _⟩ => rfl
      | ⟨1, _⟩ => rfl)

/-! ## The stages -/

/-- Row `n` of the pooled node features is the mean of the node's six stalk copies. -/
theorem mean_x (x0 : (⟨S600000x64, .f32⟩ : BufTy).Contents (Elt Ideal)) (n : Fin 100000) (f : Fin 64) :
    val_main_v3 (F := Ideal) x0 (ix2 n f)
      = Cert.Sheaf.mean6 fun j => x0 (ix2 ⟨6 * n.val + j.val, by have := n.isLt; have := j.isLt; omega⟩ f) := by
  rw [val_main_v3_apply, val_main_v1_apply, val_main_v2_apply, val_main_cst_0_apply, val_main_cst_apply]
  simp only [Ideal.hostDivf_def, Ideal.ofBits_def, Ideal.ofBits_zero_f32, zero_add]
  unfold Cert.Sheaf.mean6
  refine congrArg (Ideal.div · _) (Finset.sum_congr rfl fun k _ => ?_)
  rw [val_main_v0_apply]
  -- entry `(n, k, f)` of the `[100000, 6, 64]` view is entry `(6 n + k, f)` of the argument
  exact congrArg x0 (funext fun a => Fin.ext (by
    match a with
    | ⟨0, _⟩ => show ((n.val * 6 + k.val) * 64 + f.val) / 64 = 6 * n.val + k.val; omega
    | ⟨1, _⟩ => show ((n.val * 6 + k.val) * 64 + f.val) % 64 = f.val; omega))

/-- Row `n` of the pooled hyperedge features is the mean of the hyperedge's six stalk copies. -/
theorem mean_e (x1 : (⟨S120000x64, .f32⟩ : BufTy).Contents (Elt Ideal)) (n : Fin 20000) (f : Fin 64) :
    val_main_v7 (F := Ideal) x1 (ix2 n f)
      = Cert.Sheaf.mean6 fun j => x1 (ix2 ⟨6 * n.val + j.val, by have := n.isLt; have := j.isLt; omega⟩ f) := by
  rw [val_main_v7_apply, val_main_v5_apply, val_main_v6_apply, val_main_cst_2_apply, val_main_cst_1_apply]
  simp only [Ideal.hostDivf_def, Ideal.ofBits_def, Ideal.ofBits_zero_f32, zero_add]
  unfold Cert.Sheaf.mean6
  refine congrArg (Ideal.div · _) (Finset.sum_congr rfl fun k _ => ?_)
  rw [val_main_v4_apply]
  -- entry `(n, k, f)` of the `[20000, 6, 64]` view is entry `(6 n + k, f)` of the argument
  exact congrArg x1 (funext fun a => Fin.ext (by
    match a with
    | ⟨0, _⟩ => show ((n.val * 6 + k.val) * 64 + f.val) / 64 = 6 * n.val + k.val; omega
    | ⟨1, _⟩ => show ((n.val * 6 + k.val) * 64 + f.val) % 64 = f.val; omega))

/-- Entry `(i, j)` of incidence `n`'s restriction map, from the gathered node and hyperedge feature rows. -/
theorem attrs_apply (x0 : (⟨S600000x64, .f32⟩ : BufTy).Contents (Elt Ideal)) (x1 : (⟨S120000x64, .f32⟩ : BufTy).Contents (Elt Ideal))
    (x2 : (⟨S128x30, .f32⟩ : BufTy).Contents (Elt Ideal)) (x3 : (⟨S30, .f32⟩ : BufTy).Contents (Elt Ideal))
    (x4 : (⟨S2x1000000, .i32⟩ : BufTy).Contents (Elt Ideal)) (n : Fin 1000000) (i j : Fin 6) :
    val_main_v54 (F := Ideal) x0 x1 x2 x3 x4 (ix3 n i j)
      = Cert.Sheaf.sheafOut (fun f => val_main_v18 (F := Ideal) x0 x4 (ix2 n f)) (fun f => val_main_v25 (F := Ideal) x1 x4 (ix2 n f))
          (fun c k => x2 (ix2 c k)) (fun k => x3 (ix1 k)) i j := by
  rw [attrs_of_act]
  unfold Cert.Sheaf.sheafOut
  exact congrArg (fun z => Cert.Sheaf.mapEntry z i j) (funext fun k => act_apply x0 x1 x2 x3 x4 n k)

/-- The block-row coordinate of entry `(i, j)` of incidence `n`'s map. -/
theorem idx0_apply (x4 : (⟨S2x1000000, .i32⟩ : BufTy).Contents (Elt Ideal)) (n : Fin 1000000) (i j : Fin 6) :
    val_main_v68 (F := Ideal) x4 (ix2 n ⟨6 * i.val + j.val, by have := i.isLt; have := j.isLt; omega⟩)
      = Cert.Sheaf.idxEntry (x4 (ix2 0 n)) i.val := by
  rw [val_main_v68_apply, val_main_v66_apply, val_main_v64_apply, val_main_v63_apply, val_main_c_9_apply,
    val_main_v62_apply, val_main_v9_apply, val_main_v8_apply, val_main_v67_apply, val_main_v65_apply,
    val_main_v58_apply, val_main_v57_apply, val_main_v56_apply]
  unfold Cert.Sheaf.idxEntry
  have hi := i.isLt
  have hj := j.isLt
  refine congrArg₂ (· + ·) (congrArg (6#32 * ·) (congrArg x4 ?_)) (congrArg (BitVec.ofNat 32) ?_)
  · -- the row's node number: row `0` of the index pairs at column `n`
    exact funext fun a => Fin.ext (by
      match a with
      | ⟨0, _⟩ => rfl
      | ⟨1, _⟩ => show n.val % 1000000 = n.val; omega)
  · -- the offset table repeats each of `0 … 5` six times: position `6 i + j` holds `i`
    show (6 * i.val + j.val) / 6 = i.val; omega

/-- The block-column coordinate of entry `(i, j)` of incidence `n`'s map. -/
theorem idx1_apply (x4 : (⟨S2x1000000, .i32⟩ : BufTy).Contents (Elt Ideal)) (n : Fin 1000000) (i j : Fin 6) :
    val_main_v76 (F := Ideal) x4 (ix2 n ⟨6 * i.val + j.val, by have := i.isLt; have := j.isLt; omega⟩)
      = Cert.Sheaf.idxEntry (x4 (ix2 1 n)) j.val := by
  rw [val_main_v76_apply, val_main_v74_apply, val_main_v72_apply, val_main_v71_apply, val_main_c_10_apply,
    val_main_v70_apply, val_main_v11_apply, val_main_v10_apply, val_main_v75_apply, val_main_v73_apply,
    val_main_v61_apply, val_main_v60_apply, val_main_v59_apply, val_main_v56_apply]
  unfold Cert.Sheaf.idxEntry
  have hi := i.isLt
  have hj := j.isLt
  refine congrArg₂ (· + ·) (congrArg (6#32 * ·) (congrArg x4 ?_)) (congrArg (BitVec.ofNat 32) ?_)
  · -- the row's hyperedge number: row `1` of the index pairs at column `n`
    exact funext fun a => Fin.ext (by
      match a with
      | ⟨0, _⟩ => rfl
      | ⟨1, _⟩ => show n.val % 1000000 = n.val; omega)
  · -- the offset table runs through `0 … 5` six times: position `6 i + j` holds `j`
    show 0 * 6 + (6 * i.val + j.val) % 6 = j.val; omega

end Cert.ReferenceIdeal.RefValue

end
-- ==== Proof.HostMid.lean ====
/-
  The host operations between the pooling regions and the sheaf region: the two index rows cut out of the index array,
  each pooled array gathered by its index row, and the four results padded with 448 zero rows to a multiple of 1024.

  The gather here fills a row with a fixed word when its index, after a negative index has been counted from the back,
  is outside the array; the reference's gather has no such fill. When every index addresses its array the fill never
  happens, and the padded arrays' first million rows are the reference's gathered rows and the index rows themselves.
-/
import proofs.«425693_j74509092651432_2_alg».proof.Proof.Gen.KernelIdeal.Frame
import proofs.«425693_j74509092651432_2_alg».proof.Proof.Gen.ReferenceIdeal.Read
import proofs.«425693_j74509092651432_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.ReduceAll
import Idealize.ShloMosaic.Lib.KernelVsHost

set_option maxRecDepth 16384

noncomputable section

namespace Cert.KernelIdeal.HostMid

open Cert.KernelIdeal Cert.KernelIdeal.Gen
open Idealize.ShloMosaic Idealize.ShloMosaic.ValueIdx Idealize.ShloMosaic.TcCoe Idealize.SL.Sem Idealize.ShloMosaic.StableHlo

/-! ## An index counted from the back, and its bound tests -/

/-- An index counted from the back of an axis of extent `K` when negative. -/
def wrapIdx (K r : BitVec 32) : BitVec 32 := Scalar.select (IntOp.cmpi .slt r 0#32) (IntOp.addi r K) r

/-- An index that addresses an axis of extent `N` lies, once a negative one has been counted from the back, in
    `[0, N - 1]`: both bound tests hold. A negative `r ≥ -N` gives `r + N` with no wrap-around, since `N` is small. -/
theorem wrapIdx_inBounds (N : ℕ) (hN : N < 2 ^ 30) (K K1 : BitVec 32) (hK : K.toInt = N) (hK1 : K1.toInt = (N : ℤ) - 1)
    (r : BitVec 32) (h : Cert.Sheaf.InRange N r) :
    IntOp.andi (IntOp.cmpi .sge (wrapIdx K r) 0#32) (IntOp.cmpi .sle (wrapIdx K r) K1) = 1#1 := by
  obtain ⟨hlo, hhi⟩ := h
  have h0 : (0#32 : BitVec 32).toInt = 0 := by decide
  refine IntOp.andi_eq_one.mpr ⟨IntOp.cmpi_sge.mpr ?_, IntOp.cmpi_sle.mpr ?_⟩ <;> rw [wrapIdx]
  all_goals
    rcases BitVec.eq_zero_or_eq_one (IntOp.cmpi .slt r 0#32) with hc | hc
    · have hnn : ¬ r.toInt < 0 := fun hlt => by
        have := IntOp.cmpi_slt.mpr (h0.symm ▸ hlt : r.toInt < (0#32 : BitVec 32).toInt)
        rw [hc] at this; exact absurd this (by decide)
      rw [hc, select_zero]; omega
    · have hneg : r.toInt < 0 := h0 ▸ IntOp.cmpi_slt.mp hc
      have hadd : (IntOp.addi r K).toInt = r.toInt + N := by
        show (r + K).toInt = _
        rw [BitVec.toInt_add, hK]
        have : (2:ℤ) ^ 30 = 1073741824 := by norm_num
        have hN' : (N : ℤ) < 1073741824 := by exact_mod_cast (show N < 1073741824 from by simpa using hN)
        simp only [Int.bmod]; norm_num; split_ifs <;> omega
      rw [hc, select_one, hadd]; omega

/-- An `and`-reduction from 1 over an array of ones is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- So a one-operand `and`-reduction from 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-- A broadcast reads its operand somewhere. -/
theorem broadcastInDim_exists {s t : Shape} {α : Type} (dims : Fin s.rank → Fin t.rank) (h : s.BroadcastsInDim t dims) (x : s.Idx → α)
    (j : t.Idx) : ∃ k, broadcastInDim t dims h x j = x k := ⟨_, rfl⟩

/-! ## The index rows, the index columns, the gathers with their fill -/

/-- Row 0 of the index array (the node of each incidence), as a vector. -/
abbrev row0 (x4 : S2x1000000.Idx → BitVec 32) : S1000000.Idx → BitVec 32 :=
  shapeCast S1000000 (extractStridedSlice S1x1000000 ![0, 0] x4 slices_S2x1000000_S1x1000000_0_0) shapeCasts_S1x1000000_S1000000

/-- Row 1 of the index array (the hyperedge of each incidence), as a vector. -/
abbrev row1 (x4 : S2x1000000.Idx → BitVec 32) : S1000000.Idx → BitVec 32 :=
  shapeCast S1000000 (extractStridedSlice S1x1000000 ![1, 0] x4 slices_S2x1000000_S1x1000000_1_0) shapeCasts_S1x1000000_S1000000

/-- Entry `k` of row 0 is the index array at `(0, k)`: the cut starts at row 0 and the reshape drops the unit axis. -/
theorem row0_apply (x4 : S2x1000000.Idx → BitVec 32) (k : Fin 1000000) : row0 x4 (ix1 k) = x4 (ix2 0 k) := by
  refine (shapeCast_apply _ shapeCasts_S1x1000000_S1000000 (ix1 k) (ix2 (0 : Fin 1) k) ?_).trans ?_
  · rw [Shape.rowMajor_val_two, Shape.rowMajor_val_one]; show 0 * 1000000 + k.val = k.val; omega
  · exact slice2_axis0_apply 0 x4 slices_S2x1000000_S1x1000000_0_0 (0 : Fin 1) k (0 : Fin 2) rfl

/-- Entry `k` of row 1 is the index array at `(1, k)`. -/
theorem row1_apply (x4 : S2x1000000.Idx → BitVec 32) (k : Fin 1000000) : row1 x4 (ix1 k) = x4 (ix2 1 k) := by
  refine (shapeCast_apply _ shapeCasts_S1x1000000_S1000000 (ix1 k) (ix2 (0 : Fin 1) k) ?_).trans ?_
  · rw [Shape.rowMajor_val_two, Shape.rowMajor_val_one]; show 0 * 1000000 + k.val = k.val; omega
  · exact slice2_axis0_apply 1 x4 slices_S2x1000000_S1x1000000_1_0 (0 : Fin 1) k (1 : Fin 2) rfl

/-- The index column of a gather: each entry of `r`, a negative one counted from the back of an axis of extent `K`. -/
def takeIdx (K : BitVec 32) (r : S1000000.Idx → BitVec 32) : S1000000x1.Idx → BitVec 32 :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 K))) r)

/-- Which rows of the index column lie in `[0, K1]`. -/
def takeMask (K K1 : BitVec 32) (r : S1000000.Idx → BitVec 32) : S1000000.Idx → BitVec 1 :=
  Host.reduce IntOp.andi
    (andi (cmpi .sge (takeIdx K r) (broadcastInDim S1000000x1 ![] bcast_S_S1000000x1 (constantI S_ 32 0#32)))
      (cmpi .sle (takeIdx K r) (broadcastInDim S1000000x1 ![0, 1] bcast_S1x1_S1000000x1_0_1 (broadcastInDim S1x1 ![1] bcast_S1_S1x1_1 (constantI S1 32 K1)))))
    (constantI S_ 1 1#1) reducesTo_S1000000x1_S1000000_d1 h_S_

/-- The rows of `x` gathered by the index vector `r`; a row whose index is outside the array is filled with a fixed word. -/
def takeRows {S : Shape} (d : GatherDims S S1000000x1 S1000000x64) (K K1 : BitVec 32) (x : S.Idx → EReal) (r : S1000000.Idx → BitVec 32) :
    S1000000x64.Idx → EReal :=
  select (broadcastInDim S1000000x64 ![0] bcast_S1000000_S1000000x64_0 (takeMask K K1 r))
    (Host.gather d x (takeIdx K r))
    (broadcastInDim S1000000x64 ![] bcast_S_S1000000x64 (constant (F := Ideal) S_ .f32 0x7FC00000#32))

/-- Every entry of the index column is a wrapped entry of `r`. -/
theorem takeIdx_exists (K : BitVec 32) (r : S1000000.Idx → BitVec 32) (i : S1000000x1.Idx) :
    ∃ k, takeIdx K r i = wrapIdx K (r k) := by
  obtain ⟨k, hk⟩ := broadcastInDim_exists ![0] bcast_S1000000_S1000000x1_0
    (select (cmpi .slt r (broadcastInDim S1000000 ![] bcast_S_S1000000 (constantI S_ 32 0#32)))
      (addi r (broadcastInDim S1000000 ![] bcast_S_S1000000 (constantI S_ 32 K))) r) i
  exact ⟨k, hk.trans rfl⟩

/-- When every entry of `r` addresses an axis of extent `N`, no row is filled: the rows are the gathered ones. -/
theorem takeRows_eq_gather {S : Shape} (d : GatherDims S S1000000x1 S1000000x64) (N : ℕ) (hN : N < 2 ^ 30) (K K1 : BitVec 32)
    (hK : K.toInt = N) (hK1 : K1.toInt = (N : ℤ) - 1) (x : S.Idx → EReal) (r : S1000000.Idx → BitVec 32)
    (hr : ∀ k, Cert.Sheaf.InRange N (r k)) (j : S1000000x64.Idx) :
    takeRows d K K1 x r j = Host.gather d x (takeIdx K r) j := by
  have hmask : ∀ n, takeMask K K1 r n = 1#1 := fun n => by
    unfold takeMask
    refine reduce_andi_ones _ _ _ _ (fun i => ?_) rfl n
    obtain ⟨k, hk⟩ := takeIdx_exists K r i
    show IntOp.andi (IntOp.cmpi .sge (takeIdx K r i) 0#32) (IntOp.cmpi .sle (takeIdx K r i) K1) = 1#1
    rw [hk]
    exact wrapIdx_inBounds N hN K K1 hK hK1 (r k) (hr k)
  obtain ⟨n, hn⟩ := broadcastInDim_exists ![0] bcast_S1000000_S1000000x64_0 (takeMask K K1 r) j
  unfold takeRows
  rw [select_apply, hn, hmask n, select_one]

/-! ## The index columns and the gathers are the reference's -/

/-- The first index column is the reference's. -/
theorem takeIdx_row0_eq (x4 : S2x1000000.Idx → BitVec 32) :
    takeIdx 100000#32 (row0 x4)
      = Cert.ReferenceIdeal.Read.val_main_v17 (F := Ideal) x4 := by
  unfold takeIdx Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v9 Cert.ReferenceIdeal.Read.val_main_v8 Cert.ReferenceIdeal.Read.val_main_c
    Cert.ReferenceIdeal.Read.val_main_c_3
  with_reducible rfl

/-- The second index column is the reference's. -/
theorem takeIdx_row1_eq (x4 : S2x1000000.Idx → BitVec 32) :
    takeIdx 20000#32 (row1 x4)
      = Cert.ReferenceIdeal.Read.val_main_v24 (F := Ideal) x4 := by
  unfold takeIdx Cert.ReferenceIdeal.Read.val_main_v24 Cert.ReferenceIdeal.Read.val_main_v23 Cert.ReferenceIdeal.Read.val_main_v22
    Cert.ReferenceIdeal.Read.val_main_v21 Cert.ReferenceIdeal.Read.val_main_v20 Cert.ReferenceIdeal.Read.val_main_v19
    Cert.ReferenceIdeal.Read.val_main_v11 Cert.ReferenceIdeal.Read.val_main_v10 Cert.ReferenceIdeal.Read.val_main_c_4
    Cert.ReferenceIdeal.Read.val_main_c_5
  with_reducible rfl

/-- The two programs' gather records are the same record. -/
theorem gatherDims_node : (gather_S100000x64_S1000000x1_S1000000x64_1_0_n_n_0_1_164 : GatherDims S100000x64 S1000000x1 S1000000x64)
    = Cert.ReferenceIdeal.gather_S100000x64_S1000000x1_S1000000x64_1_0_n_n_0_1_164 := rfl
theorem gatherDims_edge : (gather_S20000x64_S1000000x1_S1000000x64_1_0_n_n_0_1_164 : GatherDims S20000x64 S1000000x1 S1000000x64)
    = Cert.ReferenceIdeal.gather_S20000x64_S1000000x1_S1000000x64_1_0_n_n_0_1_164 := rfl

/-- The gathered node rows are the reference's. -/
theorem gather_node_eq (x0 : (⟨Cert.ReferenceIdeal.S600000x64, .f32⟩ : BufTy).Contents (Elt Ideal)) (x4 : S2x1000000.Idx → BitVec 32) :
    Host.gather gather_S100000x64_S1000000x1_S1000000x64_1_0_n_n_0_1_164 (Cert.ReferenceIdeal.Read.val_main_v3 (F := Ideal) x0)
        (takeIdx 100000#32 (row0 x4))
      = Cert.ReferenceIdeal.Read.val_main_v18 (F := Ideal) x0 x4 := by
  rw [takeIdx_row0_eq, gatherDims_node]; rfl

/-- The gathered hyperedge rows are the reference's. -/
theorem gather_edge_eq (x1 : (⟨Cert.ReferenceIdeal.S120000x64, .f32⟩ : BufTy).Contents (Elt Ideal)) (x4 : S2x1000000.Idx → BitVec 32) :
    Host.gather gather_S20000x64_S1000000x1_S1000000x64_1_0_n_n_0_1_164 (Cert.ReferenceIdeal.Read.val_main_v7 (F := Ideal) x1)
        (takeIdx 20000#32 (row1 x4))
      = Cert.ReferenceIdeal.Read.val_main_v25 (F := Ideal) x1 x4 := by
  rw [takeIdx_row1_eq, gatherDims_edge]; rfl

/-! ## A padded array below the padding -/

/-- Row `n` below a million of the padded matrix is the matrix's row `n`: the 448 added rows are at the high end. -/
theorem pad_rows_apply (x : S1000000x64.Idx → EReal) (v : S_.Idx → EReal) (n : Fin 1000448) (hn : n.val < 1000000) (f : Fin 64) :
    pad S1000448x64 ![0, 0] ![448, 0] ![0, 0] x v pads_S1000000x64_S1000448x64_04480_000 h_S_ (ix2 n f) = x (ix2 ⟨n.val, hn⟩ f) :=
  pad_apply_of_inside _ _ _ x v _ _ (ix2 n f) (ix2 ⟨n.val, hn⟩ f) (fun a => by
    match a with
    | ⟨0, _⟩ => show n.val = 0 + n.val * (0 + 1); omega
    | ⟨1, _⟩ => show f.val = 0 + f.val * (0 + 1); omega)

/-- Entry `n` below a million of the padded vector is the vector's entry `n`. -/
theorem pad_vec_apply (x : S1000000.Idx → BitVec 32) (v : S_.Idx → BitVec 32) (n : Fin 1000448) (hn : n.val < 1000000) :
    pad S1000448 ![0] ![448] ![0] x v pads_S1000000_S1000448_04480 h_S_ (ix1 n) = x (ix1 ⟨n.val, hn⟩) :=
  pad_apply_of_inside _ _ _ x v _ _ (ix1 n) (ix1 ⟨n.val, hn⟩) (fun a => by
    match a with
    | ⟨0, _⟩ => show n.val = 0 + n.val * (0 + 1); omega)

/-! ## The buffers a stretch of host operations leaves alone

Each stretch writes the results of its own operations and nothing else: a buffer that is none of them holds after the
stretch what it held before. -/

local macro "results_listed" ops:ident : tactic => `(tactic| (
  simp only [$ops:ident, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)))

theorem keep2_0 (V : Valuation τ sig (Elt Ideal)) {r : Ref sig .tc} (hr : r ∉ [main_v2, main_v3, main_v4, main_v5]) :
    StableHlo.after (hostOps2 (F := Ideal)) V (Proc.devRef .tc r) = V (Proc.devRef .tc r) :=
  StableHlo.after_of_writes_sub _ V (by results_listed hostOps2) hr

theorem keep2_1 (V : Valuation τ sig (Elt Ideal)) {r : Ref sig .tc}
    (hr : r ∉ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v6]) :
    StableHlo.after (hostOps2_1 (F := Ideal)) V (Proc.devRef .tc r) = V (Proc.devRef .tc r) :=
  StableHlo.after_of_writes_sub _ V (by results_listed hostOps2_1) hr

theorem keep2_2 (V : Valuation τ sig (Elt Ideal)) {r : Ref sig .tc}
    (hr : r ∉ [main_call1_c, main_call1_v0, main_call1_v1, main_call1_c_0, main_call1_v2, main_call1_v3, main_call1_v4,
      main_call1_v5, main_call1_c_1, main_call1_c_2, main_call1_v6, main_call1_v7, main_call1_v8, main_call1_v9,
      main_call1_v10, main_call1_v11, main_call1_c_3, main_call1_v12, main_call1_v13, main_call1_v14, main_call1_cst,
      main_call1_v15, main_v7]) :
    StableHlo.after (hostOps2_2 (F := Ideal)) V (Proc.devRef .tc r) = V (Proc.devRef .tc r) :=
  StableHlo.after_of_writes_sub _ V (by results_listed hostOps2_2) hr

theorem keep2_3 (V : Valuation τ sig (Elt Ideal)) {r : Ref sig .tc} (hr : r ∉ [main_c]) :
    StableHlo.after (hostOps2_3 (F := Ideal)) V (Proc.devRef .tc r) = V (Proc.devRef .tc r) :=
  StableHlo.after_of_writes_sub _ V (by results_listed hostOps2_3) hr

theorem keep2_4 (V : Valuation τ sig (Elt Ideal)) {r : Ref sig .tc} (hr : r ∉ [main_call2_v0, main_v8]) :
    StableHlo.after (hostOps2_4 (F := Ideal)) V (Proc.devRef .tc r) = V (Proc.devRef .tc r) :=
  StableHlo.after_of_writes_sub _ V (by results_listed hostOps2_4) hr

theorem keep2_5 (V : Valuation τ sig (Elt Ideal)) {r : Ref sig .tc} (hr : r ∉ [main_c_0]) :
    StableHlo.after (hostOps2_5 (F := Ideal)) V (Proc.devRef .tc r) = V (Proc.devRef .tc r) :=
  StableHlo.after_of_writes_sub _ V (by results_listed hostOps2_5) hr

theorem keep2_6 (V : Valuation τ sig (Elt Ideal)) {r : Ref sig .tc} (hr : r ∉ [main_call3_v0, main_v9]) :
    StableHlo.after (hostOps2_6 (F := Ideal)) V (Proc.devRef .tc r) = V (Proc.devRef .tc r) :=
  StableHlo.after_of_writes_sub _ V (by results_listed hostOps2_6) hr

theorem keep2_7 (V : Valuation τ sig (Elt Ideal)) {r : Ref sig .tc} (hr : r ∉ [main_c_1]) :
    StableHlo.after (hostOps2_7 (F := Ideal)) V (Proc.devRef .tc r) = V (Proc.devRef .tc r) :=
  StableHlo.after_of_writes_sub _ V (by results_listed hostOps2_7) hr

theorem keep2_8 (V : Valuation τ sig (Elt Ideal)) {r : Ref sig .tc} (hr : r ∉ [main_call4_v0, main_v10]) :
    StableHlo.after (hostOps2_8 (F := Ideal)) V (Proc.devRef .tc r) = V (Proc.devRef .tc r) :=
  StableHlo.after_of_writes_sub _ V (by results_listed hostOps2_8) hr

theorem keep2_9 (V : Valuation τ sig (Elt Ideal)) {r : Ref sig .tc} (hr : r ∉ [main_c_2]) :
    StableHlo.after (hostOps2_9 (F := Ideal)) V (Proc.devRef .tc r) = V (Proc.devRef .tc r) :=
  StableHlo.after_of_writes_sub _ V (by results_listed hostOps2_9) hr

theorem keep2_10 (V : Valuation τ sig (Elt Ideal)) {r : Ref sig .tc} (hr : r ∉ [main_call5_v0, main_v11]) :
    StableHlo.after (hostOps2_10 (F := Ideal)) V (Proc.devRef .tc r) = V (Proc.devRef .tc r) :=
  StableHlo.after_of_writes_sub _ V (by results_listed hostOps2_10) hr

/-! ## What each writing stretch leaves in its result -/

/-- The cuts and reshapes leave the two index rows in `main_v3` and `main_v5`. -/
theorem after2_0_main_v3 (V : Valuation τ sig (Elt Ideal)) :
    (StableHlo.after (hostOps2 (F := Ideal)) V (Proc.devRef .tc main_v3) : S1000000.Idx → BitVec 32)
      = row0 (V (Proc.devRef .tc main_arg4) : S2x1000000.Idx → BitVec 32) := by
  after_results; rfl

theorem after2_0_main_v5 (V : Valuation τ sig (Elt Ideal)) :
    (StableHlo.after (hostOps2 (F := Ideal)) V (Proc.devRef .tc main_v5) : S1000000.Idx → BitVec 32)
      = row1 (V (Proc.devRef .tc main_arg4) : S2x1000000.Idx → BitVec 32) := by
  after_results; rfl

/-- Contents moved to a buffer's own type and back are the contents. -/
theorem ofBuf_toBuf {T : BufTy} (x : StableHlo.TRef sig T) (v : T.Contents (Elt Ideal)) : x.ofBuf (x.toBuf v) = v := by
  obtain ⟨r, h, _, _⟩ := x; subst h; rfl

/-- At a literal buffer the move is the identity. -/
theorem ofBuf_main_v0 (v : S100000x64.Idx → EReal) : (StableHlo.TRef.of main_v0 : StableHlo.TRef sig ⟨S100000x64, .f32⟩).ofBuf (Val := Elt Ideal) v = v := rfl
theorem ofBuf_main_v1 (v : S20000x64.Idx → EReal) : (StableHlo.TRef.of main_v1 : StableHlo.TRef sig ⟨S20000x64, .f32⟩).ofBuf (Val := Elt Ideal) v = v := rfl
theorem ofBuf_main_v3 (v : S1000000.Idx → BitVec 32) : (StableHlo.TRef.of main_v3 : StableHlo.TRef sig ⟨S1000000, .i32⟩).ofBuf (Val := Elt Ideal) v = v := rfl
theorem ofBuf_main_v5 (v : S1000000.Idx → BitVec 32) : (StableHlo.TRef.of main_v5 : StableHlo.TRef sig ⟨S1000000, .i32⟩).ofBuf (Val := Elt Ideal) v = v := rfl
theorem toBuf_main_v6 (v : S1000000x64.Idx → EReal) : (StableHlo.TRef.of main_v6 : StableHlo.TRef sig ⟨S1000000x64, .f32⟩).toBuf (Val := Elt Ideal) v = v := rfl
theorem toBuf_main_v7 (v : S1000000x64.Idx → EReal) : (StableHlo.TRef.of main_v7 : StableHlo.TRef sig ⟨S1000000x64, .f32⟩).toBuf (Val := Elt Ideal) v = v := rfl

/-- The first gather's stretch leaves in `main_v6` the rows of `main_v0` taken by `main_v3`. -/
theorem after2_1_main_v6 (V : Valuation τ sig (Elt Ideal)) :
    (StableHlo.after (hostOps2_1 (F := Ideal)) V (Proc.devRef .tc main_v6) : S1000000x64.Idx → EReal)
      = takeRows gather_S100000x64_S1000000x1_S1000000x64_1_0_n_n_0_1_164 100000#32 99999#32
          (V (Proc.devRef .tc main_v0) : S100000x64.Idx → EReal) (V (Proc.devRef .tc main_v3) : S1000000.Idx → BitVec 32) := by
  have e : StableHlo.after (hostOps2_1 (F := Ideal)) V (Proc.devRef .tc main_v6)
      = (StableHlo.TRef.of main_v6 : StableHlo.TRef sig ⟨S1000000x64, .f32⟩).toBuf
          (takeRows gather_S100000x64_S1000000x1_S1000000x64_1_0_n_n_0_1_164 100000#32 99999#32
            ((StableHlo.TRef.of main_v0 : StableHlo.TRef sig ⟨S100000x64, .f32⟩).ofBuf (V (Proc.devRef .tc main_v0)))
            ((StableHlo.TRef.of main_v3 : StableHlo.TRef sig ⟨S1000000, .i32⟩).ofBuf (V (Proc.devRef .tc main_v3)))) := by
    after_results_simp
    simp only [ofBuf_toBuf]
    unfold takeRows takeMask takeIdx
    with_reducible rfl
  refine e.trans ((toBuf_main_v6 _).trans ?_)
  rw [ofBuf_main_v0, ofBuf_main_v3]

/-- The second gather's stretch leaves in `main_v7` the rows of `main_v1` taken by `main_v5`. -/
theorem after2_2_main_v7 (V : Valuation τ sig (Elt Ideal)) :
    (StableHlo.after (hostOps2_2 (F := Ideal)) V (Proc.devRef .tc main_v7) : S1000000x64.Idx → EReal)
      = takeRows gather_S20000x64_S1000000x1_S1000000x64_1_0_n_n_0_1_164 20000#32 19999#32
          (V (Proc.devRef .tc main_v1) : S20000x64.Idx → EReal) (V (Proc.devRef .tc main_v5) : S1000000.Idx → BitVec 32) := by
  have e : StableHlo.after (hostOps2_2 (F := Ideal)) V (Proc.devRef .tc main_v7)
      = (StableHlo.TRef.of main_v7 : StableHlo.TRef sig ⟨S1000000x64, .f32⟩).toBuf
          (takeRows gather_S20000x64_S1000000x1_S1000000x64_1_0_n_n_0_1_164 20000#32 19999#32
            ((StableHlo.TRef.of main_v1 : StableHlo.TRef sig ⟨S20000x64, .f32⟩).ofBuf (V (Proc.devRef .tc main_v1)))
            ((StableHlo.TRef.of main_v5 : StableHlo.TRef sig ⟨S1000000, .i32⟩).ofBuf (V (Proc.devRef .tc main_v5)))) := by
    after_results_simp
    simp only [ofBuf_toBuf]
    unfold takeRows takeMask takeIdx
    with_reducible rfl
  refine e.trans ((toBuf_main_v7 _).trans ?_)
  rw [ofBuf_main_v1, ofBuf_main_v5]

/-- The four paddings. -/
theorem after2_4_main_v8 (V : Valuation τ sig (Elt Ideal)) :
    (StableHlo.after (hostOps2_4 (F := Ideal)) V (Proc.devRef .tc main_v8) : S1000448x64.Idx → EReal)
      = pad S1000448x64 ![0, 0] ![448, 0] ![0, 0] (V (Proc.devRef .tc main_v6) : S1000000x64.Idx → EReal)
          (sitofp (F := Ideal) .f32 (V (Proc.devRef .tc main_c) : S_.Idx → BitVec 32)) pads_S1000000x64_S1000448x64_04480_000 h_S_ := by
  after_results; rfl

theorem after2_6_main_v9 (V : Valuation τ sig (Elt Ideal)) :
    (StableHlo.after (hostOps2_6 (F := Ideal)) V (Proc.devRef .tc main_v9) : S1000448x64.Idx → EReal)
      = pad S1000448x64 ![0, 0] ![448, 0] ![0, 0] (V (Proc.devRef .tc main_v7) : S1000000x64.Idx → EReal)
          (sitofp (F := Ideal) .f32 (V (Proc.devRef .tc main_c_0) : S_.Idx → BitVec 32)) pads_S1000000x64_S1000448x64_04480_000 h_S_ := by
  after_results; rfl

theorem after2_8_main_v10 (V : Valuation τ sig (Elt Ideal)) :
    (StableHlo.after (hostOps2_8 (F := Ideal)) V (Proc.devRef .tc main_v10) : S1000448.Idx → BitVec 32)
      = pad S1000448 ![0] ![448] ![0] (V (Proc.devRef .tc main_v3) : S1000000.Idx → BitVec 32)
          (V (Proc.devRef .tc main_c_1) : S_.Idx → BitVec 32) pads_S1000000_S1000448_04480 h_S_ := by
  after_results; rfl

theorem after2_10_main_v11 (V : Valuation τ sig (Elt Ideal)) :
    (StableHlo.after (hostOps2_10 (F := Ideal)) V (Proc.devRef .tc main_v11) : S1000448.Idx → BitVec 32)
      = pad S1000448 ![0] ![448] ![0] (V (Proc.devRef .tc main_v5) : S1000000.Idx → BitVec 32)
          (V (Proc.devRef .tc main_c_2) : S_.Idx → BitVec 32) pads_S1000000_S1000448_04480 h_S_ := by
  after_results; rfl

/-! ## The six facts at the sheaf region's entry -/

variable (m : (ℓ : Loc nD τ sig) → Buf (Elt Ideal) ℓ) (ρ : Dev nD → PrngReg)

/-- The first index row after the first stretch, from the launch contents of the index array. -/
theorem W3_main_v3 (c : Dev nD) (h4 : V2 m ρ c main_arg4 = m ((c : Thread nD τ).loc main_arg4)) :
    (W3 m ρ c (Proc.devRef .tc main_v3) : S1000000.Idx → BitVec 32) = row0 (m ((c : Thread nD τ).loc main_arg4)) :=
  (after2_0_main_v3 (W2 m ρ c)).trans (congrArg row0 h4)

theorem W3_main_v5 (c : Dev nD) (h4 : V2 m ρ c main_arg4 = m ((c : Thread nD τ).loc main_arg4)) :
    (W3 m ρ c (Proc.devRef .tc main_v5) : S1000000.Idx → BitVec 32) = row1 (m ((c : Thread nD τ).loc main_arg4)) :=
  (after2_0_main_v5 (W2 m ρ c)).trans (congrArg row1 h4)

/-- The padded gathered node features: row `n` below a million is the reference's gathered row. -/
theorem V13_main_v8 (c : Dev nD)
    (hx : (V2 m ρ c main_v0 : S100000x64.Idx → EReal) = Cert.ReferenceIdeal.Read.val_main_v3 (F := Ideal) (m ((c : Thread nD τ).loc main_arg0)))
    (h4 : V2 m ρ c main_arg4 = m ((c : Thread nD τ).loc main_arg4))
    (hrow : ∀ n : Fin 1000000, Cert.Sheaf.InRange 100000 ((m ((c : Thread nD τ).loc main_arg4) : S2x1000000.Idx → BitVec 32) (ix2 0 n)))
    (n : Fin 1000448) (hn : n.val < 1000000) (f : Fin 64) :
    (V13 m ρ c main_v8 : S1000448x64.Idx → EReal) (ix2 n f)
      = Cert.ReferenceIdeal.Read.val_main_v18 (F := Ideal) (m ((c : Thread nD τ).loc main_arg0)) (m ((c : Thread nD τ).loc main_arg4)) (ix2 ⟨n.val, hn⟩ f) := by
  -- the stretches after the padding leave `main_v8` alone
  have e1 : (W13 m ρ c (Proc.devRef .tc main_v8) : S1000448x64.Idx → EReal) = W7 m ρ c (Proc.devRef .tc main_v8) :=
    calc W13 m ρ c (Proc.devRef .tc main_v8)
      _ = W12 m ρ c (Proc.devRef .tc main_v8) := keep2_10 _ (by decide)
      _ = W11 m ρ c (Proc.devRef .tc main_v8) := keep2_9 _ (by decide)
      _ = W10 m ρ c (Proc.devRef .tc main_v8) := keep2_8 _ (by decide)
      _ = W9 m ρ c (Proc.devRef .tc main_v8) := keep2_7 _ (by decide)
      _ = W8 m ρ c (Proc.devRef .tc main_v8) := keep2_6 _ (by decide)
      _ = W7 m ρ c (Proc.devRef .tc main_v8) := keep2_5 _ (by decide)
  -- the stretches between the gather and the padding leave `main_v6` alone
  have e3 : (W6 m ρ c (Proc.devRef .tc main_v6) : S1000000x64.Idx → EReal) = W4 m ρ c (Proc.devRef .tc main_v6) :=
    (keep2_3 _ (by decide)).trans (keep2_2 _ (by decide))
  -- the gather's operand is the pooled array, its index row the first row of the index array
  have e5 : (W3 m ρ c (Proc.devRef .tc main_v0) : S100000x64.Idx → EReal)
      = Cert.ReferenceIdeal.Read.val_main_v3 (F := Ideal) (m ((c : Thread nD τ).loc main_arg0)) :=
    (keep2_0 (W2 m ρ c) (by decide)).trans hx
  have hr : ∀ k, Cert.Sheaf.InRange 100000 (row0 (m ((c : Thread nD τ).loc main_arg4)) k) := fun k => by
    obtain ⟨a, rfl⟩ : ∃ a : Fin 1000000, k = ix1 a := ⟨k 0, eq_ix1 k⟩
    rw [row0_apply]; exact hrow a
  show (W13 m ρ c (Proc.devRef .tc main_v8) : S1000448x64.Idx → EReal) (ix2 n f) = _
  rw [e1, show (W7 m ρ c (Proc.devRef .tc main_v8) : S1000448x64.Idx → EReal) = _ from after2_4_main_v8 (W6 m ρ c),
    pad_rows_apply, e3, show (W4 m ρ c (Proc.devRef .tc main_v6) : S1000000x64.Idx → EReal) = _ from after2_1_main_v6 (W3 m ρ c),
    e5, W3_main_v3 m ρ c h4,
    takeRows_eq_gather _ 100000 (by norm_num) 100000#32 99999#32 (by decide) (by decide) _ _ hr, gather_node_eq]

/-- The padded gathered hyperedge features: row `n` below a million is the reference's gathered row. -/
theorem V13_main_v9 (c : Dev nD)
    (he : (V2 m ρ c main_v1 : S20000x64.Idx → EReal) = Cert.ReferenceIdeal.Read.val_main_v7 (F := Ideal) (m ((c : Thread nD τ).loc main_arg1)))
    (h4 : V2 m ρ c main_arg4 = m ((c : Thread nD τ).loc main_arg4))
    (hcol : ∀ n : Fin 1000000, Cert.Sheaf.InRange 20000 ((m ((c : Thread nD τ).loc main_arg4) : S2x1000000.Idx → BitVec 32) (ix2 1 n)))
    (n : Fin 1000448) (hn : n.val < 1000000) (f : Fin 64) :
    (V13 m ρ c main_v9 : S1000448x64.Idx → EReal) (ix2 n f)
      = Cert.ReferenceIdeal.Read.val_main_v25 (F := Ideal) (m ((c : Thread nD τ).loc main_arg1)) (m ((c : Thread nD τ).loc main_arg4)) (ix2 ⟨n.val, hn⟩ f) := by
  -- the stretches after the padding leave `main_v9` alone
  have e1 : (W13 m ρ c (Proc.devRef .tc main_v9) : S1000448x64.Idx → EReal) = W9 m ρ c (Proc.devRef .tc main_v9) :=
    calc W13 m ρ c (Proc.devRef .tc main_v9)
      _ = W12 m ρ c (Proc.devRef .tc main_v9) := keep2_10 _ (by decide)
      _ = W11 m ρ c (Proc.devRef .tc main_v9) := keep2_9 _ (by decide)
      _ = W10 m ρ c (Proc.devRef .tc main_v9) := keep2_8 _ (by decide)
      _ = W9 m ρ c (Proc.devRef .tc main_v9) := keep2_7 _ (by decide)
  -- the stretches between the gather and the padding leave `main_v7` alone
  have e3 : (W8 m ρ c (Proc.devRef .tc main_v7) : S1000000x64.Idx → EReal) = W5 m ρ c (Proc.devRef .tc main_v7) :=
    calc W8 m ρ c (Proc.devRef .tc main_v7)
      _ = W7 m ρ c (Proc.devRef .tc main_v7) := keep2_5 _ (by decide)
      _ = W6 m ρ c (Proc.devRef .tc main_v7) := keep2_4 _ (by decide)
      _ = W5 m ρ c (Proc.devRef .tc main_v7) := keep2_3 _ (by decide)
  -- the first gather's stretch leaves the second gather's operand and index row alone
  have e5 : (W4 m ρ c (Proc.devRef .tc main_v1) : S20000x64.Idx → EReal)
      = Cert.ReferenceIdeal.Read.val_main_v7 (F := Ideal) (m ((c : Thread nD τ).loc main_arg1)) :=
    ((keep2_1 (W3 m ρ c) (by decide)).trans (keep2_0 (W2 m ρ c) (by decide))).trans he
  have e6 : (W4 m ρ c (Proc.devRef .tc main_v5) : S1000000.Idx → BitVec 32) = row1 (m ((c : Thread nD τ).loc main_arg4)) :=
    (keep2_1 (W3 m ρ c) (by decide)).trans (W3_main_v5 m ρ c h4)
  have hr : ∀ k, Cert.Sheaf.InRange 20000 (row1 (m ((c : Thread nD τ).loc main_arg4)) k) := fun k => by
    obtain ⟨a, rfl⟩ : ∃ a : Fin 1000000, k = ix1 a := ⟨k 0, eq_ix1 k⟩
    rw [row1_apply]; exact hcol a
  show (W13 m ρ c (Proc.devRef .tc main_v9) : S1000448x64.Idx → EReal) (ix2 n f) = _
  rw [e1, show (W9 m ρ c (Proc.devRef .tc main_v9) : S1000448x64.Idx → EReal) = _ from after2_6_main_v9 (W8 m ρ c),
    pad_rows_apply, e3, show (W5 m ρ c (Proc.devRef .tc main_v7) : S1000000x64.Idx → EReal) = _ from after2_2_main_v7 (W4 m ρ c),
    e5, e6,
    takeRows_eq_gather _ 20000 (by norm_num) 20000#32 19999#32 (by decide) (by decide) _ _ hr, gather_edge_eq]

/-- The padded node-index row: entry `n` below a million is the index array's row 0 at `n`. -/
theorem V13_main_v10 (c : Dev nD) (h4 : V2 m ρ c main_arg4 = m ((c : Thread nD τ).loc main_arg4))
    (n : Fin 1000448) (hn : n.val < 1000000) :
    (V13 m ρ c main_v10 : S1000448.Idx → BitVec 32) (ix1 n)
      = (m ((c : Thread nD τ).loc main_arg4) : S2x1000000.Idx → BitVec 32) (ix2 0 ⟨n.val, hn⟩) := by
  have e1 : (W13 m ρ c (Proc.devRef .tc main_v10) : S1000448.Idx → BitVec 32) = W11 m ρ c (Proc.devRef .tc main_v10) :=
    (keep2_10 _ (by decide)).trans (keep2_9 _ (by decide))
  -- no stretch between the cut and this padding writes the first index row
  have e3 : (W10 m ρ c (Proc.devRef .tc main_v3) : S1000000.Idx → BitVec 32) = W3 m ρ c (Proc.devRef .tc main_v3) :=
    calc W10 m ρ c (Proc.devRef .tc main_v3)
      _ = W9 m ρ c (Proc.devRef .tc main_v3) := keep2_7 _ (by decide)
      _ = W8 m ρ c (Proc.devRef .tc main_v3) := keep2_6 _ (by decide)
      _ = W7 m ρ c (Proc.devRef .tc main_v3) := keep2_5 _ (by decide)
      _ = W6 m ρ c (Proc.devRef .tc main_v3) := keep2_4 _ (by decide)
      _ = W5 m ρ c (Proc.devRef .tc main_v3) := keep2_3 _ (by decide)
      _ = W4 m ρ c (Proc.devRef .tc main_v3) := keep2_2 _ (by decide)
      _ = W3 m ρ c (Proc.devRef .tc main_v3) := keep2_1 _ (by decide)
  show (W13 m ρ c (Proc.devRef .tc main_v10) : S1000448.Idx → BitVec 32) (ix1 n) = _
  rw [e1, show (W11 m ρ c (Proc.devRef .tc main_v10) : S1000448.Idx → BitVec 32) = _ from after2_8_main_v10 (W10 m ρ c),
    pad_vec_apply _ _ n hn, e3, W3_main_v3 m ρ c h4, row0_apply]

/-- The padded hyperedge-index row: entry `n` below a million is the index array's row 1 at `n`. -/
theorem V13_main_v11 (c : Dev nD) (h4 : V2 m ρ c main_arg4 = m ((c : Thread nD τ).loc main_arg4))
    (n : Fin 1000448) (hn : n.val < 1000000) :
    (V13 m ρ c main_v11 : S1000448.Idx → BitVec 32) (ix1 n)
      = (m ((c : Thread nD τ).loc main_arg4) : S2x1000000.Idx → BitVec 32) (ix2 1 ⟨n.val, hn⟩) := by
  -- no stretch between the cut and this padding writes the second index row
  have e3 : (W12 m ρ c (Proc.devRef .tc main_v5) : S1000000.Idx → BitVec 32) = W3 m ρ c (Proc.devRef .tc main_v5) :=
    calc W12 m ρ c (Proc.devRef .tc main_v5)
      _ = W11 m ρ c (Proc.devRef .tc main_v5) := keep2_9 _ (by decide)
      _ = W10 m ρ c (Proc.devRef .tc main_v5) := keep2_8 _ (by decide)
      _ = W9 m ρ c (Proc.devRef .tc main_v5) := keep2_7 _ (by decide)
      _ = W8 m ρ c (Proc.devRef .tc main_v5) := keep2_6 _ (by decide)
      _ = W7 m ρ c (Proc.devRef .tc main_v5) := keep2_5 _ (by decide)
      _ = W6 m ρ c (Proc.devRef .tc main_v5) := keep2_4 _ (by decide)
      _ = W5 m ρ c (Proc.devRef .tc main_v5) := keep2_3 _ (by decide)
      _ = W4 m ρ c (Proc.devRef .tc main_v5) := keep2_2 _ (by decide)
      _ = W3 m ρ c (Proc.devRef .tc main_v5) := keep2_1 _ (by decide)
  show (W13 m ρ c (Proc.devRef .tc main_v11) : S1000448.Idx → BitVec 32) (ix1 n) = _
  rw [show (W13 m ρ c (Proc.devRef .tc main_v11) : S1000448.Idx → BitVec 32) = _ from after2_10_main_v11 (W12 m ρ c),
    pad_vec_apply _ _ n hn, e3, W3_main_v5 m ρ c h4, row1_apply]

/-- No host operation here writes the weights or the bias. -/
theorem V13_main_arg2 (c : Dev nD) : V13 m ρ c main_arg2 = V2 m ρ c main_arg2 :=
  calc W13 m ρ c (Proc.devRef .tc main_arg2)
    _ = W12 m ρ c (Proc.devRef .tc main_arg2) := keep2_10 _ (by decide)
    _ = W11 m ρ c (Proc.devRef .tc main_arg2) := keep2_9 _ (by decide)
    _ = W10 m ρ c (Proc.devRef .tc main_arg2) := keep2_8 _ (by decide)
    _ = W9 m ρ c (Proc.devRef .tc main_arg2) := keep2_7 _ (by decide)
    _ = W8 m ρ c (Proc.devRef .tc main_arg2) := keep2_6 _ (by decide)
    _ = W7 m ρ c (Proc.devRef .tc main_arg2) := keep2_5 _ (by decide)
    _ = W6 m ρ c (Proc.devRef .tc main_arg2) := keep2_4 _ (by decide)
    _ = W5 m ρ c (Proc.devRef .tc main_arg2) := keep2_3 _ (by decide)
    _ = W4 m ρ c (Proc.devRef .tc main_arg2) := keep2_2 _ (by decide)
    _ = W3 m ρ c (Proc.devRef .tc main_arg2) := keep2_1 _ (by decide)
    _ = W2 m ρ c (Proc.devRef .tc main_arg2) := keep2_0 _ (by decide)
theorem V13_main_arg3 (c : Dev nD) : V13 m ρ c main_arg3 = V2 m ρ c main_arg3 :=
  calc W13 m ρ c (Proc.devRef .tc main_arg3)
    _ = W12 m ρ c (Proc.devRef .tc main_arg3) := keep2_10 _ (by decide)
    _ = W11 m ρ c (Proc.devRef .tc main_arg3) := keep2_9 _ (by decide)
    _ = W10 m ρ c (Proc.devRef .tc main_arg3) := keep2_8 _ (by decide)
    _ = W9 m ρ c (Proc.devRef .tc main_arg3) := keep2_7 _ (by decide)
    _ = W8 m ρ c (Proc.devRef .tc main_arg3) := keep2_6 _ (by decide)
    _ = W7 m ρ c (Proc.devRef .tc main_arg3) := keep2_5 _ (by decide)
    _ = W6 m ρ c (Proc.devRef .tc main_arg3) := keep2_4 _ (by decide)
    _ = W5 m ρ c (Proc.devRef .tc main_arg3) := keep2_3 _ (by decide)
    _ = W4 m ρ c (Proc.devRef .tc main_arg3) := keep2_2 _ (by decide)
    _ = W3 m ρ c (Proc.devRef .tc main_arg3) := keep2_1 _ (by decide)
    _ = W2 m ρ c (Proc.devRef .tc main_arg3) := keep2_0 _ (by decide)

end Cert.KernelIdeal.HostMid

end
-- ==== Proof.Tails.lean ====
/-
  The last host operations of both programs, which are the same: the first million rows cut out of a `[1000448, 36]`
  array (in the reference the array already has a million rows), the result laid out flat, and the two flat coordinate
  arrays stacked as the two rows of one array. Entry `(i, j)` of incidence `n` ends at flat position `36 n + 6 i + j`.
-/
import proofs.«425693_j74509092651432_2_alg».proof.Proof.Gen.KernelIdeal.Frame
import proofs.«425693_j74509092651432_2_alg».proof.Proof.Gen.ReferenceIdeal.Read
import proofs.«425693_j74509092651432_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Tails

open Idealize.ShloMosaic Idealize.ShloMosaic.ValueIdx Idealize.ShloMosaic.TcCoe Idealize.SL.Sem Idealize.ShloMosaic.StableHlo

/-- The flat position of entry `(i, j)` of incidence `n`. -/
abbrev flat (n : Fin 1000000) (i j : Fin 6) : Fin 36000000 :=
  ⟨36 * n.val + 6 * i.val + j.val, by have := n.isLt; have := i.isLt; have := j.isLt; omega⟩

/-- Column `6 i + j` of a 36-column array. -/
abbrev col36 (i j : Fin 6) : Fin 36 := ⟨6 * i.val + j.val, by have := i.isLt; have := j.isLt; omega⟩

/-- Every flat position is that of one entry of one incidence. -/
theorem flat_surj (p : Fin 36000000) : ∃ n i j, p = flat n i j :=
  ⟨⟨p.val / 36, by have := p.isLt; omega⟩, ⟨p.val % 36 / 6, by omega⟩, ⟨p.val % 6, by omega⟩, Fin.ext (by show p.val = 36 * (p.val / 36) + 6 * (p.val % 36 / 6) + p.val % 6; omega)⟩

section Layout
variable {α : Type}

/-- A `[1000000, 36]` array laid out flat: position `36 n + 6 i + j` holds entry `(n, 6 i + j)`. -/
theorem flat_of_rows (X : (⟨2, ![1000000, 36]⟩ : Shape).Idx → α)
    (h : (⟨2, ![1000000, 36]⟩ : Shape).ShapeCasts ⟨1, ![36000000]⟩) (n : Fin 1000000) (i j : Fin 6) :
    shapeCast ⟨1, ![36000000]⟩ X h (ix1 (flat n i j)) = X (ix2 n (col36 i j)) :=
  shapeCast_apply X h (ix1 (flat n i j)) (ix2 n (col36 i j)) (by
    rw [Shape.rowMajor_val_two, Shape.rowMajor_val_one]
    show n.val * 36 + (6 * i.val + j.val) = 36 * n.val + 6 * i.val + j.val
    omega)

/-- A `[1000000, 6, 6]` array laid out flat: position `36 n + 6 i + j` holds entry `(n, i, j)`. -/
theorem flat_of_blocks (X : (⟨3, ![1000000, 6, 6]⟩ : Shape).Idx → α)
    (h : (⟨3, ![1000000, 6, 6]⟩ : Shape).ShapeCasts ⟨1, ![36000000]⟩) (n : Fin 1000000) (i j : Fin 6) :
    shapeCast ⟨1, ![36000000]⟩ X h (ix1 (flat n i j)) = X (ix3 n i j) :=
  shapeCast_apply X h (ix1 (flat n i j)) (ix3 n i j) (by
    rw [Shape.rowMajor_val_three, Shape.rowMajor_val_one]
    show (n.val * 6 + i.val) * 6 + j.val = 36 * n.val + 6 * i.val + j.val
    omega)

/-- The first million rows of a `[1000448, 36]` array: row `n` of the cut is row `n` of the array. -/
theorem first_rows (X : (⟨2, ![1000448, 36]⟩ : Shape).Idx → α)
    (h : (⟨2, ![1000448, 36]⟩ : Shape).Slices ![0, 0] ⟨2, ![1000000, 36]⟩) (n : Fin 1000000) (q : Fin 36) :
    extractStridedSlice ⟨2, ![1000000, 36]⟩ ![0, 0] X h (ix2 n q)
      = X (ix2 ⟨n.val, by have := n.isLt; omega⟩ q) :=
  extractStridedSlice_apply ![0, 0] X h (ix2 n q) (ix2 ⟨n.val, by have := n.isLt; omega⟩ q)
    (fun a => by match a with
      | ⟨0, _⟩ => exact (Nat.zero_add _).symm
      | ⟨1, _⟩ => exact (Nat.zero_add _).symm)

/-- A flat array as the single row of a `[1, 36000000]` array. -/
theorem as_row (x : (⟨1, ![36000000]⟩ : Shape).Idx → α)
    (h : (⟨1, ![36000000]⟩ : Shape).BroadcastsInDim ⟨2, ![1, 36000000]⟩ ![1]) (p : Fin 36000000) :
    broadcastInDim ⟨2, ![1, 36000000]⟩ ![1] h x (ix2 0 p) = x (ix1 p) :=
  broadcastInDim_apply ![1] h x (ix2 0 p) (ix1 p) (fun a => by match a with
    | ⟨0, _⟩ => show p.val = if (36000000 : Nat) = 1 then 0 else p.val; rw [if_neg (by decide)])

/-- Two single-row arrays stacked: row `0` of the stack is the first. -/
theorem stack_row0 (a b : (⟨2, ![1, 36000000]⟩ : Shape).Idx → α)
    (h : Shape.Concatenates [(⟨2, ![1, 36000000]⟩ : Shape), ⟨2, ![1, 36000000]⟩] ⟨2, ![2, 36000000]⟩ 0) (p : Fin 36000000) :
    concatenate ⟨2, ![2, 36000000]⟩ 0 [⟨⟨2, ![1, 36000000]⟩, a⟩, ⟨⟨2, ![1, 36000000]⟩, b⟩] h (ix2 0 p) = a (ix2 0 p) :=
  concatenate_pair_apply_left 0 a b h (ix2 0 p) rfl (ix2 0 p)
    (fun bb => by match bb with | ⟨0, _⟩ => rfl | ⟨1, _⟩ => rfl)

/-- Two single-row arrays stacked: row `1` of the stack is the second. -/
theorem stack_row1 (a b : (⟨2, ![1, 36000000]⟩ : Shape).Idx → α)
    (h : Shape.Concatenates [(⟨2, ![1, 36000000]⟩ : Shape), ⟨2, ![1, 36000000]⟩] ⟨2, ![2, 36000000]⟩ 0) (p : Fin 36000000) :
    concatenate ⟨2, ![2, 36000000]⟩ 0 [⟨⟨2, ![1, 36000000]⟩, a⟩, ⟨⟨2, ![1, 36000000]⟩, b⟩] h (ix2 1 p) = b (ix2 0 p) :=
  concatenate_pair_apply_right 0 a b h (ix2 1 p) rfl rfl (ix2 0 p)
    (fun bb hb => by match bb with | ⟨0, _⟩ => exact absurd rfl hb | ⟨1, _⟩ => rfl)
    (by show 0 + 1 = 1; rfl)

end Layout

section Kernel
open Cert.KernelIdeal Cert.KernelIdeal.Gen

variable (m : (ℓ : Loc nD τ sig) → Buf (Elt Ideal) ℓ) (ρ : Dev nD → PrngReg)

/-- The float result as a term: the sheaf region's float output, its first million rows, laid out flat. -/
theorem W15_attrs_term (c : Dev nD) :
    (W15 m ρ c (Proc.devRef .tc main_v14) : S36000000.Idx → EReal)
      = shapeCast S36000000 (extractStridedSlice S1000000x36 ![0, 0] (V14 m ρ c main_v12_0 : S1000448x36.Idx → EReal)
          slices_S1000448x36_S1000000x36_0_0) shapeCasts_S1000000x36_S36000000 := by
  show StableHlo.after hostOps3 (W14 m ρ c) (Proc.devRef .tc main_v14) = _
  after_results
  rfl

/-- The coordinate result as a term: each integer output cut to its first million rows and laid out flat, the two
    flat arrays stacked as the rows of one. -/
theorem W15_idx_term (c : Dev nD) :
    (W15 m ρ c (Proc.devRef .tc main_v21) : S2x36000000.Idx → BitVec 32)
      = concatenate S2x36000000 0
          [⟨S1x36000000, broadcastInDim S1x36000000 ![1] bcast_S36000000_S1x36000000_1
              (shapeCast S36000000 (extractStridedSlice S1000000x36 ![0, 0] (V14 m ρ c main_v12_1 : S1000448x36.Idx → BitVec 32)
                slices_S1000448x36_S1000000x36_0_0) shapeCasts_S1000000x36_S36000000)⟩,
           ⟨S1x36000000, broadcastInDim S1x36000000 ![1] bcast_S36000000_S1x36000000_1
              (shapeCast S36000000 (extractStridedSlice S1000000x36 ![0, 0] (V14 m ρ c main_v12_2 : S1000448x36.Idx → BitVec 32)
                slices_S1000448x36_S1000000x36_0_0) shapeCasts_S1000000x36_S36000000)⟩]
          concatenates_S1x36000000_S1x36000000_S2x36000000_d0 := by
  show StableHlo.after hostOps3 (W14 m ρ c) (Proc.devRef .tc main_v21) = _
  after_results
  rfl

/-- The kernel program's float result at a flat position is the sheaf region's float output at the incidence's row. -/
theorem W15_attrs (c : Dev nD) (n : Fin 1000000) (i j : Fin 6) :
    (W15 m ρ c (Proc.devRef .tc main_v14) : S36000000.Idx → EReal) (ix1 (flat n i j))
      = (V14 m ρ c main_v12_0 : S1000448x36.Idx → EReal) (ix2 ⟨n.val, by have := n.isLt; omega⟩ (col36 i j)) := by
  refine (congrFun (W15_attrs_term m ρ c) _).trans ?_
  refine (flat_of_rows _ _ n i j).trans ?_
  exact first_rows _ _ n (col36 i j)

/-- The kernel program's coordinate result: row 0 from the region's first integer output, row 1 from its second. -/
theorem W15_idx0 (c : Dev nD) (n : Fin 1000000) (i j : Fin 6) :
    (W15 m ρ c (Proc.devRef .tc main_v21) : S2x36000000.Idx → BitVec 32) (ix2 0 (flat n i j))
      = (V14 m ρ c main_v12_1 : S1000448x36.Idx → BitVec 32) (ix2 ⟨n.val, by have := n.isLt; omega⟩ (col36 i j)) := by
  refine (congrFun (W15_idx_term m ρ c) _).trans ?_
  refine (stack_row0 _ _ _ (flat n i j)).trans ?_
  refine (as_row _ _ (flat n i j)).trans ?_
  refine (flat_of_rows _ _ n i j).trans ?_
  exact first_rows _ _ n (col36 i j)
theorem W15_idx1 (c : Dev nD) (n : Fin 1000000) (i j : Fin 6) :
    (W15 m ρ c (Proc.devRef .tc main_v21) : S2x36000000.Idx → BitVec 32) (ix2 1 (flat n i j))
      = (V14 m ρ c main_v12_2 : S1000448x36.Idx → BitVec 32) (ix2 ⟨n.val, by have := n.isLt; omega⟩ (col36 i j)) := by
  refine (congrFun (W15_idx_term m ρ c) _).trans ?_
  refine (stack_row1 _ _ _ (flat n i j)).trans ?_
  refine (as_row _ _ (flat n i j)).trans ?_
  refine (flat_of_rows _ _ n i j).trans ?_
  exact first_rows _ _ n (col36 i j)

end Kernel

section Reference
open Cert.ReferenceIdeal Cert.ReferenceIdeal.Read

/-- The reference's float result at a flat position is the maps' entry. -/
theorem ref_attrs (x0 : (⟨S600000x64, .f32⟩ : BufTy).Contents (Elt Ideal)) (x1 : (⟨S120000x64, .f32⟩ : BufTy).Contents (Elt Ideal))
    (x2 : (⟨S128x30, .f32⟩ : BufTy).Contents (Elt Ideal)) (x3 : (⟨S30, .f32⟩ : BufTy).Contents (Elt Ideal))
    (x4 : (⟨S2x1000000, .i32⟩ : BufTy).Contents (Elt Ideal)) (n : Fin 1000000) (i j : Fin 6) :
    val_main_v55 (F := Ideal) x0 x1 x2 x3 x4 (ix1 (flat n i j)) = val_main_v54 (F := Ideal) x0 x1 x2 x3 x4 (ix3 n i j) := by
  unfold val_main_v55
  exact flat_of_blocks _ _ n i j

/-- The reference's coordinate result: row 0 from the block-row coordinates, row 1 from the block-column coordinates. -/
theorem ref_idx0 (x4 : (⟨S2x1000000, .i32⟩ : BufTy).Contents (Elt Ideal)) (n : Fin 1000000) (i j : Fin 6) :
    val_main_v80 (F := Ideal) x4 (ix2 0 (flat n i j)) = val_main_v68 (F := Ideal) x4 (ix2 n (col36 i j)) := by
  unfold val_main_v80
  refine (stack_row0 _ _ _ (flat n i j)).trans ?_
  unfold val_main_v78
  refine (as_row _ _ (flat n i j)).trans ?_
  unfold val_main_v69
  exact flat_of_rows _ _ n i j
theorem ref_idx1 (x4 : (⟨S2x1000000, .i32⟩ : BufTy).Contents (Elt Ideal)) (n : Fin 1000000) (i j : Fin 6) :
    val_main_v80 (F := Ideal) x4 (ix2 1 (flat n i j)) = val_main_v76 (F := Ideal) x4 (ix2 n (col36 i j)) := by
  unfold val_main_v80
  refine (stack_row1 _ _ _ (flat n i j)).trans ?_
  unfold val_main_v79
  refine (as_row _ _ (flat n i j)).trans ?_
  unfold val_main_v77
  exact flat_of_rows _ _ n i j

end Reference

end Cert.Tails

end
-- ==== Proof.PreDecode.lean ====
/-
  What the precondition says of the index array: every entry of its row 0 addresses the 100000 nodes and every entry of
  its row 1 addresses the 20000 hyperedges, counting from the front or, when negative, from the back.
-/
import proofs.«425693_j74509092651432_2_alg».proof.Defs
import proofs.«425693_j74509092651432_2_alg».proof.Proof.Gen.Pre_finite_inputs
import proofs.«425693_j74509092651432_2_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

set_option maxRecDepth 16384

noncomputable section

namespace Cert.PreDecode

open Idealize.ShloMosaic Idealize.ShloMosaic.ValueIdx Idealize.SL.Sem

/-- The scalar shape has one index. -/
instance subsingleton_scalar_idx : Subsingleton (⟨0, ![]⟩ : Shape).Idx := ⟨fun a b => funext fun d => d.elim0⟩

/-- Row `k` of a two-row array, cut out as a one-row matrix and flattened, reads at `n` the array at `(k, n)`. -/
theorem row_apply {N : ℕ} (o : ℕ) (X : (⟨2, ![2, N]⟩ : Shape).Idx → BitVec 32)
    (hs : (⟨2, ![2, N]⟩ : Shape).Slices ![o, 0] ⟨2, ![1, N]⟩)
    (hc : (⟨2, ![1, N]⟩ : Shape).ShapeCasts ⟨1, ![N]⟩) (k : Fin 2) (hk : k.val = o) (n : Fin N) :
    shapeCast ⟨1, ![N]⟩ (extractStridedSlice ⟨2, ![1, N]⟩ ![o, 0] X hs) hc (ix1 n) = X (ix2 k n) := by
  rw [shapeCast_1a_a_apply]
  exact slice2_axis0_apply o X hs 0 n k (by rw [hk]; rfl)

/-- A scalar word spread over a vector reads that word everywhere. -/
theorem bcast_const {N : ℕ} (hb : (⟨0, ![]⟩ : Shape).BroadcastsInDim ⟨1, ![N]⟩ (![] : Fin 0 → Fin 1)) (b : BitVec 32) (n : Fin N) :
    broadcastInDim ⟨1, ![N]⟩ ![] hb (constantI ⟨0, ![]⟩ 32 b) (ix1 n) = b := rfl

/-- If the conjunction over a vector of the signed tests "entry of `A` below entry of `B`" is one, every entry of `A` is
    below `B`'s, read as signed integers. -/
theorem all_slt {N : ℕ} (A B : IVec ⟨1, ![N]⟩ 32) (init : IVec ⟨0, ![]⟩ 1)
    (hr : (⟨1, ![N]⟩ : Shape).ReducesTo [0] ⟨0, ![]⟩) (hu : 0 < (⟨0, ![]⟩ : Shape).numel)
    (e : Host.reduce IntOp.andi (cmpi .slt A B) init hr hu ix0 = 1#1) (n : Fin N) :
    (A (ix1 n)).toInt < (B (ix1 n)).toInt :=
  IntOp.cmpi_slt.1 (Host.reduce_andi_all (cmpi .slt A B) init hr hu ix0 e (ix1 n))

/-- Likewise for the signed test "entry of `A` at least entry of `B`". -/
theorem all_sge {N : ℕ} (A B : IVec ⟨1, ![N]⟩ 32) (init : IVec ⟨0, ![]⟩ 1)
    (hr : (⟨1, ![N]⟩ : Shape).ReducesTo [0] ⟨0, ![]⟩) (hu : 0 < (⟨0, ![]⟩ : Shape).numel)
    (e : Host.reduce IntOp.andi (cmpi .sge A B) init hr hu ix0 = 1#1) (n : Fin N) :
    (B (ix1 n)).toInt ≤ (A (ix1 n)).toInt :=
  IntOp.cmpi_sge.1 (Host.reduce_andi_all (cmpi .sge A B) init hr hu ix0 e (ix1 n))

/-- The four bounds as signed integers: the words 2³² − 100000 and 2³² − 20000 read −100000 and −20000. -/
theorem toInt_neg_nodes : (4294867296#32 : BitVec 32).toInt = -100000 := by decide
theorem toInt_nodes : (100000#32 : BitVec 32).toInt = 100000 := by decide
theorem toInt_neg_edges : (4294947296#32 : BitVec 32).toInt = -20000 := by decide
theorem toInt_edges : (20000#32 : BitVec 32).toInt = 20000 := by decide

section
open Cert.Pre_finite_inputs

/-- The last part of the predicate: a conjunction of what came before (`v30`), of the all-ones test of `v34`, and of
    "every entry of row 1 is below 20000". -/
theorem part2_decode (X : IVec S2x1000000 32) (v30 : IVec S_ 1) (v34 : IVec S1000000 1)
    (h : fn_part2 (F := Ideal) X v30 v34 ix0 = 1#1) :
    v30 ix0 = 1#1 ∧ (∀ n : Fin 1000000, v34 (ix1 n) = 1#1) ∧ ∀ n : Fin 1000000, (X (ix2 1 n)).toInt < 20000 := by
  unfold fn_part2 at h
  dsimp only at h
  obtain ⟨h36, h41⟩ := IntOp.andi_eq_one.1 h
  obtain ⟨h30, h35⟩ := IntOp.andi_eq_one.1 h36
  refine ⟨h30, fun n => Host.reduce_andi_all _ _ _ _ ix0 h35 (ix1 n), fun n => ?_⟩
  have hn := all_slt _ _ _ _ _ h41 n
  rw [row_apply 1 X _ _ 1 rfl n, bcast_const, toInt_edges] at hn
  exact hn

/-- The middle part: beside the float tests it carries in (`v13`, `v16`), the three remaining index tests, then the
    last part. Together: row 0 lies in [−100000, 100000) and row 1 in [−20000, 20000). -/
theorem part1_decode (X : IVec S2x1000000 32) (v13 : IVec S_ 1) (v16 : IVec S30 1)
    (h : fn_part1 (F := Ideal) X v13 v16 ix0 = 1#1) (n : Fin 1000000) :
    (-100000 ≤ (X (ix2 0 n)).toInt ∧ (X (ix2 0 n)).toInt < 100000)
      ∧ (-20000 ≤ (X (ix2 1 n)).toInt ∧ (X (ix2 1 n)).toInt < 20000) := by
  unfold fn_part1 at h
  dsimp only at h
  obtain ⟨h30, h34, hlt1⟩ := part2_decode _ _ _ h
  obtain ⟨h24, h29⟩ := IntOp.andi_eq_one.1 h30
  obtain ⟨h18, h23⟩ := IntOp.andi_eq_one.1 h24
  have hge0 := all_sge _ _ _ _ _ h23 n
  rw [row_apply 0 X _ _ 0 rfl n, bcast_const, toInt_neg_nodes] at hge0
  have hlt0 := all_slt _ _ _ _ _ h29 n
  rw [row_apply 0 X _ _ 0 rfl n, bcast_const, toInt_nodes] at hlt0
  have hge1 := IntOp.cmpi_sge.1 (h34 n)
  rw [row_apply 1 X _ _ 1 rfl n, bcast_const, toInt_neg_edges] at hge1
  exact ⟨⟨hge0, hlt0⟩, ⟨hge1, hlt1 n⟩⟩

/-- The whole predicate: its first part only tests the float arrays and hands on to the middle part. -/
theorem fn_decode (a0 : FVec Ideal S600000x64 .f32) (a1 : FVec Ideal S120000x64 .f32) (a2 : FVec Ideal S128x30 .f32)
    (a3 : FVec Ideal S30 .f32) (X : IVec S2x1000000 32) (a5 : IVec S100000 32) (a6 : IVec S20000 32)
    (h : fn (F := Ideal) a0 a1 a2 a3 X a5 a6 ix0 = 1#1) (n : Fin 1000000) :
    (-100000 ≤ (X (ix2 0 n)).toInt ∧ (X (ix2 0 n)).toInt < 100000)
      ∧ (-20000 ≤ (X (ix2 1 n)).toInt ∧ (X (ix2 1 n)).toInt < 20000) := by
  unfold fn at h
  dsimp only at h
  exact part1_decode _ _ _ h n

end

/-- Under the precondition every node index and every hyperedge index is in range. -/
theorem in_range (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (n : Fin 1000000) :
    Cert.Sheaf.InRange 100000 ((m ((c.tc : Thread Cert.KernelIdeal.nD Cert.KernelIdeal.τ).loc Cert.KernelIdeal.main_arg4) : Cert.KernelIdeal.S2x1000000.Idx → BitVec 32) (ix2 0 n))
      ∧ Cert.Sheaf.InRange 20000 ((m ((c.tc : Thread Cert.KernelIdeal.nD Cert.KernelIdeal.τ).loc Cert.KernelIdeal.main_arg4) : Cert.KernelIdeal.S2x1000000.Idx → BitVec 32) (ix2 1 n)) := by
  have h := fn_decode _ _ _ _ _ _ _ (congrFun (hpre c) ix0) n
  unfold Cert.Sheaf.InRange
  push_cast
  exact h

end Cert.PreDecode

end
-- ==== Proof.Bridge.lean ====
/-
  The two programs compute the same arrays.

  Flat position `36 n + 6 i + j` of the float result is entry `(i, j)` of incidence `n`'s restriction map. On the kernel
  program's side it is read back through the last host operations, the sheaf region (row `n` of its operands), the
  padding and the gathers (where the indices' being in range removes the fill), and the two pooling regions; on the
  reference's side through its own stages. Both arrive at the same expression in the pooled feature rows, the weights
  and the bias. The coordinate results meet the same way at `6 · row n + i` and `6 · col n + j`.
-/
import proofs.«425693_j74509092651432_2_alg».proof.Proof.Gen.KernelIdeal.Frame
import proofs.«425693_j74509092651432_2_alg».proof.Proof.Gen.ReferenceIdeal.Read
import proofs.«425693_j74509092651432_2_alg».proof.Proof.Spec
import proofs.«425693_j74509092651432_2_alg».proof.Proof.MeanKernel
import proofs.«425693_j74509092651432_2_alg».proof.Proof.SheafRegion
import proofs.«425693_j74509092651432_2_alg».proof.Proof.RefValue
import proofs.«425693_j74509092651432_2_alg».proof.Proof.HostMid
import proofs.«425693_j74509092651432_2_alg».proof.Proof.Tails
import proofs.«425693_j74509092651432_2_alg».proof.Proof.PreDecode
import Idealize.ShloMosaic.Lib.ValueIdx

set_option maxRecDepth 16384

noncomputable section

namespace Cert.Bridge

open Cert.KernelIdeal Cert.KernelIdeal.Gen
open Idealize.ShloMosaic Idealize.ShloMosaic.ValueIdx Idealize.ShloMosaic.TcCoe Idealize.SL.Sem
open Cert.Tails (flat col36 flat_surj)

variable (m : (ℓ : Loc nD τ sig) → Buf (Elt Ideal) ℓ) (ρ : Dev nD → PrngReg)

/-- The pooled node features the kernel program holds are the reference's. -/
theorem pooled_x (c : Dev nD) :
    (V2 m ρ c main_v0 : S100000x64.Idx → EReal) = Cert.ReferenceIdeal.Read.val_main_v3 (F := Ideal) (m ((c : Thread nD τ).loc main_arg0)) := by
  funext i
  obtain ⟨n, f, rfl⟩ : ∃ (n : Fin 100000) (f : Fin 64), i = ix2 n f := ⟨i 0, i 1, eq_ix2 i⟩
  rw [Cert.KernelIdeal.MeanVal.V2_main_v0, Cert.KernelIdeal.MeanVal.V1_main_v0, Cert.ReferenceIdeal.RefValue.mean_x]

/-- The pooled hyperedge features the kernel program holds are the reference's. -/
theorem pooled_e (c : Dev nD) :
    (V2 m ρ c main_v1 : S20000x64.Idx → EReal) = Cert.ReferenceIdeal.Read.val_main_v7 (F := Ideal) (m ((c : Thread nD τ).loc main_arg1)) := by
  funext i
  obtain ⟨n, f, rfl⟩ : ∃ (n : Fin 20000) (f : Fin 64), i = ix2 n f := ⟨i 0, i 1, eq_ix2 i⟩
  rw [Cert.KernelIdeal.MeanVal.V2_main_v1, Cert.ReferenceIdeal.RefValue.mean_e]

/-- The float results agree. -/
theorem attrs_eq (hpre : Cert.Pre_KernelIdeal (hPre_finite_inputs := Cert.Pre_finite_inputs.Gen.facts) m) (c : Dev nD) :
    (W15 m ρ c (Proc.devRef .tc main_v14) : S36000000.Idx → EReal)
      = Cert.ReferenceIdeal.Read.val_main_v55 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext p
  obtain ⟨q, rfl⟩ : ∃ q : Fin 36000000, p = ix1 q := ⟨p 0, eq_ix1 p⟩
  obtain ⟨n, i, j, rfl⟩ := flat_surj q
  have hn : n.val < 1000000 := n.isLt
  rw [Cert.Tails.W15_attrs, Cert.Tails.ref_attrs, Cert.ReferenceIdeal.RefValue.attrs_apply, Cert.KernelIdeal.SheafReg.V14_attrs]
  have h4 := Cert.KernelIdeal.MeanVal.V2_main_arg4 m ρ c
  have e8 : ∀ f : Fin 64, (V13 m ρ c main_v8 : S1000448x64.Idx → EReal) (ix2 ⟨n.val, by omega⟩ f)
      = Cert.ReferenceIdeal.Read.val_main_v18 (F := Ideal) (m ((c : Thread nD τ).loc main_arg0)) (m ((c : Thread nD τ).loc main_arg4)) (ix2 n f) :=
    fun f => Cert.KernelIdeal.HostMid.V13_main_v8 m ρ c (pooled_x m ρ c) h4 (fun k => (Cert.PreDecode.in_range m hpre c k).1) ⟨n.val, by omega⟩ hn f
  have e9 : ∀ f : Fin 64, (V13 m ρ c main_v9 : S1000448x64.Idx → EReal) (ix2 ⟨n.val, by omega⟩ f)
      = Cert.ReferenceIdeal.Read.val_main_v25 (F := Ideal) (m ((c : Thread nD τ).loc main_arg1)) (m ((c : Thread nD τ).loc main_arg4)) (ix2 n f) :=
    fun f => Cert.KernelIdeal.HostMid.V13_main_v9 m ρ c (pooled_e m ρ c) h4 (fun k => (Cert.PreDecode.in_range m hpre c k).2) ⟨n.val, by omega⟩ hn f
  have e2 : V13 m ρ c main_arg2 = m ((c : Thread nD τ).loc main_arg2) :=
    (Cert.KernelIdeal.HostMid.V13_main_arg2 m ρ c).trans (Cert.KernelIdeal.MeanVal.V2_main_arg2 m ρ c)
  have e3 : V13 m ρ c main_arg3 = m ((c : Thread nD τ).loc main_arg3) :=
    (Cert.KernelIdeal.HostMid.V13_main_arg3 m ρ c).trans (Cert.KernelIdeal.MeanVal.V2_main_arg3 m ρ c)
  simp only [e8, e9, e2, e3]

/-- The coordinate results agree. -/
theorem idx_eq (c : Dev nD) :
    (W15 m ρ c (Proc.devRef .tc main_v21) : S2x36000000.Idx → BitVec 32)
      = Cert.ReferenceIdeal.Read.val_main_v80 (F := Ideal) (m ((c : Thread nD τ).loc main_arg4)) := by
  funext p
  obtain ⟨s, q, rfl⟩ : ∃ (s : Fin 2) (q : Fin 36000000), p = ix2 s q := ⟨p 0, p 1, eq_ix2 p⟩
  obtain ⟨n, i, j, rfl⟩ := flat_surj q
  have hn : n.val < 1000000 := n.isLt
  have h4 := Cert.KernelIdeal.MeanVal.V2_main_arg4 m ρ c
  match s with
  | ⟨0, _⟩ =>
    show (W15 m ρ c (Proc.devRef .tc main_v21) : S2x36000000.Idx → BitVec 32) (ix2 0 (flat n i j)) = Cert.ReferenceIdeal.Read.val_main_v80 (F := Ideal) _ (ix2 0 (flat n i j))
    rw [Cert.Tails.W15_idx0, Cert.Tails.ref_idx0, Cert.ReferenceIdeal.RefValue.idx0_apply, Cert.KernelIdeal.SheafReg.V14_idx0,
      Cert.KernelIdeal.HostMid.V13_main_v10 m ρ c h4 ⟨n.val, by omega⟩ hn]
  | ⟨1, _⟩ =>
    show (W15 m ρ c (Proc.devRef .tc main_v21) : S2x36000000.Idx → BitVec 32) (ix2 1 (flat n i j)) = Cert.ReferenceIdeal.Read.val_main_v80 (F := Ideal) _ (ix2 1 (flat n i j))
    rw [Cert.Tails.W15_idx1, Cert.Tails.ref_idx1, Cert.ReferenceIdeal.RefValue.idx1_apply, Cert.KernelIdeal.SheafReg.V14_idx1,
      Cert.KernelIdeal.HostMid.V13_main_v11 m ρ c h4 ⟨n.val, by omega⟩ hn]

end Cert.Bridge

end
-- ==== Proof.lean ====
/-
  The kernel program pools the six stalk copies of every node and of every hyperedge (two regions), gathers a pooled
  row per incidence on the host, pads the million incidences to 977 blocks of 1024, and in a third region turns each
  incidence's feature row into its 6 × 6 restriction map `A Bᵀ + diag C` and the map's block coordinates; the host then
  drops the padding and lays the results out flat. The reference does the same on whole arrays.

  Over the extended reals the two agree entry by entry: a mean is the same sum over the same six rows divided by the
  same `6.0`; the affine layer is the same sum of 128 products plus the same bias; the logistic is one function however
  it is spelt; `0 + a₀ b₀ + a₁ b₁` is the sum over the two factor columns; the identity matrix is `[i = j]` whether it is
  built from a compare of two counters widened as an integer or converted from a truth value. None of this needs the
  inputs to be finite. What the statement does need is that every index addresses its array: the kernel program's
  gather writes a fixed fill word where an index falls outside, the reference's does not, and the precondition's
  range conjuncts are exactly what rules the fill out.
-/
import proofs.«425693_j74509092651432_2_alg».proof.Defs
import proofs.«425693_j74509092651432_2_alg».proof.Proof.Gen.Kernel
import proofs.«425693_j74509092651432_2_alg».proof.Proof.Gen.Kernel.Skeleton
import proofs.«425693_j74509092651432_2_alg».proof.Proof.Gen.Kernel.Launch
import proofs.«425693_j74509092651432_2_alg».proof.Proof.Gen.Kernel.Points
import proofs.«425693_j74509092651432_2_alg».proof.Proof.Gen.Kernel.Frame
import proofs.«425693_j74509092651432_2_alg».proof.Proof.Gen.KernelIdeal
import proofs.«425693_j74509092651432_2_alg».proof.Proof.Gen.KernelIdeal.Skeleton
import proofs.«425693_j74509092651432_2_alg».proof.Proof.Gen.KernelIdeal.Launch
import proofs.«425693_j74509092651432_2_alg».proof.Proof.Gen.KernelIdeal.Points
import proofs.«425693_j74509092651432_2_alg».proof.Proof.Gen.KernelIdeal.Frame
import proofs.«425693_j74509092651432_2_alg».proof.Proof.Gen.ReferenceIdeal
import proofs.«425693_j74509092651432_2_alg».proof.Proof.Gen.ReferenceIdeal.Run
import proofs.«425693_j74509092651432_2_alg».proof.Proof.Gen.ReferenceIdeal.Read
import proofs.«425693_j74509092651432_2_alg».proof.Proof.Gen.Pre_finite_inputs
import proofs.«425693_j74509092651432_2_alg».proof.Proof.RunNamed
import proofs.«425693_j74509092651432_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only; its run names every result, and the frame forgets them. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the same two arrays: the kernel program's are the contents its segments' fold leaves, the
    reference's its stages, and the two are one function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W15 m ρ c (Proc.devRef .tc Cert.KernelIdeal.main_v21),
    fun c => Cert.KernelIdeal.Gen.W15 m ρ c (Proc.devRef .tc Cert.KernelIdeal.main_v14),
    Cert.KernelIdeal.Gen.run_named m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v80_eq, (hagree c).2.2.2.2.1]
    exact (Cert.Bridge.idx_eq m ρ c).symm
  · rw [(h c).2.1, Cert.ReferenceIdeal.Read.val_main_v55_eq, (hagree c).1, (hagree c).2.1, (hagree c).2.2.1,
      (hagree c).2.2.2.1, (hagree c).2.2.2.2.1]
    exact (Cert.Bridge.attrs_eq m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
